-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128x1 : Shape := ⟨2, ![128, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S8192x256 .f32) (main_arg1 : IVec S8192x8192 32) (main_arg2 : FVec F S256x128 .f32) (main_arg3 : FVec F S128x1 .f32) (main_arg4 : FVec F S128x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128x1 : Shape := ⟨2, ![128, 1]⟩
abbrev S1x128 : Shape := ⟨2, ![1, 128]⟩
abbrev S8192x128 : Shape := ⟨2, ![8192, 128]⟩
abbrev S8192x1 : Shape := ⟨2, ![8192, 1]⟩
abbrev S1024x256 : Shape := ⟨2, ![1024, 256]⟩
abbrev S1024x128 : Shape := ⟨2, ![1024, 128]⟩
abbrev S1024x1 : Shape := ⟨2, ![1024, 1]⟩
abbrev S1024 : Shape := ⟨1, ![1024]⟩
abbrev S1x8192 : Shape := ⟨2, ![1, 8192]⟩
abbrev S1x1024 : Shape := ⟨2, ![1, 1024]⟩
abbrev S1024x1024 : Shape := ⟨2, ![1024, 1024]⟩

abbrev nBuf : Space → Nat
  | .hbm => 12
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x128, .f32⟩
  | .hbm, ⟨3, _⟩ => ⟨S128x1, .f32⟩
  | .hbm, ⟨4, _⟩ => ⟨S128x1, .f32⟩
  | .hbm, ⟨5, _⟩ => ⟨S1x128, .f32⟩
  | .hbm, ⟨6, _⟩ => ⟨S1x128, .f32⟩
  | .hbm, ⟨7, _⟩ => ⟨S8192x128, .bf16⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1x128, .f32⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x1024, .i32⟩
  | .local _ .vmem, ⟨16, _⟩ => ⟨S1024x1024, .i32⟩
  | .local _ .vmem, ⟨17, _⟩ => ⟨S8192x128, .bf16⟩
  | .local _ .vmem, ⟨18, _⟩ => ⟨S1024x128, .f32⟩
  | .local _ .vmem, ⟨19, _⟩ => ⟨S1024x128, .f32⟩
  | .local _ .vmem, ⟨20, _⟩ => ⟨S1024x1, .f32⟩
  | .local _ .vmem, ⟨21, _⟩ => ⟨S1024x1, .f32⟩
  | .local _ .vmem, ⟨22, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v38 : BitVec 32 := Scalar.muli arg1 c1024_i32
  v38
def k1_off1 (i : grid1.Coords) : Fin 2 → Nat :=
  let arg1 : BitVec 32 := BitVec.ofNat 32 (i 1).val
  let c1024_i32 : BitVec 32 := 1024#32
  let v38 : BitVec 32 := Scalar.muli arg1 c1024_i32
  let v39 : BitVec 32 := v38
  let v40 : Index := Scalar.indexCast v39
  let c0_19 : Index := 0#32
  ![v40.toNat, 0]
def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_27 : BitVec 32 := 0#32
  let v57 : BitVec 1 := Scalar.cmpi .ne v56 c0_i32_27
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S128x1_S1x128_1_0 : S128x1.Transposes [1, 0] S1x128
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S8192x1_S1x8192 : S8192x1.ShapeCasts S1x8192
  shapeCasts_S1024x1_S1024x1 : S1024x1.ShapeCasts S1024x1
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  broadcasts_S1024x1_S1024x128 : S1024x1.Broadcasts S1024x128
  dot_S1024x256_S256x128_S1024x128_1_0_0_1_n_n_wf : DotDims.WF S1024x256 S256x128 S1024x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .bf16 = 32 ∨ (Rect.block (s := S8192x128) S1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .i32 = 32 ∨ (Rect.block (s := S8192x8192) S1024x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x128.size a
  hwx1_3 : ∀ i : grid1.Coords, EltTy.bits .bf16 = 32 ∨ (Rect.block (s := S8192x128) S8192x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S8192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128x1 : Shape := ⟨2, ![128, 1]⟩
abbrev S8192x128 : Shape := ⟨2, ![8192, 128]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x128, .f32⟩
  | .hbm, ⟨3, _⟩ => ⟨S128x1, .f32⟩
  | .hbm, ⟨4, _⟩ => ⟨S128x1, .f32⟩
  | .hbm, ⟨5, _⟩ => ⟨S8192x128, .f32⟩
  | .hbm, ⟨6, _⟩ => ⟨S8192x1, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .i1⟩
  | .hbm, ⟨45, _⟩ => ⟨S_, .f32⟩
  | .hbm, ⟨46, _⟩ => ⟨S8192x128, .f32⟩
  | .hbm, ⟨47, _⟩ => ⟨S8192x128, .i1⟩
  | .hbm, ⟨48, _⟩ => ⟨S_, .f32⟩
  | .hbm, ⟨49, _⟩ => ⟨S_, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_call2_cst_1 : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_v4 : Ref sig .tc := ⟨.hbm, 51, rfl⟩
abbrev main_call2_v5 : Ref sig .tc := ⟨.hbm, 52, rfl⟩
abbrev main_call2_cst_2 : Ref sig .tc := ⟨.hbm, 53, rfl⟩
abbrev main_call2_v6 : Ref sig .tc := ⟨.hbm, 54, rfl⟩
abbrev main_call2_v7 : Ref sig .tc := ⟨.hbm, 55, rfl⟩
abbrev main_v23 : Ref sig .tc := ⟨.hbm, 56, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Reg0.lean ====
import proofs.«430478_j33861522162300_3_alg».proof.Proof.Gen.Kernel.Launch
import proofs.«430478_j33861522162300_3_alg».proof.Proof.Gen.Kernel.Skeleton
import proofs.«430478_j33861522162300_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projection kernel on its grid of 8 row blocks, at the entry contents `V`

The first kernel reads a block of 1024 rows of the features `X`, the whole weight matrix `W` and the two
attention rows, and writes three blocks: the projected rows `h = X·W` (rounded to bf16), and the two columns
of row scores `f1 = Σ_k h·a1`, `f2 = Σ_k h·a2`. Nothing is carried from one grid point to the next, so what
each output buffer holds after the body is a closed function of the four input blocks at the point. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or not: where it was not fetched the block index has not moved, and the body leaves the block in place.
    The row-block window `X` is fetched at every point; the weight matrix and the two attention rows have a
    constant block index, are fetched once, and stay. Stated for ANY proof data whose array is `V`'s (`hA`)
    and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_X : Rect S1024x256 := Rect.unit (s := S1024x256) ![0, 0] S1024x256.size inb_S1024x256_S1024x256_0_0
abbrev r0_W : Rect S256x128 := Rect.unit (s := S256x128) ![0, 0] S256x128.size inb_S256x128_S256x128_0_0
abbrev r0_a : Rect S1x128 := Rect.unit (s := S1x128) ![0, 0] S1x128.size inb_S1x128_S1x128_0_0
abbrev r0_f : Rect S1024x1 := Rect.unit (s := S1024x1) ![0, 0] S1024x1.size inb_S1024x1_S1024x1_0_0
abbrev r0_h : Rect S1024x128 := Rect.unit (s := S1024x128) ![0, 0] S1024x128.size inb_S1024x128_S1024x128_0_0

/-! ## What the body leaves in each output window's buffer -/

/-- The `h` block after the body: one whole-buffer store of the projected rows rounded to bf16. -/
def out0_4 (x0 : Vec F S1024x256 .f32) (x1 : Vec F S256x128 .f32) : Vec F S1024x128 .bf16 :=
  View.canon [⟨r0_h, k0_pay4 (View.ld x0 r0_X) (View.ld x1 r0_W)⟩]

/-- The `f1` block after the body: one whole-buffer store of the row sums of `h` times the first attention row. -/
def out0_5 (x0 : Vec F S1024x256 .f32) (x1 : Vec F S256x128 .f32) (x2 : Vec F S1x128 .f32) : Vec F S1024x1 .f32 :=
  View.canon [⟨r0_f, k0_pay2 (View.ld x0 r0_X) (View.ld x1 r0_W) (View.ld x2 r0_a)⟩]

/-- The `f2` block after the body: the same with the second attention row. -/
def out0_6 (x0 : Vec F S1024x256 .f32) (x1 : Vec F S256x128 .f32) (x3 : Vec F S1x128 .f32) : Vec F S1024x1 .f32 :=
  View.canon [⟨r0_f, k0_pay3 (View.ld x0 r0_X) (View.ld x1 r0_W) (View.ld x3 r0_a)⟩]

/-- A single whole-buffer store tiles the buffer, so it covers it. -/
theorem cover0_4 (p0 : Vec F S1024x128 .bf16) (y : S1024x128.Idx) :
    ∃ pc ∈ ([⟨r0_h, p0⟩] : List (View.Piece (Elt F) S1024x128 .bf16)), y ∈ pc.1.set :=
  View.cover_of_tiled [⟨r0_h, p0⟩] S1024x128.size (by rfl) y
theorem cover0_5 (p0 : Vec F S1024x1 .f32) (y : S1024x1.Idx) :
    ∃ pc ∈ ([⟨r0_f, p0⟩] : List (View.Piece (Elt F) S1024x1 .f32)), y ∈ pc.1.set :=
  View.cover_of_tiled [⟨r0_f, p0⟩] S1024x1.size (by rfl) y

/-! ## The pipeline's proof data -/

/-- The proof data of the projection pipeline on core `c`: the arrays as the region finds them (`V`); after the
    body at point `t` each input's buffer still at its block and each output's at the closed form above of the
    input blocks; the invariant is the plain one (the scoped rest and the generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents (projected, so `V` is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Full shares throughout, and nothing owed at any point. -/
theorem share0 (c : Dev nD) : ∀ w, (dat0 V c).q w = fullShare := fun _ => rfl
theorem owed0 (c : Dev nD) : ∀ t, (dat0 V c).owed t = 0 := fun _ => rfl
/-- Every wait is recorded: the proof data keeps the library's default. -/
theorem recorded0 (c : Dev nD) : ∀ t, (dat0 V c).recorded t = Set.univ := fun _ => rfl

/-- The invariant at the first and after the last point is the plain one. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's triple -/

set_option maxHeartbeats 1000000 in
/-- The kernel body on whole staging memrefs, the four inputs' at read contents `x0 … x3` and the three outputs'
    at anything, runs to the continuation holding the inputs' as they were and each output's at its closed form.
    The body reads each output buffer once before overwriting it whole; the value read is never used, so any
    contents will do there. -/
theorem sound_kernel0 (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1024x128 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x256 .f32) (x1 : Vec F S256x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2) ∗ owns (c : Thread nD τ) arg7 fullShare (out0_6 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The body obligation, at a generic point -/

/-- What the body is called with at point `t`: the invariant, the core's debts, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same with each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Runs.lean ====
import proofs.«430478_j33861522162300_3_alg».proof.Proof.Gen.Kernel.Launch
import proofs.«430478_j33861522162300_3_alg».proof.Proof.Gen.Kernel.Skeleton
import proofs.«430478_j33861522162300_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or
    not (an unfetched point has the block index of the point before), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or
    not (an unfetched point has the block index of the point before), for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or
    not (an unfetched point has the block index of the point before), for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or
    not (an unfetched point has the block index of the point before), for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the reset branch (the first conditional, inside the body's first part): the second grid
    coordinate is zero, spelled as the body's scalar chain computes it. -/
abbrev cond1_0 (i : grid1.Coords) : Prop := (Scalar.cmpi .ne (Scalar.extui (Scalar.cmpi .eq (BitVec.ofNat 32 (i 1).val) 0#32)) 0#32) = 1#1
/-- It holds exactly at the points ≡ 0 (mod 8): the first column block of each row block. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the finishing branch (the second conditional): the second grid coordinate is seven. -/
abbrev cond1_1 (i : grid1.Coords) : Prop := k1_cond2 i = 1#1
/-- It holds exactly at the points ≡ 7 (mod 8): the last column block of each row block. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At a resetting point that does not finish, the output window is idle: nothing is stored into it. -/
theorem idleAt1_4_A : ∀ t : Fin cfg1.N, cond1_0 (grid1.coords t) → ¬cond1_1 (grid1.coords t) → cfg1.idle 4 (grid1.coords t) = true := by decide +kernel
/-- There the output's block is not written back. -/
theorem noFlush1_4_A : ∀ t : Fin cfg1.N, cond1_0 (grid1.coords t) → ¬cond1_1 (grid1.coords t) → (cfg1.win 4).flush t = false := by decide +kernel
/-- At a point that neither resets nor finishes, the output window is idle. -/
theorem idleAt1_4_B : ∀ t : Fin cfg1.N, ¬cond1_0 (grid1.coords t) → ¬cond1_1 (grid1.coords t) → cfg1.idle 4 (grid1.coords t) = true := by decide +kernel
/-- There the output's block is not written back. -/
theorem noFlush1_4_B : ∀ t : Fin cfg1.N, ¬cond1_0 (grid1.coords t) → ¬cond1_1 (grid1.coords t) → (cfg1.win 4).flush t = false := by decide +kernel
/-- At a finishing point the output window is live: the normalised, activated accumulator is stored into it. -/
theorem liveAt1_4_C : ∀ t : Fin cfg1.N, ¬cond1_0 (grid1.coords t) → cond1_1 (grid1.coords t) → cfg1.idle 4 (grid1.coords t) = false := by decide +kernel

/-! ## The staging and scratch memrefs -/

/-- One staging buffer of the output window, through which its contents are stated (which one does not matter:
    reading back a covering list of writes forgets the view). -/
abbrev VO1_4 : View sig .tc .vmem S1024x128 .f32 := (Memref.whole cc1_stg4_0 : Memref sig .tc .vmem S1024x128 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The three scratch operands — running row maximum, running normaliser, accumulator —: whole scoped buffers of
    the kernel's own, passed beside the windows and carried from point to point. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- The same as views: what each holds is stated through them. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-- The scoped buffers of the core that this region neither stages through nor computes in — the other region's
    staging buffers —, each whole at some contents, in front of a remainder `X`. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ X)

/-- The region's entry invariant, with the three scratch operands as memrefs owned at some contents: what the body
    obligation hands the run and takes back. -/
theorem PhiA1_eq (c : Dev nD) :
    (Pipeline.ΦA spec1 c : sProp 𝕄)
      = iprop(rest1 c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA rest1; rw [scopedRest1_eq]; simp only [scM1_0, scM1_1, scM1_2, owns_whole]; try rfl

end Cert.Kernel.Hand

end
-- ==== Proof.K.Reg1A.lean ====
import proofs.«430478_j33861522162300_3_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The whole body at a RESETTING point that does not finish (second coordinate 0): on whole memrefs — the four inputs at
    their contents, the output's buffer at contents handed back untouched, the three scratch operands at anything —
    the body runs to a continuation that holds the inputs and the output's buffer as they were and each scratch
    operand with the listed pieces written (the reset constants, then the first block's update over them). The
    lists are the witness the symbolic run finds; the proof decides the two conditionals from `hc0`, `hc1`. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.Reg1B.lean ====
import proofs.«430478_j33861522162300_3_alg».proof.Proof.K.Reg1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The whole body at a MIDDLE point (second coordinate 1..6): as at a resetting point, but the three scratch
    operands start at the contents the point before left (`xs0`: running maximum, `xs1`: running normaliser,
    `xs2`: accumulator) and end with this block's update written over them. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.K.Reg1C.lean ====
import proofs.«430478_j33861522162300_3_alg».proof.Proof.K.Reg1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The whole body at a FINISHING point (second coordinate 7): the scratch operands start at what the point before
    left and are updated with the last block; then the accumulator divided by the normaliser, through the
    activation, is stored over the output's buffer (which starts at anything): its pieces are `L4`. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.K.Reg1.lean ====
import proofs.«430478_j33861522162300_3_alg».proof.Proof.K.Reg1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the scratch operands -/

/-- At a resetting point nothing is stored into the output's buffer (the window is idle there and not written
    back): no pieces — a placeholder (junk read back) that nothing consults. -/
def out1_A_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x128 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- The pieces a resetting point writes into the running-maximum scratch tile it (whole-buffer stores), so they cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What a resetting point leaves in the running-maximum scratch: its pieces read back over junk. -/
def sout1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- The pieces a resetting point writes into the running-normaliser scratch tile it (whole-buffer stores), so they cover it. -/
theorem scover1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What a resetting point leaves in the running-normaliser scratch: its pieces read back over junk. -/
def sout1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- The pieces a resetting point writes into the accumulator scratch tile it (whole-buffer stores), so they cover it. -/
theorem scover1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x128.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x128.size (by sl_kernel_rfl) y

/-- What a resetting point leaves in the accumulator scratch: its pieces read back over junk. -/
def sout1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x128 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- At a middle point nothing is stored into the output's buffer (the window is idle there and not written
    back): no pieces — a placeholder (junk read back) that nothing consults. -/
def out1_B_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- The pieces a middle point writes into the running-maximum scratch tile it (whole-buffer stores), so they cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What a middle point leaves in the running-maximum scratch: its pieces read back over junk. -/
def sout1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- The pieces a middle point writes into the running-normaliser scratch tile it (whole-buffer stores), so they cover it. -/
theorem scover1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What a middle point leaves in the running-normaliser scratch: its pieces read back over junk. -/
def sout1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- The pieces a middle point writes into the accumulator scratch tile it (whole-buffer stores), so they cover it. -/
theorem scover1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What a middle point leaves in the accumulator scratch: its pieces read back over junk. -/
def sout1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- At a finishing point the pieces stored into the output's buffer tile its block (one whole-block store), so
    they cover it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What a finishing point leaves in the output's staging buffer: its pieces read back over junk. -/
def out1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- The pieces a finishing point writes into the running-maximum scratch tile it (whole-buffer stores), so they cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What a finishing point leaves in the running-maximum scratch: its pieces read back over junk. -/
def sout1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- The pieces a finishing point writes into the running-normaliser scratch tile it (whole-buffer stores), so they cover it. -/
theorem scover1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What a finishing point leaves in the running-normaliser scratch: its pieces read back over junk. -/
def sout1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- The pieces a finishing point writes into the accumulator scratch tile it (whole-buffer stores), so they cover it. -/
theorem scover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What a finishing point leaves in the accumulator scratch: its pieces read back over junk. -/
def sout1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## What the output's buffer and the scratch operands hold after each point -/

/-- THE ACCUMULATION. What the output's staging buffer and the three scratch operands hold after the body at position
    `n` (the output's buffer, then running maximum, running normaliser, accumulator): the case the second grid
    coordinate selects at `n`, run at the point's memrefs and input blocks — at a resetting point from anything, at a
    middle or finishing point from what position `n - 1` left in the scratch operands. -/
def outsAt1 (c : Dev nD) : (n : ℕ) → n < cfg1.N → Vec F S1024x128 .f32 × Vec F S1024x1 .f32 × Vec F S1024x1 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a resetting point: that case's contents. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a middle point: that case's contents, over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a finishing point: that case's contents, over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The other region's staging buffers, each whole at some contents: scoped buffers this region never touches. -/
def restOnly1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- They separate from whatever follows them in the chain (associativity of the separating conjunction, eleven times). -/
theorem rest1_eq (c : Dev nD) (X : sProp 𝕄) : rest1 (F := F) c X = iprop(restOnly1 (F := F) c ∗ X) := by
  have h₁ : (rest1 (F := F) c X : sProp 𝕄) ⊢ iprop(restOnly1 (F := F) c ∗ X) := by
    unfold rest1 restOnly1
    iintro ⟨R0, R1, R2, R3, R4, R5, R6, R7, R8, R9, R10, HX⟩
    isplitr [HX]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      iexact R10
    · iexact HX
  have h₂ : (iprop(restOnly1 (F := F) c ∗ X) : sProp 𝕄) ⊢ rest1 (F := F) c X := by
    unfold rest1 restOnly1
    iintro ⟨⟨R0, R1, R2, R3, R4, R5, R6, R7, R8, R9, R10⟩, HX⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact HX
  exact BI.equiv_iff.mp ⟨h₁, h₂⟩

/-- The entry invariant with the untouched buffers gathered in front: they, the three scratch operands at some
    contents each, and the generator register at some state. -/
theorem PhiA1_eq' (c : Dev nD) :
    (Pipeline.ΦA spec1 c : sProp 𝕄)
      = iprop((restOnly1 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  rw [PhiA1_eq, rest1_eq]

/-- The region invariant before position `n`: before the first point the entry invariant (every scratch operand at
    anything); afterwards the same with each scratch operand at what the point before left in it. -/
def PhiS1 (c : Dev nD) : (n : ℕ) → n ≤ cfg1.N → sProp 𝕄
  | 0, _ => Pipeline.ΦA spec1 c
  | n + 1, hn => iprop((restOnly1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch operands at that point's contents. -/
theorem PhiS1_succ (c : Dev nD) (n : ℕ) (hn : n < cfg1.N) :
    PhiS1 V c (n + 1) hn = iprop((restOnly1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch operands at what the point before left. -/
theorem PhiS1_pos (c : Dev nD) (n : ℕ) (h : n ≤ cfg1.N) (hz : n ≠ 0) :
    PhiS1 V c n h = iprop((restOnly1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the entry contents (the definition projected; the contents are never unfolded). -/
theorem A_eq1 (c : Dev nD) (w : Fin cfg1.W) : (dat1 V c).A w = V c (Pipeline.arrRef spec1 w) := by
  dsimp only [dat1]
theorem share1 (c : Dev nD) : ∀ w, (dat1 V c).q w = fullShare := fun _ => by dsimp only [dat1]
theorem owed1 (c : Dev nD) : ∀ t, (dat1 V c).owed t = 0 := fun _ => by dsimp only [dat1]
theorem recorded1 (c : Dev nD) : ∀ t, (dat1 V c).recorded t = Set.univ := fun _ => by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the second grid coordinate says which case the point
    is in; so that case's run applies. The invariant hands the body the scratch operands at what the point before
    left (at anything at the very first point, and at a later resetting point their named contents are forgotten)
    and takes them back at this point's contents; the untouched buffers and the generator register pass through;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      ·
        rw [PhiS1_castSucc V c t, PhiS1_zero V c _ _ hz, PhiA1_eq']
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the scratch operands' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Run.lean ====
import proofs.«430478_j33861522162300_3_alg».proof.Proof.K.Reg0
import proofs.«430478_j33861522162300_3_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: two host stretches and two kernel regions, in order

@main is four segments: the two transposes (`hostOps0`), the projection kernel (pipeline 0), the reshape of the
second feature column into a row (`hostOps1`), and the attention kernel (pipeline 1). Between two segments the
TensorCore holds every unscoped buffer whole at a known valuation; this module names those valuations as a fold from
the launch memory (`Bd0` … `Bd4`), states each region as a segment record entered from one valuation and left at the
next, chains the four, and launches them. What comes out: at the end every unscoped buffer holds `Bd4`, so the result
buffer holds what the second pipeline's write-backs leave and every argument holds what it was launched with.

The two regions' proof data are taken at a PARAMETER, the contents the region is entered from; the run instantiates
region 0's at `V1` (after the transposes) and region 1's at `V3` (after the reshape). The equations at the end read
the windows' arrays at those contents back to the launch memory or to the first pipeline's outputs.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a host stretch leaves alone

A buffer keeps its contents across a stretch none of whose operations writes it: the two transposes write
`main_v0` and `main_v1` only, the reshape writes `main_v3` only. -/

theorem hostOps0_keep (W : Valuation τ sig (Elt F)) (b : Ref sig .tc) (h0 : b ≠ main_v0) (h1 : b ≠ main_v1) :
    StableHlo.after hostOps0 W (Proc.devRef .tc b) = W (Proc.devRef .tc b) :=
  StableHlo.after_of_forall_not_mem _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

theorem hostOps1_keep (W : Valuation τ sig (Elt F)) (b : Ref sig .tc) (h : b ≠ main_v3) :
    StableHlo.after hostOps1 W (Proc.devRef .tc b) = W (Proc.devRef .tc b) :=
  StableHlo.after_of_forall_not_mem _ _ (List.forall_iff_forall_mem.mp (by
    simp only [hostOps1, List.Forall, StableHlo.unary_writes, StableHlo.reshape_writes, Finset.mem_singleton]
    exact StableHlo.devRef_ne_of_ne h))

/-! ## The buffer contents at each segment boundary: a fold through @main -/

/-- Core `c`'s buffers at launch. -/
abbrev Bd0 : Dev nD → Valuation τ sig (Elt F) := fun c b => (s₀ m ρ).mem ((c : Dev nD), b)
/-- After the two transposes (region 0's entry). -/
abbrev Bd1 : Dev nD → Valuation τ sig (Elt F) := fun c => StableHlo.after hostOps0 (Bd0 m ρ c)
/-- The same read at the TensorCore's references (what region 0's proof data take). -/
abbrev V1 : (c : Dev nD) → (b : Ref sig .tc) → Buf (Elt F) ((c : Thread nD τ).loc b) := fun c b => Bd1 m ρ c b
/-- At region 0's exit: its seven arrays at what the pipeline leaves (the four inputs as entered, each of the three
    outputs with its eight row blocks written back), every other buffer as entered. -/
def Bd2 (c : Dev nD) : Valuation τ sig (Elt F) :=
  Pipeline.withArrays spec0 c (Bd1 m ρ c) fun w => (dat0 (V1 m ρ) c).arrAt w cfg0.N
theorem Bd2_arr (c : Dev nD) (w : Fin cfg0.W) :
    Bd2 m ρ c (Proc.devRef .tc (Pipeline.arrRef spec0 w)) = (dat0 (V1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
/-- The same read at the TensorCore's references (region 0's exit contents). -/
abbrev V2 : (c : Dev nD) → (b : Ref sig .tc) → Buf (Elt F) ((c : Thread nD τ).loc b) := fun c b => Bd2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (Bd2_arr m ρ c w).symm
theorem hrest0 (c : Dev nD) : ∀ b, b ∉ Finset.univ.image (Pipeline.arrRef spec0) → V2 m ρ c b = V1 m ρ c b :=
  fun b hb => Bd2_of_ne m ρ c b fun w e => hb (Finset.mem_image.mpr ⟨w, Finset.mem_univ _, e⟩)

/-- After the reshape (region 1's entry). -/
abbrev Bd3 : Dev nD → Valuation τ sig (Elt F) := fun c => StableHlo.after hostOps1 (Bd2 m ρ c)
/-- The same read at the TensorCore's references (what region 1's proof data take). -/
abbrev V3 : (c : Dev nD) → (b : Ref sig .tc) → Buf (Elt F) ((c : Thread nD τ).loc b) := fun c b => Bd3 m ρ c b
/-- At region 1's exit: its five arrays at what the pipeline leaves (the four inputs as entered, the output with the
    row blocks its sixty-four points write back), every other buffer as entered. -/
def Bd4 (c : Dev nD) : Valuation τ sig (Elt F) :=
  Pipeline.withArrays spec1 c (Bd3 m ρ c) fun w => (dat1 (V3 m ρ) c).arrAt w cfg1.N
theorem Bd4_arr (c : Dev nD) (w : Fin cfg1.W) :
    Bd4 m ρ c (Proc.devRef .tc (Pipeline.arrRef spec1 w)) = (dat1 (V3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
/-- The same read at the TensorCore's references (region 1's exit contents). -/
abbrev V4 : (c : Dev nD) → (b : Ref sig .tc) → Buf (Elt F) ((c : Thread nD τ).loc b) := fun c b => Bd4 m ρ c b
theorem hF1 (c : Dev nD) (w : Fin cfg1.W) : (dat1 (V3 m ρ) c).arrAt w cfg1.N = V4 m ρ c (Pipeline.arrRef spec1 w) :=
  (Bd4_arr m ρ c w).symm
theorem hrest1 (c : Dev nD) : ∀ b, b ∉ Finset.univ.image (Pipeline.arrRef spec1) → V4 m ρ c b = V3 m ρ c b :=
  fun b hb => Bd4_of_ne m ρ c b fun w e => hb (Finset.mem_image.mpr ⟨w, Finset.mem_univ _, e⟩)

/-! ### The arguments end as launched

No host operation writes an argument, and a region reads an argument through an input window (whose array the
pipeline never writes) or does not touch it; so the fold at an argument's buffer walks back to the launch memory. -/

/-- The node features: input window 0 of region 0. -/
theorem Bd4_main_arg0 (c : Dev nD) : Bd4 m ρ c (Proc.devRef .tc main_arg0) = m ((c : Thread nD τ).loc main_arg0) :=
  calc Bd4 m ρ c (Proc.devRef .tc main_arg0)
    _ = Bd3 m ρ c (Proc.devRef .tc main_arg0) := Bd4_of_ne m ρ c main_arg0 (by decide)
    _ = Bd2 m ρ c (Proc.devRef .tc main_arg0) := hostOps1_keep _ main_arg0 (by decide)
    _ = Bd1 m ρ c (Proc.devRef .tc main_arg0) := (Bd2_arr m ρ c 0).trans (((dat0 (V1 m ρ) c).arrAt_in 0 rfl _).trans (A_eq0 (V1 m ρ) c 0))
    _ = Bd0 m ρ c (Proc.devRef .tc main_arg0) := hostOps0_keep _ main_arg0 (by decide) (by decide)
    _ = m ((c : Thread nD τ).loc main_arg0) := rfl

/-- The adjacency: input window 2 of region 1. -/
theorem Bd4_main_arg1 (c : Dev nD) : Bd4 m ρ c (Proc.devRef .tc main_arg1) = m ((c : Thread nD τ).loc main_arg1) :=
  calc Bd4 m ρ c (Proc.devRef .tc main_arg1)
    _ = Bd3 m ρ c (Proc.devRef .tc main_arg1) := (Bd4_arr m ρ c 2).trans (((dat1 (V3 m ρ) c).arrAt_in 2 rfl _).trans (A_eq1 (V3 m ρ) c 2))
    _ = Bd2 m ρ c (Proc.devRef .tc main_arg1) := hostOps1_keep _ main_arg1 (by decide)
    _ = Bd1 m ρ c (Proc.devRef .tc main_arg1) := Bd2_of_ne m ρ c main_arg1 (by decide)
    _ = Bd0 m ρ c (Proc.devRef .tc main_arg1) := hostOps0_keep _ main_arg1 (by decide) (by decide)
    _ = m ((c : Thread nD τ).loc main_arg1) := rfl

/-- The projection weights: input window 1 of region 0. -/
theorem Bd4_main_arg2 (c : Dev nD) : Bd4 m ρ c (Proc.devRef .tc main_arg2) = m ((c : Thread nD τ).loc main_arg2) :=
  calc Bd4 m ρ c (Proc.devRef .tc main_arg2)
    _ = Bd3 m ρ c (Proc.devRef .tc main_arg2) := Bd4_of_ne m ρ c main_arg2 (by decide)
    _ = Bd2 m ρ c (Proc.devRef .tc main_arg2) := hostOps1_keep _ main_arg2 (by decide)
    _ = Bd1 m ρ c (Proc.devRef .tc main_arg2) := (Bd2_arr m ρ c 1).trans (((dat0 (V1 m ρ) c).arrAt_in 1 rfl _).trans (A_eq0 (V1 m ρ) c 1))
    _ = Bd0 m ρ c (Proc.devRef .tc main_arg2) := hostOps0_keep _ main_arg2 (by decide) (by decide)
    _ = m ((c : Thread nD τ).loc main_arg2) := rfl

/-- The first attention vector: only the first transpose reads it. -/
theorem Bd4_main_arg3 (c : Dev nD) : Bd4 m ρ c (Proc.devRef .tc main_arg3) = m ((c : Thread nD τ).loc main_arg3) :=
  calc Bd4 m ρ c (Proc.devRef .tc main_arg3)
    _ = Bd3 m ρ c (Proc.devRef .tc main_arg3) := Bd4_of_ne m ρ c main_arg3 (by decide)
    _ = Bd2 m ρ c (Proc.devRef .tc main_arg3) := hostOps1_keep _ main_arg3 (by decide)
    _ = Bd1 m ρ c (Proc.devRef .tc main_arg3) := Bd2_of_ne m ρ c main_arg3 (by decide)
    _ = Bd0 m ρ c (Proc.devRef .tc main_arg3) := hostOps0_keep _ main_arg3 (by decide) (by decide)
    _ = m ((c : Thread nD τ).loc main_arg3) := rfl

/-- The second attention vector: only the second transpose reads it. -/
theorem Bd4_main_arg4 (c : Dev nD) : Bd4 m ρ c (Proc.devRef .tc main_arg4) = m ((c : Thread nD τ).loc main_arg4) :=
  calc Bd4 m ρ c (Proc.devRef .tc main_arg4)
    _ = Bd3 m ρ c (Proc.devRef .tc main_arg4) := Bd4_of_ne m ρ c main_arg4 (by decide)
    _ = Bd2 m ρ c (Proc.devRef .tc main_arg4) := hostOps1_keep _ main_arg4 (by decide)
    _ = Bd1 m ρ c (Proc.devRef .tc main_arg4) := Bd2_of_ne m ρ c main_arg4 (by decide)
    _ = Bd0 m ρ c (Proc.devRef .tc main_arg4) := hostOps0_keep _ main_arg4 (by decide) (by decide)
    _ = m ((c : Thread nD τ).loc main_arg4) := rfl

/-- The result: output window 4 of region 1, at what its write-backs leave. -/
theorem Bd4_main_v4 (c : Dev nD) : Bd4 m ρ c (Proc.devRef .tc main_v4) = (dat1 (V3 m ρ) c).arrAt 4 cfg1.N :=
  Bd4_arr m ρ c 4

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the family at a
    numeral reduces to the printed configuration's data. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither transpose allocates a buffer. -/
theorem hostOps0_fresh : (hostOps0 : List (HloOp τ sig (Elt F))).Forall fun op => op.fresh = ∅ := by
  simp only [List.Forall]; repeat' constructor
/-- Nor does the reshape. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `Bd4`, the
    generator register at some state. -/
abbrev Tₙ (c : Dev nD) : sProp 𝕄 := iprop(StableHlo.held (c : Thread nD τ) (Pipeline.ucRefs τ sig) (Bd4 m ρ c) ∗ ∃ r, prngReg c r)

/-! ## The core's dues across a region

A region whose body owes nothing at a point holds the core's `owes` there at the zero tallies, and a bound on the
recorded pairs that is everything excludes no recorded set; so the thread state's "owes nothing, at some recorded
set" goes into the pipeline's form of it at the first point and comes back from it at the last. -/

theorem owesAt_of_zero {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; exact fun x _ => Or.inl (hr ▸ Set.mem_univ x)
  iexact HO

theorem zero_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## The regions as segments -/

-- a library lemma stated over the pipeline family at an index unifies with the pinned configuration only when
-- unification may unfold plain definitions in a metavariable's type
set_option backward.isDefEq.respectTransparency.types false in
/-- REGION 0 over the thread state: entered from every unscoped buffer at `Bd1`, left at `Bd2`. Its arrays
    are split out of the unscoped buffers at entry and put back at their exit contents; the generator register and
    the scoped buffers no window stages go into the body's invariant at the first point and come back from it at
    the last; the body owes nothing at the staging cells; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full (share0 (V1 m ρ) c)) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 0 c) 0 (owed0 (V1 m ρ) c 0) (recorded0 (V1 m ρ) c 0))
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full (share0 (V1 m ρ) c))
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 0 c) (Fin.last _) (owed0 (V1 m ρ) c (Fin.last _)))
    iexact HO

-- a library lemma stated over the pipeline family at an index unifies with the pinned configuration only when
-- unification may unfold plain definitions in a metavariable's type
set_option backward.isDefEq.respectTransparency.types false in
/-- REGION 1 over the thread state: entered from every unscoped buffer at `Bd3`, left at `Bd4`. Its arrays
    are split out of the unscoped buffers at entry and put back at their exit contents; the generator register and
    the scoped buffers no window stages go into the body's invariant at the first point and come back from it at
    the last; the body owes nothing at the staging cells; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (Bd3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full (share1 (V3 m ρ) c)) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 1 c) 0 (owed1 (V3 m ρ) c 0) (recorded1 (V3 m ρ) c 0))
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full (share1 (V3 m ρ) c))
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (zero_of_owesAt (pdats m ρ 1 c) (Fin.last _) (owed1 (V3 m ρ) c (Fin.last _)))
    iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ) ]
/-- @main IS the run of the segments: it is the chain of its four items, and so is the segments' run. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any post read off the last boundary: from any memory with zero counters every weakly fair execution
    of @main on the TensorCores terminates, nothing faulting, and every final memory holds each unscoped buffer at
    `Bd4`; so any `Q` that follows from those readings holds of it. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = Bd4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd4 m ρ c) s')
      isplitl [Hh] <;> iassumption)
    (hQ := hQ)

/-- The run with its result named: the result buffer ends at what the second pipeline's write-backs leave, and the
    five arguments end as launched. -/
theorem run_all : θ_run defs (onTc (τ := τ) (main (F := F))) ⟨m, fun _ => 0, ρ⟩ (fun r => ∀ c : Dev nD,
      r.2.mem ((c.tc : Thread nD τ).loc main_v4) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_v4 (by decide))).trans (Bd4_main_v4 m ρ c),
     (h c _ (mem_uc main_arg0 (by decide))).trans (Bd4_main_arg0 m ρ c),
     (h c _ (mem_uc main_arg1 (by decide))).trans (Bd4_main_arg1 m ρ c),
     (h c _ (mem_uc main_arg2 (by decide))).trans (Bd4_main_arg2 m ρ c),
     (h c _ (mem_uc main_arg3 (by decide))).trans (Bd4_main_arg3 m ρ c),
     (h c _ (mem_uc main_arg4 (by decide))).trans (Bd4_main_arg4 m ρ c)⟩

/-- The frame: @main runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_arg0 (by decide))).trans (Bd4_main_arg0 m ρ c),
     (h c _ (mem_uc main_arg1 (by decide))).trans (Bd4_main_arg1 m ρ c),
     (h c _ (mem_uc main_arg2 (by decide))).trans (Bd4_main_arg2 m ρ c),
     (h c _ (mem_uc main_arg3 (by decide))).trans (Bd4_main_arg3 m ρ c),
     (h c _ (mem_uc main_arg4 (by decide))).trans (Bd4_main_arg4 m ρ c)⟩

/-! ## The windows' arrays at the regions' entry contents

Region 0 is entered after the transposes: the features and the weights are as launched, the two attention rows are
the transposed attention columns. Region 1 is entered after the reshape: the projected features and the first score
column are what region 0's write-backs leave, the second score row is the reshaped second score column, the
adjacency is as launched. -/

theorem V1_arg0 (c : Dev nD) : V1 m ρ c main_arg0 = m ((c : Thread nD τ).loc main_arg0) :=
  (hostOps0_keep (Bd0 m ρ c) main_arg0 (by decide) (by decide)).trans rfl
theorem V1_arg2 (c : Dev nD) : V1 m ρ c main_arg2 = m ((c : Thread nD τ).loc main_arg2) :=
  (hostOps0_keep (Bd0 m ρ c) main_arg2 (by decide) (by decide)).trans rfl
theorem V1_v0 (c : Dev nD) : V1 m ρ c main_v0
    = transpose S1x128 [1, 0] (m ((c : Thread nD τ).loc main_arg3)) transposes_S128x1_S1x128_1_0 := by
  show StableHlo.after hostOps0 _ (Proc.devRef .tc main_v0) = _
  after_results
theorem V1_v1 (c : Dev nD) : V1 m ρ c main_v1
    = transpose S1x128 [1, 0] (m ((c : Thread nD τ).loc main_arg4)) transposes_S128x1_S1x128_1_0 := by
  show StableHlo.after hostOps0 _ (Proc.devRef .tc main_v1) = _
  after_results

theorem V3_v2_0 (c : Dev nD) : V3 m ρ c main_v2_0 = (dat0 (V1 m ρ) c).arrAt 4 cfg0.N :=
  (hostOps1_keep (Bd2 m ρ c) main_v2_0 (by decide)).trans (Bd2_arr m ρ c 4)
theorem V3_v2_1 (c : Dev nD) : V3 m ρ c main_v2_1 = (dat0 (V1 m ρ) c).arrAt 5 cfg0.N :=
  (hostOps1_keep (Bd2 m ρ c) main_v2_1 (by decide)).trans (Bd2_arr m ρ c 5)
theorem V3_v3 (c : Dev nD) : V3 m ρ c main_v3
    = shapeCast S1x8192 ((dat0 (V1 m ρ) c).arrAt 6 cfg0.N) shapeCasts_S8192x1_S1x8192 := by
  show StableHlo.after hostOps1 _ (Proc.devRef .tc main_v3) = _
  after_results
  rw [show Bd2 m ρ c (Proc.devRef .tc main_v2_2) = (dat0 (V1 m ρ) c).arrAt 6 cfg0.N from Bd2_arr m ρ c 6]
  rfl
theorem V3_arg1 (c : Dev nD) : V3 m ρ c main_arg1 = m ((c : Thread nD τ).loc main_arg1) :=
  (hostOps1_keep (Bd2 m ρ c) main_arg1 (by decide)).trans <|
    (Bd2_of_ne m ρ c main_arg1 (by decide)).trans <|
      (hostOps0_keep (Bd0 m ρ c) main_arg1 (by decide) (by decide)).trans rfl

end Cert.Kernel.Hand

end
-- ==== Proof.KI.Reg0.lean ====
import proofs.«430478_j33861522162300_3_alg».proof.Proof.Gen.KernelIdeal.Launch
import proofs.«430478_j33861522162300_3_alg».proof.Proof.Gen.KernelIdeal.Skeleton
import proofs.«430478_j33861522162300_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the projection kernel on its grid of 8 row blocks, at the entry contents `V`

The first kernel reads a block of 1024 rows of the features `X`, the whole weight matrix `W` and the two
attention rows, and writes three blocks: the projected rows `h = X·W` (rounded to bf16), and the two columns
of row scores `f1 = Σ_k h·a1`, `f2 = Σ_k h·a2`. Nothing is carried from one grid point to the next, so what
each output buffer holds after the body is a closed function of the four input blocks at the point. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or not: where it was not fetched the block index has not moved, and the body leaves the block in place.
    The row-block window `X` is fetched at every point; the weight matrix and the two attention rows have a
    constant block index, are fetched once, and stay. Stated for ANY proof data whose array is `V`'s (`hA`)
    and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_X : Rect S1024x256 := Rect.unit (s := S1024x256) ![0, 0] S1024x256.size inb_S1024x256_S1024x256_0_0
abbrev r0_W : Rect S256x128 := Rect.unit (s := S256x128) ![0, 0] S256x128.size inb_S256x128_S256x128_0_0
abbrev r0_a : Rect S1x128 := Rect.unit (s := S1x128) ![0, 0] S1x128.size inb_S1x128_S1x128_0_0
abbrev r0_f : Rect S1024x1 := Rect.unit (s := S1024x1) ![0, 0] S1024x1.size inb_S1024x1_S1024x1_0_0
abbrev r0_h : Rect S1024x128 := Rect.unit (s := S1024x128) ![0, 0] S1024x128.size inb_S1024x128_S1024x128_0_0

/-! ## What the body leaves in each output window's buffer -/

/-- The `h` block after the body: one whole-buffer store of the projected rows rounded to bf16. -/
def out0_4 (x0 : Vec F S1024x256 .f32) (x1 : Vec F S256x128 .f32) : Vec F S1024x128 .bf16 :=
  View.canon [⟨r0_h, k0_pay4 (View.ld x0 r0_X) (View.ld x1 r0_W)⟩]

/-- The `f1` block after the body: one whole-buffer store of the row sums of `h` times the first attention row. -/
def out0_5 (x0 : Vec F S1024x256 .f32) (x1 : Vec F S256x128 .f32) (x2 : Vec F S1x128 .f32) : Vec F S1024x1 .f32 :=
  View.canon [⟨r0_f, k0_pay2 (View.ld x0 r0_X) (View.ld x1 r0_W) (View.ld x2 r0_a)⟩]

/-- The `f2` block after the body: the same with the second attention row. -/
def out0_6 (x0 : Vec F S1024x256 .f32) (x1 : Vec F S256x128 .f32) (x3 : Vec F S1x128 .f32) : Vec F S1024x1 .f32 :=
  View.canon [⟨r0_f, k0_pay3 (View.ld x0 r0_X) (View.ld x1 r0_W) (View.ld x3 r0_a)⟩]

/-- A single whole-buffer store tiles the buffer, so it covers it. -/
theorem cover0_4 (p0 : Vec F S1024x128 .bf16) (y : S1024x128.Idx) :
    ∃ pc ∈ ([⟨r0_h, p0⟩] : List (View.Piece (Elt F) S1024x128 .bf16)), y ∈ pc.1.set :=
  View.cover_of_tiled [⟨r0_h, p0⟩] S1024x128.size (by rfl) y
theorem cover0_5 (p0 : Vec F S1024x1 .f32) (y : S1024x1.Idx) :
    ∃ pc ∈ ([⟨r0_f, p0⟩] : List (View.Piece (Elt F) S1024x1 .f32)), y ∈ pc.1.set :=
  View.cover_of_tiled [⟨r0_f, p0⟩] S1024x1.size (by rfl) y

/-! ## The pipeline's proof data -/

/-- The proof data of the projection pipeline on core `c`: the arrays as the region finds them (`V`); after the
    body at point `t` each input's buffer still at its block and each output's at the closed form above of the
    input blocks; the invariant is the plain one (the scoped rest and the generator register, untouched);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents (projected, so `V` is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Full shares throughout, and nothing owed at any point. -/
theorem share0 (c : Dev nD) : ∀ w, (dat0 V c).q w = fullShare := fun _ => rfl
theorem owed0 (c : Dev nD) : ∀ t, (dat0 V c).owed t = 0 := fun _ => rfl
/-- Every wait is recorded: the proof data keeps the library's default. -/
theorem recorded0 (c : Dev nD) : ∀ t, (dat0 V c).recorded t = Set.univ := fun _ => rfl

/-- The invariant at the first and after the last point is the plain one. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body's triple -/

set_option maxHeartbeats 1000000 in
/-- The kernel body on whole staging memrefs, the four inputs' at read contents `x0 … x3` and the three outputs'
    at anything, runs to the continuation holding the inputs' as they were and each output's at its closed form.
    The body reads each output buffer once before overwriting it whole; the value read is never used, so any
    contents will do there. -/
theorem sound_kernel0 (c : Dev nD) (E : Set ℕ) (i : grid0.Coords)
    (arg1 : Memref sig .tc .vmem S1024x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1024x128 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x256 .f32) (x1 : Vec F S256x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x1 x2) ∗ owns (c : Thread nD τ) arg7 fullShare (out0_6 x0 x1 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The body obligation, at a generic point -/

/-- What the body is called with at point `t`: the invariant, the core's debts, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same with each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Runs.lean ====
import proofs.«430478_j33861522162300_3_alg».proof.Proof.Gen.KernelIdeal.Launch
import proofs.«430478_j33861522162300_3_alg».proof.Proof.Gen.KernelIdeal.Skeleton
import proofs.«430478_j33861522162300_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the contents the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or
    not (an unfetched point has the block index of the point before), for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or
    not (an unfetched point has the block index of the point before), for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or
    not (an unfetched point has the block index of the point before), for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or
    not (an unfetched point has the block index of the point before), for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the reset branch (the first conditional, inside the body's first part): the second grid
    coordinate is zero, spelled as the body's scalar chain computes it. -/
abbrev cond1_0 (i : grid1.Coords) : Prop := (Scalar.cmpi .ne (Scalar.extui (Scalar.cmpi .eq (BitVec.ofNat 32 (i 1).val) 0#32)) 0#32) = 1#1
/-- It holds exactly at the points ≡ 0 (mod 8): the first column block of each row block. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the finishing branch (the second conditional): the second grid coordinate is seven. -/
abbrev cond1_1 (i : grid1.Coords) : Prop := k1_cond2 i = 1#1
/-- It holds exactly at the points ≡ 7 (mod 8): the last column block of each row block. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- At a resetting point that does not finish, the output window is idle: nothing is stored into it. -/
theorem idleAt1_4_A : ∀ t : Fin cfg1.N, cond1_0 (grid1.coords t) → ¬cond1_1 (grid1.coords t) → cfg1.idle 4 (grid1.coords t) = true := by decide +kernel
/-- There the output's block is not written back. -/
theorem noFlush1_4_A : ∀ t : Fin cfg1.N, cond1_0 (grid1.coords t) → ¬cond1_1 (grid1.coords t) → (cfg1.win 4).flush t = false := by decide +kernel
/-- At a point that neither resets nor finishes, the output window is idle. -/
theorem idleAt1_4_B : ∀ t : Fin cfg1.N, ¬cond1_0 (grid1.coords t) → ¬cond1_1 (grid1.coords t) → cfg1.idle 4 (grid1.coords t) = true := by decide +kernel
/-- There the output's block is not written back. -/
theorem noFlush1_4_B : ∀ t : Fin cfg1.N, ¬cond1_0 (grid1.coords t) → ¬cond1_1 (grid1.coords t) → (cfg1.win 4).flush t = false := by decide +kernel
/-- At a finishing point the output window is live: the normalised, activated accumulator is stored into it. -/
theorem liveAt1_4_C : ∀ t : Fin cfg1.N, ¬cond1_0 (grid1.coords t) → cond1_1 (grid1.coords t) → cfg1.idle 4 (grid1.coords t) = false := by decide +kernel

/-! ## The staging and scratch memrefs -/

/-- One staging buffer of the output window, through which its contents are stated (which one does not matter:
    reading back a covering list of writes forgets the view). -/
abbrev VO1_4 : View sig .tc .vmem S1024x128 .f32 := (Memref.whole cc1_stg4_0 : Memref sig .tc .vmem S1024x128 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The three scratch operands — running row maximum, running normaliser, accumulator —: whole scoped buffers of
    the kernel's own, passed beside the windows and carried from point to point. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- The same as views: what each holds is stated through them. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-- The scoped buffers of the core that this region neither stages through nor computes in — the other region's
    staging buffers —, each whole at some contents, in front of a remainder `X`. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ X)

/-- The region's entry invariant, with the three scratch operands as memrefs owned at some contents: what the body
    obligation hands the run and takes back. -/
theorem PhiA1_eq (c : Dev nD) :
    (Pipeline.ΦA spec1 c : sProp 𝕄)
      = iprop(rest1 c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA rest1; rw [scopedRest1_eq]; simp only [scM1_0, scM1_1, scM1_2, owns_whole]; try rfl

end Cert.KernelIdeal.Hand

end
-- ==== Proof.KI.Reg1A.lean ====
import proofs.«430478_j33861522162300_3_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The whole body at a RESETTING point that does not finish (second coordinate 0): on whole memrefs — the four inputs at
    their contents, the output's buffer at contents handed back untouched, the three scratch operands at anything —
    the body runs to a continuation that holds the inputs and the output's buffer as they were and each scratch
    operand with the listed pieces written (the reset constants, then the first block's update over them). The
    lists are the witness the symbolic run finds; the proof decides the two conditionals from `hc0`, `hc1`. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.Reg1B.lean ====
import proofs.«430478_j33861522162300_3_alg».proof.Proof.KI.Reg1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The whole body at a MIDDLE point (second coordinate 1..6): as at a resetting point, but the three scratch
    operands start at the contents the point before left (`xs0`: running maximum, `xs1`: running normaliser,
    `xs2`: accumulator) and end with this block's update written over them. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.KI.Reg1C.lean ====
import proofs.«430478_j33861522162300_3_alg».proof.Proof.KI.Reg1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 4000000 in
/-- The whole body at a FINISHING point (second coordinate 7): the scratch operands start at what the point before
    left and are updated with the last block; then the accumulator divided by the normaliser, through the
    activation, is stored over the output's buffer (which starts at anything): its pieces are `L4`. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    Σ' (L4 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.KI.Reg1.lean ====
import proofs.«430478_j33861522162300_3_alg».proof.Proof.KI.Reg1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the scratch operands -/

/-- At a resetting point nothing is stored into the output's buffer (the window is idle there and not written
    back): no pieces — a placeholder (junk read back) that nothing consults. -/
def out1_A_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x128 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

/-- The pieces a resetting point writes into the running-maximum scratch tile it (whole-buffer stores), so they cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- What a resetting point leaves in the running-maximum scratch: its pieces read back over junk. -/
def sout1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.1)

/-- The pieces a resetting point writes into the running-normaliser scratch tile it (whole-buffer stores), so they cover it. -/
theorem scover1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x1.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- What a resetting point leaves in the running-normaliser scratch: its pieces read back over junk. -/
def sout1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.1)

/-- The pieces a resetting point writes into the accumulator scratch tile it (whole-buffer stores), so they cover it. -/
theorem scover1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) (y : S1024x128.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x128.size (by sl_kernel_rfl) y

/-- What a resetting point leaves in the accumulator scratch: its pieces read back over junk. -/
def sout1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x128 .bf16) : Vec F S1024x128 .f32 :=
  VS1_2.read (Elt F) (VS1_2.writes (Elt F) VS1_2.junk (kernelRun1_A c i arg2 harg2 arg3 harg3 arg4 harg4 arg5 harg5 arg6 harg6 arg7 harg7 arg8 harg8 arg9 harg9 hc0 hc1 x0 x1 x2 x3).2.2.2.1)

/-- At a middle point nothing is stored into the output's buffer (the window is idle there and not written
    back): no pieces — a placeholder (junk read back) that nothing consults. -/
def out1_B_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1 xs2).1)

/-- The pieces a middle point writes into the running-maximum scratch tile it (whole-buffer stores), so they cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What a middle point leaves in the running-maximum scratch: its pieces read back over junk. -/
def sout1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1 xs2).2.1)

/-- The pieces a middle point writes into the running-normaliser scratch tile it (whole-buffer stores), so they cover it. -/
theorem scover1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What a middle point leaves in the running-normaliser scratch: its pieces read back over junk. -/
def sout1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1 xs2).2.2.1)

/-- The pieces a middle point writes into the accumulator scratch tile it (whole-buffer stores), so they cover it. -/
theorem scover1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What a middle point leaves in the accumulator scratch: its pieces read back over junk. -/
def sout1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_B c i arg2 harg2 arg3 harg3 arg4 harg4 arg5 harg5 arg6 harg6 arg7 harg7 arg8 harg8 arg9 harg9 hc0 hc1 x0 x1 x2 x3 xs0 xs1 xs2).2.2.2.1)

/-- At a finishing point the pieces stored into the output's buffer tile its block (one whole-block store), so
    they cover it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- What a finishing point leaves in the output's staging buffer: its pieces read back over junk. -/
def out1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1 xs2).1)

/-- The pieces a finishing point writes into the running-maximum scratch tile it (whole-buffer stores), so they cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What a finishing point leaves in the running-maximum scratch: its pieces read back over junk. -/
def sout1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1 xs2).2.1)

/-- The pieces a finishing point writes into the running-normaliser scratch tile it (whole-buffer stores), so they cover it. -/
theorem scover1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What a finishing point leaves in the running-normaliser scratch: its pieces read back over junk. -/
def sout1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1 xs2).2.2.1)

/-- The pieces a finishing point writes into the accumulator scratch tile it (whole-buffer stores), so they cover it. -/
theorem scover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- What a finishing point leaves in the accumulator scratch: its pieces read back over junk. -/
def sout1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) : Vec F S1024x128 .f32 :=
  VS1_2.read (Elt F) (VS1_2.writes (Elt F) VS1_2.junk (kernelRun1_C c i arg2 harg2 arg3 harg3 arg4 harg4 arg5 harg5 arg6 harg6 arg7 harg7 arg8 harg8 arg9 harg9 hc0 hc1 x0 x1 x2 x3 xs0 xs1 xs2).2.2.2.1)

/-! ## What the output's buffer and the scratch operands hold after each point -/

/-- THE ACCUMULATION. What the output's staging buffer and the three scratch operands hold after the body at position
    `n` (the output's buffer, then running maximum, running normaliser, accumulator): the case the second grid
    coordinate selects at `n`, run at the point's memrefs and input blocks — at a resetting point from anything, at a
    middle or finishing point from what position `n - 1` left in the scratch operands. -/
def outsAt1 (c : Dev nD) : (n : ℕ) → n < cfg1.N → Vec F S1024x128 .f32 × Vec F S1024x1 .f32 × Vec F S1024x1 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a resetting point: that case's contents. -/
theorem outsAt1_A (c : Dev nD) (t : Fin cfg1.N) (h0 : t.val % 8 = 0) (h1 : ¬t.val % 8 = 7) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a middle point: that case's contents, over what the point before left. -/
theorem outsAt1_B (c : Dev nD) (t : Fin cfg1.N) (h0 : ¬t.val % 8 = 0) (h1 : ¬t.val % 8 = 7) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a finishing point: that case's contents, over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The other region's staging buffers, each whole at some contents: scoped buffers this region never touches. -/
def restOnly1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- They separate from whatever follows them in the chain (associativity of the separating conjunction, eleven times). -/
theorem rest1_eq (c : Dev nD) (X : sProp 𝕄) : rest1 (F := F) c X = iprop(restOnly1 (F := F) c ∗ X) := by
  have h₁ : (rest1 (F := F) c X : sProp 𝕄) ⊢ iprop(restOnly1 (F := F) c ∗ X) := by
    unfold rest1 restOnly1
    iintro ⟨R0, R1, R2, R3, R4, R5, R6, R7, R8, R9, R10, HX⟩
    isplitr [HX]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      iexact R10
    · iexact HX
  have h₂ : (iprop(restOnly1 (F := F) c ∗ X) : sProp 𝕄) ⊢ rest1 (F := F) c X := by
    unfold rest1 restOnly1
    iintro ⟨⟨R0, R1, R2, R3, R4, R5, R6, R7, R8, R9, R10⟩, HX⟩
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact HX
  exact BI.equiv_iff.mp ⟨h₁, h₂⟩

/-- The entry invariant with the untouched buffers gathered in front: they, the three scratch operands at some
    contents each, and the generator register at some state. -/
theorem PhiA1_eq' (c : Dev nD) :
    (Pipeline.ΦA spec1 c : sProp 𝕄)
      = iprop((restOnly1 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  rw [PhiA1_eq, rest1_eq]

/-- The region invariant before position `n`: before the first point the entry invariant (every scratch operand at
    anything); afterwards the same with each scratch operand at what the point before left in it. -/
def PhiS1 (c : Dev nD) : (n : ℕ) → n ≤ cfg1.N → sProp 𝕄
  | 0, _ => Pipeline.ΦA spec1 c
  | n + 1, hn => iprop((restOnly1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch operands at that point's contents. -/
theorem PhiS1_succ (c : Dev nD) (n : ℕ) (hn : n < cfg1.N) :
    PhiS1 V c (n + 1) hn = iprop((restOnly1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch operands at what the point before left. -/
theorem PhiS1_pos (c : Dev nD) (n : ℕ) (h : n ≤ cfg1.N) (hz : n ≠ 0) :
    PhiS1 V c n h = iprop((restOnly1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the entry contents (the definition projected; the contents are never unfolded). -/
theorem A_eq1 (c : Dev nD) (w : Fin cfg1.W) : (dat1 V c).A w = V c (Pipeline.arrRef spec1 w) := by
  dsimp only [dat1]
theorem share1 (c : Dev nD) : ∀ w, (dat1 V c).q w = fullShare := fun _ => by dsimp only [dat1]
theorem owed1 (c : Dev nD) : ∀ t, (dat1 V c).owed t = 0 := fun _ => by dsimp only [dat1]
theorem recorded1 (c : Dev nD) : ∀ t, (dat1 V c).recorded t = Set.univ := fun _ => by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the second grid coordinate says which case the point
    is in; so that case's run applies. The invariant hands the body the scratch operands at what the point before
    left (at anything at the very first point, and at a later resetting point their named contents are forgotten)
    and takes them back at this point's contents; the untouched buffers and the generator register pass through;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1 sout1_A_2; (try dsimp only)
      by_cases hz : t.val = 0
      ·
        rw [PhiS1_castSucc V c t, PhiS1_zero V c _ _ hz, PhiA1_eq']
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1 sout1_C_2; (try dsimp only)
      by_cases hz : t.val = 0
      · exfalso; omega
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      ·
        rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HR HS0 HS1 HS2 Hg]
        · isplitr [Hg]
          · isplitl [HR]; · iexact HR
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the scratch operands' named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Run.lean ====
import proofs.«430478_j33861522162300_3_alg».proof.Proof.KI.Reg0
import proofs.«430478_j33861522162300_3_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The run of @main: two host stretches and two kernel regions, in order

@main is four segments: the two transposes (`hostOps0`), the projection kernel (pipeline 0), the reshape of the
second feature column into a row (`hostOps1`), and the attention kernel (pipeline 1). Between two segments the
TensorCore holds every unscoped buffer whole at a known valuation; this module names those valuations as a fold from
the launch memory (`Bd0` … `Bd4`), states each region as a segment record entered from one valuation and left at the
next, chains the four, and launches them. What comes out: at the end every unscoped buffer holds `Bd4`, so the result
buffer holds what the second pipeline's write-backs leave and every argument holds what it was launched with.

The two regions' proof data are taken at a PARAMETER, the contents the region is entered from; the run instantiates
region 0's at `V1` (after the transposes) and region 1's at `V3` (after the reshape). The equations at the end read
the windows' arrays at those contents back to the launch memory or to the first pipeline's outputs.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a host stretch leaves alone

A buffer keeps its contents across a stretch none of whose operations writes it: the two transposes write
`main_v0` and `main_v1` only, the reshape writes `main_v3` only. -/

theorem hostOps0_keep (W : Valuation τ sig (Elt F)) (b : Ref sig .tc) (h0 : b ≠ main_v0) (h1 : b ≠ main_v1) :
    StableHlo.after hostOps0 W (Proc.devRef .tc b) = W (Proc.devRef .tc b) :=
  StableHlo.after_of_forall_not_mem _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

theorem hostOps1_keep (W : Valuation τ sig (Elt F)) (b : Ref sig .tc) (h : b ≠ main_v3) :
    StableHlo.after hostOps1 W (Proc.devRef .tc b) = W (Proc.devRef .tc b) :=
  StableHlo.after_of_forall_not_mem _ _ (List.forall_iff_forall_mem.mp (by
    simp only [hostOps1, List.Forall, StableHlo.unary_writes, StableHlo.reshape_writes, Finset.mem_singleton]
    exact StableHlo.devRef_ne_of_ne h))

/-! ## The buffer contents at each segment boundary: a fold through @main -/

/-- Core `c`'s buffers at launch. -/
abbrev Bd0 : Dev nD → Valuation τ sig (Elt F) := fun c b => (s₀ m ρ).mem ((c : Dev nD), b)
/-- After the two transposes (region 0's entry). -/
abbrev Bd1 : Dev nD → Valuation τ sig (Elt F) := fun c => StableHlo.after hostOps0 (Bd0 m ρ c)
/-- The same read at the TensorCore's references (what region 0's proof data take). -/
abbrev V1 : (c : Dev nD) → (b : Ref sig .tc) → Buf (Elt F) ((c : Thread nD τ).loc b) := fun c b => Bd1 m ρ c b
/-- At region 0's exit: its seven arrays at what the pipeline leaves (the four inputs as entered, each of the three
    outputs with its eight row blocks written back), every other buffer as entered. -/
def Bd2 (c : Dev nD) : Valuation τ sig (Elt F) :=
  Pipeline.withArrays spec0 c (Bd1 m ρ c) fun w => (dat0 (V1 m ρ) c).arrAt w cfg0.N
theorem Bd2_arr (c : Dev nD) (w : Fin cfg0.W) :
    Bd2 m ρ c (Proc.devRef .tc (Pipeline.arrRef spec0 w)) = (dat0 (V1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
/-- The same read at the TensorCore's references (region 0's exit contents). -/
abbrev V2 : (c : Dev nD) → (b : Ref sig .tc) → Buf (Elt F) ((c : Thread nD τ).loc b) := fun c b => Bd2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (Bd2_arr m ρ c w).symm
theorem hrest0 (c : Dev nD) : ∀ b, b ∉ Finset.univ.image (Pipeline.arrRef spec0) → V2 m ρ c b = V1 m ρ c b :=
  fun b hb => Bd2_of_ne m ρ c b fun w e => hb (Finset.mem_image.mpr ⟨w, Finset.mem_univ _, e⟩)

/-- After the reshape (region 1's entry). -/
abbrev Bd3 : Dev nD → Valuation τ sig (Elt F) := fun c => StableHlo.after hostOps1 (Bd2 m ρ c)
/-- The same read at the TensorCore's references (what region 1's proof data take). -/
abbrev V3 : (c : Dev nD) → (b : Ref sig .tc) → Buf (Elt F) ((c : Thread nD τ).loc b) := fun c b => Bd3 m ρ c b
/-- At region 1's exit: its five arrays at what the pipeline leaves (the four inputs as entered, the output with the
    row blocks its sixty-four points write back), every other buffer as entered. -/
def Bd4 (c : Dev nD) : Valuation τ sig (Elt F) :=
  Pipeline.withArrays spec1 c (Bd3 m ρ c) fun w => (dat1 (V3 m ρ) c).arrAt w cfg1.N
theorem Bd4_arr (c : Dev nD) (w : Fin cfg1.W) :
    Bd4 m ρ c (Proc.devRef .tc (Pipeline.arrRef spec1 w)) = (dat1 (V3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
/-- The same read at the TensorCore's references (region 1's exit contents). -/
abbrev V4 : (c : Dev nD) → (b : Ref sig .tc) → Buf (Elt F) ((c : Thread nD τ).loc b) := fun c b => Bd4 m ρ c b
theorem hF1 (c : Dev nD) (w : Fin cfg1.W) : (dat1 (V3 m ρ) c).arrAt w cfg1.N = V4 m ρ c (Pipeline.arrRef spec1 w) :=
  (Bd4_arr m ρ c w).symm
theorem hrest1 (c : Dev nD) : ∀ b, b ∉ Finset.univ.image (Pipeline.arrRef spec1) → V4 m ρ c b = V3 m ρ c b :=
  fun b hb => Bd4_of_ne m ρ c b fun w e => hb (Finset.mem_image.mpr ⟨w, Finset.mem_univ _, e⟩)

/-! ### The arguments end as launched

No host operation writes an argument, and a region reads an argument through an input window (whose array the
pipeline never writes) or does not touch it; so the fold at an argument's buffer walks back to the launch memory. -/

/-- The node features: input window 0 of region 0. -/
theorem Bd4_main_arg0 (c : Dev nD) : Bd4 m ρ c (Proc.devRef .tc main_arg0) = m ((c : Thread nD τ).loc main_arg0) :=
  calc Bd4 m ρ c (Proc.devRef .tc main_arg0)
    _ = Bd3 m ρ c (Proc.devRef .tc main_arg0) := Bd4_of_ne m ρ c main_arg0 (by decide)
    _ = Bd2 m ρ c (Proc.devRef .tc main_arg0) := hostOps1_keep _ main_arg0 (by decide)
    _ = Bd1 m ρ c (Proc.devRef .tc main_arg0) := (Bd2_arr m ρ c 0).trans (((dat0 (V1 m ρ) c).arrAt_in 0 rfl _).trans (A_eq0 (V1 m ρ) c 0))
    _ = Bd0 m ρ c (Proc.devRef .tc main_arg0) := hostOps0_keep _ main_arg0 (by decide) (by decide)
    _ = m ((c : Thread nD τ).loc main_arg0) := rfl

/-- The adjacency: input window 2 of region 1. -/
theorem Bd4_main_arg1 (c : Dev nD) : Bd4 m ρ c (Proc.devRef .tc main_arg1) = m ((c : Thread nD τ).loc main_arg1) :=
  calc Bd4 m ρ c (Proc.devRef .tc main_arg1)
    _ = Bd3 m ρ c (Proc.devRef .tc main_arg1) := (Bd4_arr m ρ c 2).trans (((dat1 (V3 m ρ) c).arrAt_in 2 rfl _).trans (A_eq1 (V3 m ρ) c 2))
    _ = Bd2 m ρ c (Proc.devRef .tc main_arg1) := hostOps1_keep _ main_arg1 (by decide)
    _ = Bd1 m ρ c (Proc.devRef .tc main_arg1) := Bd2_of_ne m ρ c main_arg1 (by decide)
    _ = Bd0 m ρ c (Proc.devRef .tc main_arg1) := hostOps0_keep _ main_arg1 (by decide) (by decide)
    _ = m ((c : Thread nD τ).loc main_arg1) := rfl

/-- The projection weights: input window 1 of region 0. -/
theorem Bd4_main_arg2 (c : Dev nD) : Bd4 m ρ c (Proc.devRef .tc main_arg2) = m ((c : Thread nD τ).loc main_arg2) :=
  calc Bd4 m ρ c (Proc.devRef .tc main_arg2)
    _ = Bd3 m ρ c (Proc.devRef .tc main_arg2) := Bd4_of_ne m ρ c main_arg2 (by decide)
    _ = Bd2 m ρ c (Proc.devRef .tc main_arg2) := hostOps1_keep _ main_arg2 (by decide)
    _ = Bd1 m ρ c (Proc.devRef .tc main_arg2) := (Bd2_arr m ρ c 1).trans (((dat0 (V1 m ρ) c).arrAt_in 1 rfl _).trans (A_eq0 (V1 m ρ) c 1))
    _ = Bd0 m ρ c (Proc.devRef .tc main_arg2) := hostOps0_keep _ main_arg2 (by decide) (by decide)
    _ = m ((c : Thread nD τ).loc main_arg2) := rfl

/-- The first attention vector: only the first transpose reads it. -/
theorem Bd4_main_arg3 (c : Dev nD) : Bd4 m ρ c (Proc.devRef .tc main_arg3) = m ((c : Thread nD τ).loc main_arg3) :=
  calc Bd4 m ρ c (Proc.devRef .tc main_arg3)
    _ = Bd3 m ρ c (Proc.devRef .tc main_arg3) := Bd4_of_ne m ρ c main_arg3 (by decide)
    _ = Bd2 m ρ c (Proc.devRef .tc main_arg3) := hostOps1_keep _ main_arg3 (by decide)
    _ = Bd1 m ρ c (Proc.devRef .tc main_arg3) := Bd2_of_ne m ρ c main_arg3 (by decide)
    _ = Bd0 m ρ c (Proc.devRef .tc main_arg3) := hostOps0_keep _ main_arg3 (by decide) (by decide)
    _ = m ((c : Thread nD τ).loc main_arg3) := rfl

/-- The second attention vector: only the second transpose reads it. -/
theorem Bd4_main_arg4 (c : Dev nD) : Bd4 m ρ c (Proc.devRef .tc main_arg4) = m ((c : Thread nD τ).loc main_arg4) :=
  calc Bd4 m ρ c (Proc.devRef .tc main_arg4)
    _ = Bd3 m ρ c (Proc.devRef .tc main_arg4) := Bd4_of_ne m ρ c main_arg4 (by decide)
    _ = Bd2 m ρ c (Proc.devRef .tc main_arg4) := hostOps1_keep _ main_arg4 (by decide)
    _ = Bd1 m ρ c (Proc.devRef .tc main_arg4) := Bd2_of_ne m ρ c main_arg4 (by decide)
    _ = Bd0 m ρ c (Proc.devRef .tc main_arg4) := hostOps0_keep _ main_arg4 (by decide) (by decide)
    _ = m ((c : Thread nD τ).loc main_arg4) := rfl

/-- The result: output window 4 of region 1, at what its write-backs leave. -/
theorem Bd4_main_v4 (c : Dev nD) : Bd4 m ρ c (Proc.devRef .tc main_v4) = (dat1 (V3 m ρ) c).arrAt 4 cfg1.N :=
  Bd4_arr m ρ c 4

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the family at a
    numeral reduces to the printed configuration's data. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither transpose allocates a buffer. -/
theorem hostOps0_fresh : (hostOps0 : List (HloOp τ sig (Elt F))).Forall fun op => op.fresh = ∅ := by
  simp only [List.Forall]; repeat' constructor
/-- Nor does the reshape. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `Bd4`, the
    generator register at some state. -/
abbrev Tₙ (c : Dev nD) : sProp 𝕄 := iprop(StableHlo.held (c : Thread nD τ) (Pipeline.ucRefs τ sig) (Bd4 m ρ c) ∗ ∃ r, prngReg c r)

/-! ## The core's dues across a region

A region whose body owes nothing at a point holds the core's `owes` there at the zero tallies, and a bound on the
recorded pairs that is everything excludes no recorded set; so the thread state's "owes nothing, at some recorded
set" goes into the pipeline's form of it at the first point and comes back from it at the last. -/

theorem owesAt_of_zero {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; exact fun x _ => Or.inl (hr ▸ Set.mem_univ x)
  iexact HO

theorem zero_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! ## The regions as segments -/

-- a library lemma stated over the pipeline family at an index unifies with the pinned configuration only when
-- unification may unfold plain definitions in a metavariable's type
set_option backward.isDefEq.respectTransparency.types false in
/-- REGION 0 over the thread state: entered from every unscoped buffer at `Bd1`, left at `Bd2`. Its arrays
    are split out of the unscoped buffers at entry and put back at their exit contents; the generator register and
    the scoped buffers no window stages go into the body's invariant at the first point and come back from it at
    the last; the body owes nothing at the staging cells; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (Bd1 m ρ c) ∗ R c)
  post c := iprop(StableHlo.held (c : Thread nD τ) (Pipeline.ucRefs τ sig) (Bd2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full (share0 (V1 m ρ) c)) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 0 c) 0 (owed0 (V1 m ρ) c 0) (recorded0 (V1 m ρ) c 0))
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full (share0 (V1 m ρ) c))
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ 0 c) (Fin.last _) (owed0 (V1 m ρ) c (Fin.last _)))
    iexact HO

-- a library lemma stated over the pipeline family at an index unifies with the pinned configuration only when
-- unification may unfold plain definitions in a metavariable's type
set_option backward.isDefEq.respectTransparency.types false in
/-- REGION 1 over the thread state: entered from every unscoped buffer at `Bd3`, left at `Bd4`. Its arrays
    are split out of the unscoped buffers at entry and put back at their exit contents; the generator register and
    the scoped buffers no window stages go into the body's invariant at the first point and come back from it at
    the last; the body owes nothing at the staging cells; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (Bd3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full (share1 (V3 m ρ) c)) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ 1 c) 0 (owed1 (V3 m ρ) c 0) (recorded1 (V3 m ρ) c 0))
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full (share1 (V3 m ρ) c))
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (zero_of_owesAt (pdats m ρ 1 c) (Fin.last _) (owed1 (V3 m ρ) c (Fin.last _)))
    iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (Bd0 m ρ)),
    .region (reg0 m ρ),
    .host (hseg hostOps1 hostOps1_sub hostOps1_fresh (Bd2 m ρ)),
    .region (reg1 m ρ) ]
/-- @main IS the run of the segments: it is the chain of its four items, and so is the segments' run. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any post read off the last boundary: from any memory with zero counters every weakly fair execution
    of @main on the TensorCores terminates, nothing faulting, and every final memory holds each unscoped buffer at
    `Bd4`; so any `Q` that follows from those readings holds of it. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = Bd4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd4 m ρ c) s')
      isplitl [Hh] <;> iassumption)
    (hQ := hQ)

/-- The run with its result named: the result buffer ends at what the second pipeline's write-backs leave, and the
    five arguments end as launched. -/
theorem run_all : θ_run defs (onTc (τ := τ) (main (F := F))) ⟨m, fun _ => 0, ρ⟩ (fun r => ∀ c : Dev nD,
      r.2.mem ((c.tc : Thread nD τ).loc main_v4) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_v4 (by decide))).trans (Bd4_main_v4 m ρ c),
     (h c _ (mem_uc main_arg0 (by decide))).trans (Bd4_main_arg0 m ρ c),
     (h c _ (mem_uc main_arg1 (by decide))).trans (Bd4_main_arg1 m ρ c),
     (h c _ (mem_uc main_arg2 (by decide))).trans (Bd4_main_arg2 m ρ c),
     (h c _ (mem_uc main_arg3 (by decide))).trans (Bd4_main_arg3 m ρ c),
     (h c _ (mem_uc main_arg4 (by decide))).trans (Bd4_main_arg4 m ρ c)⟩

/-- The frame: @main runs and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_arg0 (by decide))).trans (Bd4_main_arg0 m ρ c),
     (h c _ (mem_uc main_arg1 (by decide))).trans (Bd4_main_arg1 m ρ c),
     (h c _ (mem_uc main_arg2 (by decide))).trans (Bd4_main_arg2 m ρ c),
     (h c _ (mem_uc main_arg3 (by decide))).trans (Bd4_main_arg3 m ρ c),
     (h c _ (mem_uc main_arg4 (by decide))).trans (Bd4_main_arg4 m ρ c)⟩

/-! ## The windows' arrays at the regions' entry contents

Region 0 is entered after the transposes: the features and the weights are as launched, the two attention rows are
the transposed attention columns. Region 1 is entered after the reshape: the projected features and the first score
column are what region 0's write-backs leave, the second score row is the reshaped second score column, the
adjacency is as launched. -/

theorem V1_arg0 (c : Dev nD) : V1 m ρ c main_arg0 = m ((c : Thread nD τ).loc main_arg0) :=
  (hostOps0_keep (Bd0 m ρ c) main_arg0 (by decide) (by decide)).trans rfl
theorem V1_arg2 (c : Dev nD) : V1 m ρ c main_arg2 = m ((c : Thread nD τ).loc main_arg2) :=
  (hostOps0_keep (Bd0 m ρ c) main_arg2 (by decide) (by decide)).trans rfl
theorem V1_v0 (c : Dev nD) : V1 m ρ c main_v0
    = transpose S1x128 [1, 0] (m ((c : Thread nD τ).loc main_arg3)) transposes_S128x1_S1x128_1_0 := by
  show StableHlo.after hostOps0 _ (Proc.devRef .tc main_v0) = _
  after_results
theorem V1_v1 (c : Dev nD) : V1 m ρ c main_v1
    = transpose S1x128 [1, 0] (m ((c : Thread nD τ).loc main_arg4)) transposes_S128x1_S1x128_1_0 := by
  show StableHlo.after hostOps0 _ (Proc.devRef .tc main_v1) = _
  after_results

theorem V3_v2_0 (c : Dev nD) : V3 m ρ c main_v2_0 = (dat0 (V1 m ρ) c).arrAt 4 cfg0.N :=
  (hostOps1_keep (Bd2 m ρ c) main_v2_0 (by decide)).trans (Bd2_arr m ρ c 4)
theorem V3_v2_1 (c : Dev nD) : V3 m ρ c main_v2_1 = (dat0 (V1 m ρ) c).arrAt 5 cfg0.N :=
  (hostOps1_keep (Bd2 m ρ c) main_v2_1 (by decide)).trans (Bd2_arr m ρ c 5)
theorem V3_v3 (c : Dev nD) : V3 m ρ c main_v3
    = shapeCast S1x8192 ((dat0 (V1 m ρ) c).arrAt 6 cfg0.N) shapeCasts_S8192x1_S1x8192 := by
  show StableHlo.after hostOps1 _ (Proc.devRef .tc main_v3) = _
  after_results
  rw [show Bd2 m ρ c (Proc.devRef .tc main_v2_2) = (dat0 (V1 m ρ) c).arrAt 6 cfg0.N from Bd2_arr m ρ c 6]
  rfl
theorem V3_arg1 (c : Dev nD) : V3 m ρ c main_arg1 = m ((c : Thread nD τ).loc main_arg1) :=
  (hostOps1_keep (Bd2 m ρ c) main_arg1 (by decide)).trans <|
    (Bd2_of_ne m ρ c main_arg1 (by decide)).trans <|
      (hostOps0_keep (Bd0 m ρ c) main_arg1 (by decide) (by decide)).trans rfl

end Cert.KernelIdeal.Hand

end
-- ==== Proof.Spec.lean ====
/-
  The mathematics both programs compute, as one function of the argument arrays over the extended reals.

  A graph-attention layer on 8192 nodes: the projected features `h = X · W` (8192 × 128), the two
  attention features `f₁ = h · a₁`, `f₂ = h · a₂`, the score of the pair (r, k), which is the leaky
  rectifier of `f₁ r + f₂ k` where the adjacency word is positive and a fixed finite stand-in elsewhere,
  the row-wise softmax of the scores (shifted by the row's maximum), the mixture of the rows of `h`
  under those weights, and the exponential linear unit of the result.

  Also stated here: the same mixture computed BLOCKWISE over the 8 column blocks of 1024, with a running
  maximum, a running normaliser and a running accumulator that are rescaled whenever the maximum grows
  (`runMax`, `runNorm`, `runAcc`), which is how the kernel walks a row; that the two agree on finite
  data is `Cert.Spec.blockwise_eq` (in the module of the softmax laws).
-/
import Idealize.ShloMosaic.PureOps.Ideal
import Idealize.ShloMosaic.Lib.ValueIdx

noncomputable section

namespace Cert.Spec

open Idealize.ShloMosaic

/-- The rectifier's negative slope, the f32 nearest 0.2, as both programs spell it. -/
abbrev slope : EReal := Ideal.ofBits .f32 0x3E4CCCCD#32
/-- The finite stand-in for "no edge", the f32 nearest −9·10¹⁵, as both programs spell it. -/
abbrev masked : EReal := Ideal.ofBits .f32 0xD9FFCB9E#32

/-- `h = X · W`. -/
def proj (X : Fin 8192 → Fin 256 → EReal) (Wt : Fin 256 → Fin 128 → EReal) (r : Fin 8192) (o : Fin 128) : EReal :=
  ∑ k : Fin 256, X r k * Wt k o

/-- `f = h · a`, one number per node. -/
def feat (h : Fin 8192 → Fin 128 → EReal) (a : Fin 128 → EReal) (r : Fin 8192) : EReal :=
  ∑ o : Fin 128, h r o * a o

/-- The leaky rectifier: the identity above zero, the slope below (and at zero both branches are zero). -/
def leaky (s : EReal) : EReal := if 0 < s then s else slope * s

/-- The score of the pair (r, k): rectified `f₁ r + f₂ k` on an edge, the stand-in off it. -/
def score (f1 f2 : Fin 8192 → EReal) (adj : Fin 8192 → Fin 8192 → BitVec 32) (r k : Fin 8192) : EReal :=
  if IntOp.cmpi .sgt (adj r k) 0#32 = 1#1 then leaky (f1 r + f2 k) else masked

/-- A row's maximum, as a fold of `max` from −∞. -/
def rowMax (x : Fin 8192 → EReal) : EReal := (Finset.univ : Finset (Fin 8192)).fold max ⊥ x

/-- The unnormalised softmax weight of column `k`. -/
def weight (x : Fin 8192 → EReal) (k : Fin 8192) : EReal := Ideal.exp (x k - rowMax x)

/-- The row's normaliser. -/
def norm (x : Fin 8192 → EReal) : EReal := ∑ k : Fin 8192, weight x k

/-- The mixture of the rows of `h` under the row's softmax weights, each weight normalised first. -/
def mix (x : Fin 8192 → EReal) (h : Fin 8192 → Fin 128 → EReal) (o : Fin 128) : EReal :=
  ∑ k : Fin 8192, Ideal.div (weight x k) (norm x) * h k o

/-- The exponential linear unit. -/
def elu (x : EReal) : EReal := if 0 < x then x else Ideal.exp x - 1

/-- The layer's output at (r, o). -/
def out (X : Fin 8192 → Fin 256 → EReal) (adj : Fin 8192 → Fin 8192 → BitVec 32) (Wt : Fin 256 → Fin 128 → EReal)
    (a1 a2 : Fin 128 → EReal) (r : Fin 8192) (o : Fin 128) : EReal :=
  elu (mix (score (feat (proj X Wt) a1) (feat (proj X Wt) a2) adj r) (proj X Wt) o)

/-! ## The same mixture, column block by column block -/

/-- Column `k` of block `j`: blocks of 1024 consecutive columns. -/
def blk (j : Fin 8) (k : Fin 1024) : Fin 8192 := ⟨j.val * 1024 + k.val, by omega⟩

/-- The maximum of the row over one block. -/
def blockMax (x : Fin 8192 → EReal) (j : Fin 8) : EReal :=
  (Finset.univ : Finset (Fin 1024)).fold max ⊥ (fun k => x (blk j k))

/-- The running maximum after the first `n` blocks (−∞ before any). Blocks past the eighth repeat the last. -/
def runMax (x : Fin 8192 → EReal) : ℕ → EReal
  | 0 => ⊥
  | n + 1 => max (runMax x n) (blockMax x ⟨n % 8, Nat.mod_lt _ (by decide)⟩)

/-- The running normaliser: rescaled by `exp (old max − new max)`, plus the block's weights at the new maximum. -/
def runNorm (x : Fin 8192 → EReal) : ℕ → EReal
  | 0 => 0
  | n + 1 => Ideal.exp (runMax x n - runMax x (n + 1)) * runNorm x n
      + ∑ k : Fin 1024, Ideal.exp (x (blk ⟨n % 8, Nat.mod_lt _ (by decide)⟩ k) - runMax x (n + 1))

/-- The running accumulator of the mixture's numerator, rescaled the same way. -/
def runAcc (x : Fin 8192 → EReal) (h : Fin 8192 → Fin 128 → EReal) (o : Fin 128) : ℕ → EReal
  | 0 => 0
  | n + 1 => Ideal.exp (runMax x n - runMax x (n + 1)) * runAcc x h o n
      + ∑ k : Fin 1024, Ideal.exp (x (blk ⟨n % 8, Nat.mod_lt _ (by decide)⟩ k) - runMax x (n + 1)) * h (blk ⟨n % 8, Nat.mod_lt _ (by decide)⟩ k) o

end Cert.Spec

end
-- ==== Proof.KI.Pay0.lean ====
import proofs.«430478_j33861522162300_3_alg».proof.Proof.Gen.KernelIdeal.Skeleton
import proofs.«430478_j33861522162300_3_alg».proof.Proof.Spec
import Idealize.ShloMosaic.PureOps.Ideal.Laws
import Idealize.ShloMosaic.Lib.ValueIdx
import Idealize.ShloMosaic.Lib.ValueLayout
import Idealize.ShloMosaic.Lib.Pipeline.Value

/-!
  What one grid point of the projection call computes, read element by element over the extended reals.

  The call's body multiplies a 1024 × 256 block of the node features by the 256 × 128 weight matrix and
  stores three things: the product itself (the block of projected features `h`), and its contraction
  with each of the two attention vectors (one number per row: the blocks of `f₁` and `f₂`). Over the
  extended reals no operation rounds, so the narrowing of the operands before the product and of the
  product before the store are the identity, and the product accumulates into a zero: each stored
  element is a plain finite sum, which is what the lemmas below say.
-/

set_option maxRecDepth 16384

noncomputable section

namespace Cert.KernelIdeal.Hand

open Cert.KernelIdeal Cert.KernelIdeal.Gen
open Idealize.ShloMosaic Idealize.ShloMosaic.ValueIdx
open scoped BigOperators

/-! ## The product's operand indices, coordinate by coordinate

At the output element (row, column) and contraction position `k`, the left operand is read at (row, `k`)
and the right operand at (`k`, column). -/

theorem dot0_lhs_0 (j : S1024x128.Idx) (k : dot_S1024x256_S256x128_S1024x128_1_0_0_1_n_n.contr.Idx) :
    (dot_S1024x256_S256x128_S1024x128_1_0_0_1_n_n.lhsIdx j k 0 : ℕ) = j 0 := by
  simp [DotDims.lhsIdx, dot_S1024x256_S256x128_S1024x128_1_0_0_1_n_n]; rfl

theorem dot0_lhs_1 (j : S1024x128.Idx) (k : dot_S1024x256_S256x128_S1024x128_1_0_0_1_n_n.contr.Idx) :
    (dot_S1024x256_S256x128_S1024x128_1_0_0_1_n_n.lhsIdx j k 1 : ℕ) = k ⟨0, by decide⟩ :=
  dot_S1024x256_S256x128_S1024x128_1_0_0_1_n_n.lhsIdx_val_of_single (cl := 1) rfl j k

theorem dot0_rhs_0 (j : S1024x128.Idx) (k : dot_S1024x256_S256x128_S1024x128_1_0_0_1_n_n.contr.Idx) :
    (dot_S1024x256_S256x128_S1024x128_1_0_0_1_n_n.rhsIdx j k 0 : ℕ) = k ⟨0, by decide⟩ :=
  dot_S1024x256_S256x128_S1024x128_1_0_0_1_n_n.rhsIdx_val_of_single (cr := 0) rfl j k

theorem dot0_rhs_1 (j : S1024x128.Idx) (k : dot_S1024x256_S256x128_S1024x128_1_0_0_1_n_n.contr.Idx) :
    (dot_S1024x256_S256x128_S1024x128_1_0_0_1_n_n.rhsIdx j k 1 : ℕ) = j 1 := by
  simp [DotDims.rhsIdx, dot_S1024x256_S256x128_S1024x128_1_0_0_1_n_n]; rfl

/-- The contraction runs over one axis of extent 256: its positions are `Fin 256`. -/
def contr0 : dot_S1024x256_S256x128_S1024x128_1_0_0_1_n_n.contr.Idx ≃ Fin 256 :=
  contrEquiv1 dot_S1024x256_S256x128_S1024x128_1_0_0_1_n_n 256 rfl rfl

theorem contr0_symm_val (k : Fin 256) : ((contr0.symm k) ⟨0, by decide⟩ : ℕ) = k.val :=
  contrEquiv1_symm_val dot_S1024x256_S256x128_S1024x128_1_0_0_1_n_n 256 rfl rfl k

/-! ## The block product at an element -/

/-- The product block at (p, o) is the sum over the 256 feature columns of the row's entry times the
    weight's entry. -/
theorem proj_pay1_apply (x : Vec Ideal S1024x256 .f32) (w : Vec Ideal S256x128 .f32) (p : Fin 1024) (o : Fin 128) :
    k0_pay1 (F := Ideal) x w (ix2 p o) = ∑ k : Fin 256, x (ix2 p k) * w (ix2 k o) := by
  unfold k0_pay1
  simp only [matmul]
  refine (Ideal.matmul_constant_zero_apply _ none _ _ _).trans ?_
  rw [← Equiv.sum_comp contr0.symm]
  refine Finset.sum_congr rfl fun k _ => ?_
  have hl : dot_S1024x256_S256x128_S1024x128_1_0_0_1_n_n.lhsIdx (ix2 p o) (contr0.symm k) = ix2 p k :=
    Shape.idx_ext₂ (dot0_lhs_0 _ _) ((dot0_lhs_1 _ _).trans (contr0_symm_val k))
  have hr : dot_S1024x256_S256x128_S1024x128_1_0_0_1_n_n.rhsIdx (ix2 p o) (contr0.symm k) = ix2 k o :=
    Shape.idx_ext₂ ((dot0_rhs_0 _ _).trans (contr0_symm_val k)) (dot0_rhs_1 _ _)
  rw [truncf_apply, truncf_apply, hl, hr]

/-- The block that is stored as projected features is the same product: the narrowing before the store
    changes nothing over the extended reals. -/
theorem proj_pay4_apply (x : Vec Ideal S1024x256 .f32) (w : Vec Ideal S256x128 .f32) (p : Fin 1024) (o : Fin 128) :
    k0_pay4 (F := Ideal) x w (ix2 p o) = ∑ k : Fin 256, x (ix2 p k) * w (ix2 k o) :=
  (truncf_apply (k0_pay1 (F := Ideal) x w) bitsLt_bf16_f32 (ix2 p o)).trans (proj_pay1_apply x w p o)

/-! ## The contraction of the product with an attention vector -/

/-- A sum over the 128 lanes of a 1024 × 128 block, read at row `r`. -/
theorem lane_sum (src : FVec Ideal S1024x128 .f32) (r : Fin 1024) :
    multiReduction (F := Ideal) .add [1] S1024 src 0x00000000#32 reduces_S1024x128_S1024 (.inl rfl) rfl (ix1 r)
      = ∑ o : Fin 128, src (ix2 r o) := by
  refine (Ideal.multiReduction_add_single src _ reduces_S1024x128_S1024 (.inl rfl) rfl (ix1 r)).trans ?_
  refine Finset.sum_congr rfl fun o _ => congrArg src ?_
  exact Shape.idx_ext₂ rfl rfl

/-- A column of 1024 numbers viewed as a 1024 × 1 block reads the same number at (r, 0). -/
theorem col_cast (v : FVec Ideal S1024 .f32) (r : Fin 1024) :
    shapeCast S1024x1 v shapeCasts_S1024_S1024x1 (ix2 r (0 : Fin 1)) = v (ix1 r) := by
  refine shapeCast_apply v _ (ix2 r (0 : Fin 1)) (ix1 r) ?_
  rw [Shape.rowMajor_val_one, Shape.rowMajor_val_two]
  show r.val = r.val * 1 + 0
  omega

/-- The shared shape of the two feature payloads: the product block times a broadcast row, summed over
    the lanes, as a column. At (p, 0) it is the row's product entries contracted with the vector. -/
theorem feat_apply (x : Vec Ideal S1024x256 .f32) (w : Vec Ideal S256x128 .f32) (a : Vec Ideal S1x128 .f32) (p : Fin 1024) :
    shapeCast S1024x1
        (multiReduction (F := Ideal) .add [1] S1024
          (mulf (k0_pay1 (F := Ideal) x w)
            (broadcastTo S1024x128 (shapeCast S1x128 a shapeCasts_S1x128_S1x128) broadcasts_S1x128_S1024x128))
          0x00000000#32 reduces_S1024x128_S1024 (.inl rfl) rfl)
        shapeCasts_S1024_S1024x1 (ix2 p (0 : Fin 1))
      = ∑ o : Fin 128, (∑ k : Fin 256, x (ix2 p k) * w (ix2 k o)) * a (ix2 (0 : Fin 1) o) := by
  refine (col_cast _ p).trans ?_
  refine (lane_sum _ p).trans ?_
  refine Finset.sum_congr rfl fun o _ => ?_
  rw [mulf_apply, proj_pay1_apply, shapeCast_self, broadcastTo_1b_ab_apply]

theorem proj_pay2_apply (x : Vec Ideal S1024x256 .f32) (w : Vec Ideal S256x128 .f32) (a : Vec Ideal S1x128 .f32) (p : Fin 1024) :
    k0_pay2 (F := Ideal) x w a (ix2 p (0 : Fin 1))
      = ∑ o : Fin 128, (∑ k : Fin 256, x (ix2 p k) * w (ix2 k o)) * a (ix2 (0 : Fin 1) o) :=
  feat_apply x w a p

theorem proj_pay3_apply (x : Vec Ideal S1024x256 .f32) (w : Vec Ideal S256x128 .f32) (a : Vec Ideal S1x128 .f32) (p : Fin 1024) :
    k0_pay3 (F := Ideal) x w a (ix2 p (0 : Fin 1))
      = ∑ o : Fin 128, (∑ k : Fin 256, x (ix2 p k) * w (ix2 k o)) * a (ix2 (0 : Fin 1) o) :=
  feat_apply x w a p

end Cert.KernelIdeal.Hand

end
-- ==== Proof.KI.Val0.lean ====
import proofs.«430478_j33861522162300_3_alg».proof.Proof.Gen.KernelIdeal.Launch
import proofs.«430478_j33861522162300_3_alg».proof.Proof.Gen.KernelIdeal.Skeleton
import proofs.«430478_j33861522162300_3_alg».proof.Proof.Gen.KernelIdeal.Points
import proofs.«430478_j33861522162300_3_alg».proof.Proof.Spec
import proofs.«430478_j33861522162300_3_alg».proof.Proof.KI.Reg0
import proofs.«430478_j33861522162300_3_alg».proof.Proof.KI.Pay0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

/-!
  The three arrays the projection call leaves, as whole-array functions of what it found.

  The call walks the 8192 rows in 8 blocks of 1024. At block `t` it reads rows `1024 t … 1024 t + 1023` of
  the features, the whole weight matrix and the two attention rows, and writes back the same rows of the
  projected features `h = X · W` and of the two columns `f₁ = h · a₁`, `f₂ = h · a₂`. Every row lies in
  exactly one block, so after the last block each array holds its function at every row.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

/-! ## The arrays the call reads, by coordinates -/

/-- The node features as the call finds them. -/
def X0 (c : Dev nD) : Fin 8192 → Fin 256 → EReal := fun r k => (V c main_arg0 : S8192x256.Idx → EReal) (ix2 r k)
/-- The weight matrix as the call finds it. -/
def W0 (c : Dev nD) : Fin 256 → Fin 128 → EReal := fun k o => (V c main_arg2 : S256x128.Idx → EReal) (ix2 k o)
/-- The two attention vectors, as rows. -/
def A1 (c : Dev nD) : Fin 128 → EReal := fun o => (V c main_v0 : S1x128.Idx → EReal) (ix2 (0 : Fin 1) o)
def A2 (c : Dev nD) : Fin 128 → EReal := fun o => (V c main_v1 : S1x128.Idx → EReal) (ix2 (0 : Fin 1) o)

/-- What the projected-features array ends holding. -/
def G4 (c : Dev nD) : S8192x128.Idx → EReal := fun i => Cert.Spec.proj (X0 V c) (W0 V c) (i 0) (i 1)
/-- What the two feature columns end holding. -/
def G5 (c : Dev nD) : S8192x1.Idx → EReal := fun i => Cert.Spec.feat (Cert.Spec.proj (X0 V c) (W0 V c)) (A1 V c) (i 0)
def G6 (c : Dev nD) : S8192x1.Idx → EReal := fun i => Cert.Spec.feat (Cert.Spec.proj (X0 V c) (W0 V c)) (A2 V c) (i 0)

/-! ## Where each block sits -/

/-- The printed index maps over the grid: the row-block windows sit at block row `t`, column block 0; the
    weight matrix and the attention rows at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of block `t` is row `1024 t + p` of the array. -/
def row0 (t : Fin cfg0.N) (p : Fin 1024) : Fin 8192 :=
  ⟨t.val * 1024 + p.val, by have := t.isLt; have : cfg0.N = 8 := N_0; omega⟩

/-! ## The input blocks, element by element -/

/-- Block `t` of the features is rows `1024 t …` of the array. -/
theorem iblk0_0_apply (c : Dev nD) (t : Fin cfg0.N) (p : Fin 1024) (k : Fin 256) :
    (iblk0 V c 0 t : S1024x256.Idx → EReal) (ix2 p k) = X0 V c (row0 t p) k := by
  obtain ⟨e0, e1, -⟩ := idx_facts0 t
  show (V c main_arg0 : S8192x256.Idx → EReal) (((cfg0.win 0).blk t).view.emb (ix2 p k))
    = (V c main_arg0 : S8192x256.Idx → EReal) (ix2 (row0 t p) k)
  refine congrArg (V c main_arg0 : S8192x256.Idx → EReal) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

/-- The weight matrix's one block is the whole matrix, at every point. -/
theorem iblk0_1_apply (c : Dev nD) (t : Fin cfg0.N) (k : Fin 256) (o : Fin 128) :
    (iblk0 V c 1 t : S256x128.Idx → EReal) (ix2 k o) = W0 V c k o := by
  obtain ⟨-, -, e0, e1, -⟩ := idx_facts0 t
  show (V c main_arg2 : S256x128.Idx → EReal) (((cfg0.win 1).blk t).view.emb (ix2 k o))
    = (V c main_arg2 : S256x128.Idx → EReal) (ix2 k o)
  refine congrArg (V c main_arg2 : S256x128.Idx → EReal) (funext fun a => Fin.ext ?_)
  match a with
  | ⟨0, _⟩ => show win0_1.index t (0 : Fin 2) * 256 + 1 * k.val = k.val; rw [e0]; omega
  | ⟨1, _⟩ => show win0_1.index t (1 : Fin 2) * 128 + 1 * o.val = o.val; rw [e1]; omega

/-- Each attention row's one block is the whole row, at every point. -/
theorem iblk0_2_apply (c : Dev nD) (t : Fin cfg0.N) (o : Fin 128) :
    (iblk0 V c 2 t : S1x128.Idx → EReal) (ix2 (0 : Fin 1) o) = A1 V c o := by
  obtain ⟨-, -, -, -, e0, e1, -⟩ := idx_facts0 t
  show (V c main_v0 : S1x128.Idx → EReal) (((cfg0.win 2).blk t).view.emb (ix2 (0 : Fin 1) o))
    = (V c main_v0 : S1x128.Idx → EReal) (ix2 (0 : Fin 1) o)
  refine congrArg (V c main_v0 : S1x128.Idx → EReal) (funext fun a => Fin.ext ?_)
  match a with
  | ⟨0, _⟩ => show win0_2.index t (0 : Fin 2) * 1 + 1 * 0 = 0; rw [e0]
  | ⟨1, _⟩ => show win0_2.index t (1 : Fin 2) * 128 + 1 * o.val = o.val; rw [e1]; omega

theorem iblk0_3_apply (c : Dev nD) (t : Fin cfg0.N) (o : Fin 128) :
    (iblk0 V c 3 t : S1x128.Idx → EReal) (ix2 (0 : Fin 1) o) = A2 V c o := by
  obtain ⟨-, -, -, -, -, -, e0, e1, -⟩ := idx_facts0 t
  show (V c main_v1 : S1x128.Idx → EReal) (((cfg0.win 3).blk t).view.emb (ix2 (0 : Fin 1) o))
    = (V c main_v1 : S1x128.Idx → EReal) (ix2 (0 : Fin 1) o)
  refine congrArg (V c main_v1 : S1x128.Idx → EReal) (funext fun a => Fin.ext ?_)
  match a with
  | ⟨0, _⟩ => show win0_3.index t (0 : Fin 2) * 1 + 1 * 0 = 0; rw [e0]
  | ⟨1, _⟩ => show win0_3.index t (1 : Fin 2) * 128 + 1 * o.val = o.val; rw [e1]; omega

/-! ## Where an element of an output block lands -/

theorem emb4 (t : Fin cfg0.N) (p : Fin 1024) (o : Fin 128) :
    ((cfg0.win 4).blk t).view.emb (ix2 p o) = (ix2 (row0 t p) o : S8192x128.Idx) := by
  obtain ⟨-, -, -, -, -, -, -, -, e0, e1, -⟩ := idx_facts0 t
  refine funext fun a => Fin.ext ?_
  match a with
  | ⟨0, _⟩ => show win0_4.index t (0 : Fin 2) * 1024 + 1 * p.val = t.val * 1024 + p.val; rw [e0]; omega
  | ⟨1, _⟩ => show win0_4.index t (1 : Fin 2) * 128 + 1 * o.val = o.val; rw [e1]; omega

theorem emb5 (t : Fin cfg0.N) (p : Fin 1024) :
    ((cfg0.win 5).blk t).view.emb (ix2 p (0 : Fin 1)) = (ix2 (row0 t p) (0 : Fin 1) : S8192x1.Idx) := by
  obtain ⟨-, -, -, -, -, -, -, -, -, -, e0, e1, -⟩ := idx_facts0 t
  refine funext fun a => Fin.ext ?_
  match a with
  | ⟨0, _⟩ => show win0_5.index t (0 : Fin 2) * 1024 + 1 * p.val = t.val * 1024 + p.val; rw [e0]; omega
  | ⟨1, _⟩ => show win0_5.index t (1 : Fin 2) * 1 + 1 * 0 = 0; rw [e1]

theorem emb6 (t : Fin cfg0.N) (p : Fin 1024) :
    ((cfg0.win 6).blk t).view.emb (ix2 p (0 : Fin 1)) = (ix2 (row0 t p) (0 : Fin 1) : S8192x1.Idx) := by
  obtain ⟨-, -, -, -, -, -, -, -, -, -, -, -, e0, e1⟩ := idx_facts0 t
  refine funext fun a => Fin.ext ?_
  match a with
  | ⟨0, _⟩ => show win0_6.index t (0 : Fin 2) * 1024 + 1 * p.val = t.val * 1024 + p.val; rw [e0]; omega
  | ⟨1, _⟩ => show win0_6.index t (1 : Fin 2) * 1 + 1 * 0 = 0; rw [e1]

/-- A row's product entry computed from operand blocks that read the arrays' row `r` and column `o` is
    the array's projected entry there. -/
theorem proj_sum (x : Vec Ideal S1024x256 .f32) (w : Vec Ideal S256x128 .f32)
    (X : Fin 8192 → Fin 256 → EReal) (W : Fin 256 → Fin 128 → EReal) (p : Fin 1024) (r : Fin 8192) (o : Fin 128)
    (hx : ∀ k : Fin 256, x (ix2 p k) = X r k) (hw : ∀ k : Fin 256, w (ix2 k o) = W k o) :
    (∑ k : Fin 256, x (ix2 p k) * w (ix2 k o)) = Cert.Spec.proj X W r o :=
  Finset.sum_congr rfl fun k _ => congrArg₂ (· * ·) (hx k) (hw k)

/-- The same contracted with a row vector. -/
theorem feat_sum (x : Vec Ideal S1024x256 .f32) (w : Vec Ideal S256x128 .f32) (a : Vec Ideal S1x128 .f32)
    (X : Fin 8192 → Fin 256 → EReal) (W : Fin 256 → Fin 128 → EReal) (A : Fin 128 → EReal) (p : Fin 1024) (r : Fin 8192)
    (hx : ∀ k : Fin 256, x (ix2 p k) = X r k) (hw : ∀ (k : Fin 256) (o : Fin 128), w (ix2 k o) = W k o)
    (ha : ∀ o : Fin 128, a (ix2 (0 : Fin 1) o) = A o) :
    (∑ o : Fin 128, (∑ k : Fin 256, x (ix2 p k) * w (ix2 k o)) * a (ix2 (0 : Fin 1) o))
      = Cert.Spec.feat (Cert.Spec.proj X W) A r :=
  Finset.sum_congr rfl fun o _ => congrArg₂ (· * ·) (proj_sum x w X W p r o hx fun k => hw k o) (ha o)

/-! ## The projected features -/

/-- What point `t` writes back is block `t` of the projected features. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz0]
  simp only [View.ld_unit_zero (S := S1024x256) hz0, View.ld_unit_zero (S := S256x128) hz0]
  funext j
  obtain ⟨p, o, rfl⟩ : ∃ (p : Fin 1024) (o : Fin 128), j = ix2 p o := ⟨j 0, j 1, eq_ix2 j⟩
  show k0_pay4 (F := Ideal) (iblk0 V c 0 t) (iblk0 V c 1 t) (ix2 p o) = G4 V c (((cfg0.win 4).blk t).view.emb (ix2 p o))
  rw [emb4]
  exact (proj_pay4_apply _ _ p o).trans
    (proj_sum (iblk0 V c 0 t) (iblk0 V c 1 t) (X0 V c) (W0 V c) p (row0 t p) o
      (iblk0_0_apply V c t p) fun k => iblk0_1_apply V c t k o)

/-- An array index is in point `t`'s block iff each coordinate is in the block's range on its axis. -/
theorem mem_blk4 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v2_0).slice (win0_4.rect t)).set ↔ _
  rw [View.set_slice_whole, Rect.mem_set_unit]
  exact Iff.rfl

/-- Row `r` lies in the block of point `r / 1024`. -/
theorem cover4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, e0, e1, -⟩ := idx_facts0 t
  refine ⟨t, flush0_4 t, (mem_blk4 t i).mpr fun a => ?_⟩
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 128 ≤ (i 1).val ∧ (i 1).val < win0_4.index t (1 : Fin 2) * 128 + 128; rw [e1]; omega

/-- After the last point the array holds the projected features at every row. -/
theorem final4 (c : Dev nD) : (dat0 V c).arrAt 4 cfg0.N = G4 V c :=
  (dat0 V c).arrAt_eq_of_cover 4 (G4 V c) (fun t _ => flushed4_eq V c t) cover4

/-! ## The two feature columns -/

theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz0]
  simp only [View.ld_unit_zero (S := S1024x256) hz0, View.ld_unit_zero (S := S256x128) hz0, View.ld_unit_zero (S := S1x128) hz0]
  funext j
  obtain ⟨p, q, rfl⟩ : ∃ (p : Fin 1024) (q : Fin 1), j = ix2 p q := ⟨j 0, j 1, eq_ix2 j⟩
  obtain rfl : q = 0 := Subsingleton.elim _ _
  show k0_pay2 (F := Ideal) (iblk0 V c 0 t) (iblk0 V c 1 t) (iblk0 V c 2 t) (ix2 p (0 : Fin 1))
    = G5 V c (((cfg0.win 5).blk t).view.emb (ix2 p (0 : Fin 1)))
  rw [emb5]
  exact (proj_pay2_apply _ _ _ p).trans
    (feat_sum (iblk0 V c 0 t) (iblk0 V c 1 t) (iblk0 V c 2 t) (X0 V c) (W0 V c) (A1 V c) p (row0 t p)
      (iblk0_0_apply V c t p) (iblk0_1_apply V c t) (iblk0_2_apply V c t))

theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz0]
  simp only [View.ld_unit_zero (S := S1024x256) hz0, View.ld_unit_zero (S := S256x128) hz0, View.ld_unit_zero (S := S1x128) hz0]
  funext j
  obtain ⟨p, q, rfl⟩ : ∃ (p : Fin 1024) (q : Fin 1), j = ix2 p q := ⟨j 0, j 1, eq_ix2 j⟩
  obtain rfl : q = 0 := Subsingleton.elim _ _
  show k0_pay3 (F := Ideal) (iblk0 V c 0 t) (iblk0 V c 1 t) (iblk0 V c 3 t) (ix2 p (0 : Fin 1))
    = G6 V c (((cfg0.win 6).blk t).view.emb (ix2 p (0 : Fin 1)))
  rw [emb6]
  exact (proj_pay3_apply _ _ _ p).trans
    (feat_sum (iblk0 V c 0 t) (iblk0 V c 1 t) (iblk0 V c 3 t) (X0 V c) (W0 V c) (A2 V c) p (row0 t p)
      (iblk0_0_apply V c t p) (iblk0_1_apply V c t) (iblk0_3_apply V c t))

theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl

theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v2_2).slice (win0_6.rect t)).set ↔ _
  rw [View.set_slice_whole, Rect.mem_set_unit]
  exact Iff.rfl

theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, -, -, e0, e1, -⟩ := idx_facts0 t
  refine ⟨t, flush0_5 t, (mem_blk5 t i).mpr fun a => ?_⟩
  match a with
  | ⟨0, _⟩ => show win0_5.index t (0 : Fin 2) * 1024 ≤ (i 0).val ∧ (i 0).val < win0_5.index t (0 : Fin 2) * 1024 + 1024; rw [e0, ht]; omega
  | ⟨1, _⟩ => show win0_5.index t (1 : Fin 2) * 1 ≤ (i 1).val ∧ (i 1).val < win0_5.index t (1 : Fin 2) * 1 + 1; rw [e1]; omega

theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, -, -, -, -, -, -, -, -, e0, e1⟩ := idx_facts0 t
  refine ⟨t, flush0_6 t, (mem_blk6 t i).mpr fun a => ?_⟩
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 1 ≤ (i 1).val ∧ (i 1).val < win0_6.index t (1 : Fin 2) * 1 + 1; rw [e1]; omega

theorem final5 (c : Dev nD) : (dat0 V c).arrAt 5 cfg0.N = G5 V c :=
  (dat0 V c).arrAt_eq_of_cover 5 (G5 V c) (fun t _ => flushed5_eq V c t) cover5

theorem final6 (c : Dev nD) : (dat0 V c).arrAt 6 cfg0.N = G6 V c :=
  (dat0 V c).arrAt_eq_of_cover 6 (G6 V c) (fun t _ => flushed6_eq V c t) cover6

/-! ## The three arrays after the call, by coordinates -/

/-- The projected features: `h r o = ∑ k, X r k · W k o`. -/
theorem arr0_h (c : Dev nD) (r : Fin 8192) (o : Fin 128) :
    (dat0 (F := Ideal) V c).arrAt 4 cfg0.N (ix2 r o)
      = Cert.Spec.proj (fun r k => (V c main_arg0 : S8192x256.Idx → EReal) (ix2 r k))
          (fun k o => (V c main_arg2 : S256x128.Idx → EReal) (ix2 k o)) r o := by
  rw [final4]; rfl

/-- The first feature column: `f₁ r = ∑ o, h r o · a₁ o`. -/
theorem arr0_f1 (c : Dev nD) (r : Fin 8192) :
    (dat0 (F := Ideal) V c).arrAt 5 cfg0.N (ix2 r (0 : Fin 1))
      = Cert.Spec.feat (Cert.Spec.proj (fun r k => (V c main_arg0 : S8192x256.Idx → EReal) (ix2 r k))
          (fun k o => (V c main_arg2 : S256x128.Idx → EReal) (ix2 k o)))
          (fun o => (V c main_v0 : S1x128.Idx → EReal) (ix2 (0 : Fin 1) o)) r := by
  rw [final5]; rfl

/-- The second feature column: `f₂ r = ∑ o, h r o · a₂ o`. -/
theorem arr0_f2 (c : Dev nD) (r : Fin 8192) :
    (dat0 (F := Ideal) V c).arrAt 6 cfg0.N (ix2 r (0 : Fin 1))
      = Cert.Spec.feat (Cert.Spec.proj (fun r k => (V c main_arg0 : S8192x256.Idx → EReal) (ix2 r k))
          (fun k o => (V c main_arg2 : S256x128.Idx → EReal) (ix2 k o)))
          (fun o => (V c main_v1 : S1x128.Idx → EReal) (ix2 (0 : Fin 1) o)) r := by
  rw [final6]; rfl

end Cert.KernelIdeal.Hand

end
-- ==== Proof.KI.Pieces1.lean ====
import proofs.«430478_j33861522162300_3_alg».proof.Proof.KI.Reg1C
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each run of region 1's body leaves, as arithmetic on the blocks

The second kernel keeps three buffers from one grid point to the next: the running row maximum `m`, the
running normaliser `l` and the accumulator `acc`. With those at `(M, L, A)` before the update and the point's
blocks `x0` (the rows' scores), `x1` (the columns' scores), `x2` (the adjacency block), `x3` (all projected rows),
one run of the body leaves

* `m   := max(M, rowmax s)` where `s` is the masked leaky score block,
* `l   := exp(M − m)·L + Σ_k exp(s − m)`,
* `acc := exp(M − m)·A + exp(s − m) · h[j-th row block]`,

each as ONE whole-buffer store whose payload is built from whole-buffer loads (the projected rows excepted: of them
the body loads the row block the point's second coordinate names). At a resetting point the body first stores the
neutral values `(−∞, 0, 0)` and reads them back, so there `(M, L, A)` are those constants. At a finishing point it
also reloads `acc` and `l` and stores `ELU(acc / l)` into the output window. The lemmas below read the piece lists
the symbolic runs found back as exactly these terms. -/

/-- The zero offsets of a whole-buffer access, as a constant function. -/
private theorem hzero : (![0, 0] : Fin 2 → Nat) = fun _ => 0 := funext fun a => by fin_cases a <;> rfl

/-! ## A resetting point that does not finish -/

/-- Each scratch buffer's pieces (the reset, then the update over it) cover it. -/
theorem pcover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 : Vec F S1024x1 .f32) (x1 : Vec F S1x1024 .f32) (x2 : Vec F S1024x1024 .i32) (x3 : Vec F S8192x128 .bf16) (y : S1024x1.Idx) :
    ∃ pc ∈ (kernelRun1_A (F := F) c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A (F := F) c i arg2 harg2 arg3 harg3 arg4 harg4 arg5 harg5 arg6 harg6 arg7 harg7 arg8 harg8 arg9 harg9 hc0 hc1 x0 x1 x2 x3).2.1 S1024x1.size (by sl_kernel_rfl) y
theorem pcover1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 : Vec F S1024x1 .f32) (x1 : Vec F S1x1024 .f32) (x2 : Vec F S1024x1024 .i32) (x3 : Vec F S8192x128 .bf16) (y : S1024x1.Idx) :
    ∃ pc ∈ (kernelRun1_A (F := F) c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A (F := F) c i arg2 harg2 arg3 harg3 arg4 harg4 arg5 harg5 arg6 harg6 arg7 harg7 arg8 harg8 arg9 harg9 hc0 hc1 x0 x1 x2 x3).2.2.1 S1024x1.size (by sl_kernel_rfl) y
theorem pcover1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 : Vec F S1024x1 .f32) (x1 : Vec F S1x1024 .f32) (x2 : Vec F S1024x1024 .i32) (x3 : Vec F S8192x128 .bf16) (y : S1024x128.Idx) :
    ∃ pc ∈ (kernelRun1_A (F := F) c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A (F := F) c i arg2 harg2 arg3 harg3 arg4 harg4 arg5 harg5 arg6 harg6 arg7 harg7 arg8 harg8 arg9 harg9 hc0 hc1 x0 x1 x2 x3).2.2.2.1 S1024x128.size (by sl_kernel_rfl) y

/-- The running maximum after a resetting point: the block's row maximum against the reset value `−∞`. -/
theorem piece1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 : Vec F S1024x1 .f32) (x1 : Vec F S1x1024 .f32) (x2 : Vec F S1024x1024 .i32) (x3 : Vec F S8192x128 .bf16) :
    VS1_0.read (Elt F) (VS1_0.writes (Elt F) VS1_0.junk (kernelRun1_A (F := F) c i arg2 harg2 arg3 harg3 arg4 harg4 arg5 harg5 arg6 harg6 arg7 harg7 arg8 harg8 arg9 harg9 hc0 hc1 x0 x1 x2 x3).2.1)
      = k1_pay3 (k1_pay9 x0 x1 x2 (k1_pay5 (F := F))) := by
  rw [View.read_writes_eq_canon _ _ _ (pcover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) hzero]
  simp only [View.readAt_eq_ld, harg2.read_unread, harg3.read_unread, harg4.read_unread, harg5.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

/-- The running normaliser after a resetting point: the update of the reset value `0`. -/
theorem piece1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 : Vec F S1024x1 .f32) (x1 : Vec F S1x1024 .f32) (x2 : Vec F S1024x1024 .i32) (x3 : Vec F S8192x128 .bf16) :
    VS1_1.read (Elt F) (VS1_1.writes (Elt F) VS1_1.junk (kernelRun1_A (F := F) c i arg2 harg2 arg3 harg3 arg4 harg4 arg5 harg5 arg6 harg6 arg7 harg7 arg8 harg8 arg9 harg9 hc0 hc1 x0 x1 x2 x3).2.2.1)
      = k1_pay1 (k1_pay12 x0 x1 x2 (k1_pay5 (F := F)) (k1_pay5 (F := F)) (k1_pay6 (F := F))) := by
  rw [View.read_writes_eq_canon _ _ _ (pcover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x1) hzero]
  simp only [View.readAt_eq_ld, harg2.read_unread, harg3.read_unread, harg4.read_unread, harg5.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

/-- The accumulator after a resetting point: the update of the reset value `0`, with the row block of the
    projected rows that the point's second coordinate names. -/
theorem piece1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (x0 : Vec F S1024x1 .f32) (x1 : Vec F S1x1024 .f32) (x2 : Vec F S1024x1024 .i32) (x3 : Vec F S8192x128 .bf16) :
    VS1_2.read (Elt F) (VS1_2.writes (Elt F) VS1_2.junk (kernelRun1_A (F := F) c i arg2 harg2 arg3 harg3 arg4 harg4 arg5 harg5 arg6 harg6 arg7 harg7 arg8 harg8 arg9 harg9 hc0 hc1 x0 x1 x2 x3).2.2.2.1)
      = k1_pay2 (k1_pay10 x0 x1 x2 (k1_pay5 (F := F)) (k1_pay5 (F := F))) (k1_pay11 x0 x1 x2 (k1_pay5 (F := F)))
          (View.ld x3 (Rect.unit (s := S8192x128) (k1_off1 i) S1024x128.size (k1_off1_inb i))) (k1_pay7 (F := F)) := by
  rw [View.read_writes_eq_canon _ _ _ (pcover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S1024x128) hzero]
  simp only [View.readAt_eq_ld, harg2.read_unread, harg3.read_unread, harg4.read_unread, harg5.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

/-! ## A point that neither resets nor finishes -/

/-- Each scratch buffer's one piece (the update's whole-buffer store) covers it. -/
theorem pcover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_B (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_B (F := F) c i arg2 harg2 arg3 harg3 arg4 harg4 arg5 harg5 arg6 harg6 arg7 harg7 arg8 harg8 arg9 harg9 hc0 hc1 x0 x1 x2 x3 xs0 xs1 xs2).2.1 S1024x1.size (by sl_kernel_rfl) y
theorem pcover1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_B (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_B (F := F) c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
theorem pcover1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x128.Idx) :
    ∃ pc ∈ (kernelRun1_B (F := F) c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_B (F := F) c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- The running maximum after a middle point: the block's row maximum against the previous maximum. -/
theorem piece1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    VS1_0.read (Elt F) (VS1_0.writes (Elt F) VS1_0.junk (kernelRun1_B (F := F) c i arg2 harg2 arg3 harg3 arg4 harg4 arg5 harg5 arg6 harg6 arg7 harg7 arg8 harg8 arg9 harg9 hc0 hc1 x0 x1 x2 x3 xs0 xs1 xs2).2.1)
      = k1_pay3 (k1_pay9 x0 x1 x2 xs0) := by
  rw [View.read_writes_eq_canon _ _ _ (pcover1_B_0 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_cons_unit_zero (S := S1024x1) hzero]
  simp only [View.readAt_eq_ld, harg2.read_unread, harg3.read_unread, harg4.read_unread, harg5.read_unread,
    harg7.read_unread, harg8.read_unread, harg9.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

/-- The running normaliser after a middle point: the previous one rescaled to the new maximum, plus the block's row sums. -/
theorem piece1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    VS1_1.read (Elt F) (VS1_1.writes (Elt F) VS1_1.junk (kernelRun1_B (F := F) c i arg2 harg2 arg3 harg3 arg4 harg4 arg5 harg5 arg6 harg6 arg7 harg7 arg8 harg8 arg9 harg9 hc0 hc1 x0 x1 x2 x3 xs0 xs1 xs2).2.2.1)
      = k1_pay1 (k1_pay12 x0 x1 x2 xs0 xs0 xs1) := by
  rw [View.read_writes_eq_canon _ _ _ (pcover1_B_1 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_cons_unit_zero (S := S1024x1) hzero]
  simp only [View.readAt_eq_ld, harg2.read_unread, harg3.read_unread, harg4.read_unread, harg5.read_unread,
    harg7.read_unread, harg8.read_unread, harg9.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

/-- The accumulator after a middle point: the previous one rescaled, plus the block's weights times the row block of the
    projected rows that the point's second coordinate names. -/
theorem piece1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    VS1_2.read (Elt F) (VS1_2.writes (Elt F) VS1_2.junk (kernelRun1_B (F := F) c i arg2 harg2 arg3 harg3 arg4 harg4 arg5 harg5 arg6 harg6 arg7 harg7 arg8 harg8 arg9 harg9 hc0 hc1 x0 x1 x2 x3 xs0 xs1 xs2).2.2.2.1)
      = k1_pay2 (k1_pay10 x0 x1 x2 xs0 xs0) (k1_pay11 x0 x1 x2 xs0)
          (View.ld x3 (Rect.unit (s := S8192x128) (k1_off1 i) S1024x128.size (k1_off1_inb i))) xs2 := by
  rw [View.read_writes_eq_canon _ _ _ (pcover1_B_2 c i arg2 harg2 arg3 harg3 arg4 harg4 arg5 harg5 arg6 harg6 arg7 harg7 arg8 harg8 arg9 harg9 hc0 hc1 x0 x1 x2 x3 xs0 xs1 xs2)]
  unfold kernelRun1_B
  dsimp only
  sl_unfold_words
  rw [View.canon_cons_unit_zero (S := S1024x128) hzero]
  simp only [View.readAt_eq_ld, harg2.read_unread, harg3.read_unread, harg4.read_unread, harg5.read_unread,
    harg7.read_unread, harg8.read_unread, harg9.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

/-! ## A finishing point -/

/-- Each scratch buffer's one piece (the update's whole-buffer store) covers it. -/
theorem pcover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 xs0 xs1 xs2).2.1 S1024x1.size (by sl_kernel_rfl) y
theorem pcover1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x1.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y
theorem pcover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x128.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 xs0 xs1 xs2).2.2.2.1 S1024x128.size (by sl_kernel_rfl) y

/-- The running maximum after a finishing point: as at a middle point. -/
theorem piece1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    VS1_0.read (Elt F) (VS1_0.writes (Elt F) VS1_0.junk (kernelRun1_C (F := F) c i arg2 harg2 arg3 harg3 arg4 harg4 arg5 harg5 arg6 harg6 arg7 harg7 arg8 harg8 arg9 harg9 hc0 hc1 x0 x1 x2 x3 xs0 xs1 xs2).2.1)
      = k1_pay3 (k1_pay9 x0 x1 x2 xs0) := by
  rw [View.read_writes_eq_canon _ _ _ (pcover1_C_0 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x1) hzero]
  simp only [View.readAt_eq_ld, harg2.read_unread, harg3.read_unread, harg4.read_unread, harg5.read_unread,
    harg7.read_unread, harg8.read_unread, harg9.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

/-- The running normaliser after a finishing point: as at a middle point. -/
theorem piece1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    VS1_1.read (Elt F) (VS1_1.writes (Elt F) VS1_1.junk (kernelRun1_C (F := F) c i arg2 harg2 arg3 harg3 arg4 harg4 arg5 harg5 arg6 harg6 arg7 harg7 arg8 harg8 arg9 harg9 hc0 hc1 x0 x1 x2 x3 xs0 xs1 xs2).2.2.1)
      = k1_pay1 (k1_pay12 x0 x1 x2 xs0 xs0 xs1) := by
  rw [View.read_writes_eq_canon _ _ _ (pcover1_C_1 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x1) hzero]
  simp only [View.readAt_eq_ld, harg2.read_unread, harg3.read_unread, harg4.read_unread, harg5.read_unread,
    harg7.read_unread, harg8.read_unread, harg9.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

/-- The accumulator after a finishing point: as at a middle point. -/
theorem piece1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    VS1_2.read (Elt F) (VS1_2.writes (Elt F) VS1_2.junk (kernelRun1_C (F := F) c i arg2 harg2 arg3 harg3 arg4 harg4 arg5 harg5 arg6 harg6 arg7 harg7 arg8 harg8 arg9 harg9 hc0 hc1 x0 x1 x2 x3 xs0 xs1 xs2).2.2.2.1)
      = k1_pay2 (k1_pay10 x0 x1 x2 xs0 xs0) (k1_pay11 x0 x1 x2 xs0)
          (View.ld x3 (Rect.unit (s := S8192x128) (k1_off1 i) S1024x128.size (k1_off1_inb i))) xs2 := by
  rw [View.read_writes_eq_canon _ _ _ (pcover1_C_2 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x128) hzero]
  simp only [View.readAt_eq_ld, harg2.read_unread, harg3.read_unread, harg4.read_unread, harg5.read_unread,
    harg7.read_unread, harg8.read_unread, harg9.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

/-- The output window's one piece (the finishing store) covers it. -/
theorem pcover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) (y : S1024x128.Idx) :
    ∃ pc ∈ (kernelRun1_C (F := F) c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun1_C (F := F) c i arg2 harg2 arg3 harg3 arg4 harg4 arg5 harg5 arg6 harg6 arg7 harg7 arg8 harg8 arg9 harg9 hc0 hc1 x0 x1 x2 x3 xs0 xs1 xs2).1 S1024x128.size (by sl_kernel_rfl) y

/-- The output block a finishing point stores: the activation of the NEW accumulator divided by the NEW normaliser
    (the body reloads both after having stored them). -/
theorem piece1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (x0 : Vec F S1024x1 .f32) (x1 : Vec F S1x1024 .f32) (x2 : Vec F S1024x1024 .i32) (x3 : Vec F S8192x128 .bf16) (xs0 : Vec F S1024x1 .f32) (xs1 : Vec F S1024x1 .f32) (xs2 : Vec F S1024x128 .f32) :
    VO1_4.read (Elt F) (VO1_4.writes (Elt F) VO1_4.junk (kernelRun1_C (F := F) c i arg2 harg2 arg3 harg3 arg4 harg4 arg5 harg5 arg6 harg6 arg7 harg7 arg8 harg8 arg9 harg9 hc0 hc1 x0 x1 x2 x3 xs0 xs1 xs2).1)
      = k1_pay4
          (k1_pay2 (k1_pay10 x0 x1 x2 xs0 xs0) (k1_pay11 x0 x1 x2 xs0)
            (View.ld x3 (Rect.unit (s := S8192x128) (k1_off1 i) S1024x128.size (k1_off1_inb i))) xs2)
          (k1_pay1 (k1_pay12 x0 x1 x2 xs0 xs0 xs1)) := by
  rw [View.read_writes_eq_canon _ _ _ (pcover1_C_4 c i arg2 harg2 arg3 harg3 arg4 harg4 arg5 harg5 arg6 harg6 arg7 harg7 arg8 harg8 arg9 harg9 hc0 hc1 x0 x1 x2 x3 xs0 xs1 xs2)]
  unfold kernelRun1_C
  dsimp only
  sl_unfold_words
  rw [View.canon_cons_unit_zero (S := S1024x128) hzero]
  simp only [View.readAt_eq_ld, harg2.read_unread, harg3.read_unread, harg4.read_unread, harg5.read_unread,
    harg7.read_unread, harg8.read_unread, harg9.read_unread,
    View.ld_unit_zero (S := S1024x1) hzero, View.ld_unit_zero (S := S1x1024) hzero, View.ld_unit_zero (S := S1024x1024) hzero,
    View.ld_unit_zero (S := S1024x128) hzero,
    View.readCov_unit_zero (S := S1024x1) _ hzero, View.readCov_unit_zero (S := S1024x128) _ hzero]

end Cert.KernelIdeal.Hand

end
-- ==== Proof.KI.Blocks1.lean ====
/-
  Region 1's input blocks, read at an index.

  The second kernel walks an 8 × 8 grid; point t is row block t / 8 and column block t % 8. Its
  four inputs are cut into blocks by index maps: the first attention feature by row block, the
  transposed second attention feature by column block, the adjacency words by both, and the projected
  features not at all (the whole array, once). An element of a block sits in its array, on each
  axis, at the block index times the block's extent plus its own coordinate; with the index maps
  evaluated once over the 64 points this gives each block's element as an element of the array.
  The body also reads the rows of the projected features that belong to the current column block,
  through an offset it computes as 1024 times the column block.
-/
import proofs.«430478_j33861522162300_3_alg».proof.Proof.Gen.KernelIdeal.Launch
import proofs.«430478_j33861522162300_3_alg».proof.Proof.Gen.KernelIdeal.Skeleton
import proofs.«430478_j33861522162300_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«430478_j33861522162300_3_alg».proof.Proof.KI.Reg1Runs
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

/-- A point of the 64-point grid is below 64, with the bound a literal. -/
theorem pt_lt (t : Fin cfg1.N) : t.val < 64 := lt_of_lt_of_eq t.isLt N_1

/-- The index maps and the body's row offset, evaluated over the grid: the row block is t / 8, the
    column block t % 8. -/
theorem idx1 : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = t.val % 8
    ∧ win1_3.index t (0 : Fin 2) = 0 ∧ win1_3.index t (1 : Fin 2) = 0
    ∧ k1_off1 (grid1.coords t) (0 : Fin 2) = 1024 * (t.val % 8) ∧ k1_off1 (grid1.coords t) (1 : Fin 2) = 0 :=
  (by decide +kernel : ∀ t : Fin grid1.N, _)

/-- The first attention feature's block: row 1024 · (t / 8) + p of the array. -/
theorem iblk1_0_apply (c : Dev nD) (t : Fin cfg1.N) (p : Fin 1024) :
    iblk1 V c 0 t (ix2 p (0 : Fin 1))
      = (V c main_v2_1 : S8192x1.Idx → Elt F .f32)
          (ix2 ⟨1024 * (t.val / 8) + p.val, by have := pt_lt t; omega⟩ (0 : Fin 1)) := by
  obtain ⟨e0, e1, -⟩ := idx1 t
  show V c main_v2_1 (((cfg1.win 0).blk t).view.emb (ix2 p (0 : Fin 1))) = V c main_v2_1 _
  refine congrArg _ (funext fun a => Fin.ext ?_)
  match a with
  | ⟨0, _⟩ => show win1_0.index t (0 : Fin 2) * 1024 + 1 * p.val = 1024 * (t.val / 8) + p.val; omega
  | ⟨1, _⟩ => show win1_0.index t (1 : Fin 2) * 1 + 1 * 0 = 0; omega

/-- The transposed second attention feature's block: column 1024 · (t % 8) + q of the array. -/
theorem iblk1_1_apply (c : Dev nD) (t : Fin cfg1.N) (q : Fin 1024) :
    iblk1 V c 1 t (ix2 (0 : Fin 1) q)
      = (V c main_v3 : S1x8192.Idx → Elt F .f32)
          (ix2 (0 : Fin 1) ⟨1024 * (t.val % 8) + q.val, by omega⟩) := by
  obtain ⟨-, -, e0, e1, -⟩ := idx1 t
  show V c main_v3 (((cfg1.win 1).blk t).view.emb (ix2 (0 : Fin 1) q)) = V c main_v3 _
  refine congrArg _ (funext fun a => Fin.ext ?_)
  match a with
  | ⟨0, _⟩ => show win1_1.index t (0 : Fin 2) * 1 + 1 * 0 = 0; omega
  | ⟨1, _⟩ => show win1_1.index t (1 : Fin 2) * 1024 + 1 * q.val = 1024 * (t.val % 8) + q.val; omega

/-- The adjacency block: row 1024 · (t / 8) + p, column 1024 · (t % 8) + q of the array. -/
theorem iblk1_2_apply (c : Dev nD) (t : Fin cfg1.N) (p q : Fin 1024) :
    iblk1 V c 2 t (ix2 p q)
      = (V c main_arg1 : S8192x8192.Idx → BitVec 32)
          (ix2 ⟨1024 * (t.val / 8) + p.val, by have := pt_lt t; omega⟩ ⟨1024 * (t.val % 8) + q.val, by omega⟩) := by
  obtain ⟨-, -, -, -, e0, e1, -⟩ := idx1 t
  show V c main_arg1 (((cfg1.win 2).blk t).view.emb (ix2 p q)) = V c main_arg1 _
  refine congrArg _ (funext fun a => Fin.ext ?_)
  match a with
  | ⟨0, _⟩ => show win1_2.index t (0 : Fin 2) * 1024 + 1 * p.val = 1024 * (t.val / 8) + p.val; omega
  | ⟨1, _⟩ => show win1_2.index t (1 : Fin 2) * 1024 + 1 * q.val = 1024 * (t.val % 8) + q.val; omega

/-- The projected features' block is the whole array. -/
theorem iblk1_3_apply (c : Dev nD) (t : Fin cfg1.N) (k : Fin 8192) (o : Fin 128) :
    iblk1 V c 3 t (ix2 k o) = (V c main_v2_0 : S8192x128.Idx → Elt F .bf16) (ix2 k o) := by
  obtain ⟨-, -, -, -, -, -, e0, e1, -⟩ := idx1 t
  show V c main_v2_0 (((cfg1.win 3).blk t).view.emb (ix2 k o)) = V c main_v2_0 _
  refine congrArg _ (funext fun a => Fin.ext ?_)
  match a with
  | ⟨0, _⟩ => show win1_3.index t (0 : Fin 2) * 8192 + 1 * k.val = k.val; omega
  | ⟨1, _⟩ => show win1_3.index t (1 : Fin 2) * 128 + 1 * o.val = o.val; omega

/-- The body's load of the current column block's rows of the projected features: row
    1024 · (t % 8) + q of the whole array. -/
theorem ld_off1_apply (x3 : Vec F S8192x128 .bf16) (t : Fin cfg1.N) (q : Fin 1024) (o : Fin 128) :
    View.ld x3 (Rect.unit (s := S8192x128) (k1_off1 (grid1.coords t)) S1024x128.size (k1_off1_inb (grid1.coords t))) (ix2 q o)
      = x3 (ix2 ⟨1024 * (t.val % 8) + q.val, by omega⟩ o) := by
  obtain ⟨-, -, -, -, -, -, -, -, e0, e1⟩ := idx1 t
  show x3 ((Rect.unit (s := S8192x128) (k1_off1 (grid1.coords t)) S1024x128.size (k1_off1_inb (grid1.coords t))).idx (ix2 q o)) = x3 _
  refine congrArg _ (funext fun a => Fin.ext ?_)
  match a with
  | ⟨0, _⟩ => show k1_off1 (grid1.coords t) (0 : Fin 2) + 1 * q.val = 1024 * (t.val % 8) + q.val; omega
  | ⟨1, _⟩ => show k1_off1 (grid1.coords t) (1 : Fin 2) + 1 * o.val = o.val; omega

end Cert.KernelIdeal.Hand

end
-- ==== Proof.KI.Pay1.lean ====
/-
  What the attention region's body computes, value by value, over the extended reals.

  At a grid point the body sees a block of 1024 rows against 1024 columns: the rows' first features (a column),
  the columns' second features (a row), the block of adjacency words, a block of 1024 rows of the projected
  features, and the three carried arrays — each row's running maximum, running normaliser and running
  accumulator. Each value the body stores is read here at one index as a formula in those:

  * the block of scores: the leaky rectifier of (row feature + column feature) on an edge, the finite stand-in
    off it;
  * the new running maximum: the old one against the block's row maximum;
  * the rescaling factor exp (old maximum − new maximum);
  * the block's weights exp (score − new maximum);
  * the new normaliser: factor × old normaliser + the row's sum of weights;
  * the new accumulator: factor × old accumulator + (weights × the block of projected features), a product of a
    1024 × 1024 by a 1024 × 128 matrix read as a sum over the contracted position;
  * at the last column block, the stored output: the exponential linear unit of accumulator ÷ normaliser;
  * at the first column block, the resets: maximum to −∞, normaliser and accumulator to zero.

  All of it is reading definitions at an index: broadcasts read their one row or column, lane reductions are
  folds or sums over the lane, a comparison with zero followed by a select is an `if` on the order.
-/
import proofs.«430478_j33861522162300_3_alg».proof.Proof.Gen.KernelIdeal.Skeleton
import proofs.«430478_j33861522162300_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- An ordered "greater than" comparison of extended reals gives the bit 1 exactly when the order holds. -/
theorem cmp_ogt_eq_one (x y : EReal) : Ideal.cmp .ogt x y = 1#1 ↔ y < x := by
  unfold Ideal.cmp
  by_cases h : y < x <;> simp [h]

/-- A select between two values on a one-bit word is the `if` on that word being 1. -/
theorem select_eq_ite {α : Type} (c : BitVec 1) (a b : α) : Scalar.select c a b = if c = 1#1 then a else b := rfl

/-- A column vector broadcast along the lanes reads its row's entry. -/
theorem bcol_apply {α : Type} (v : S1024x1.Idx → α) (p q : Fin 1024) :
    broadcastTo S1024x1024 v broadcasts_S1024x1_S1024x1024 (ix2 p q) = v (ix2 p 0) :=
  broadcastTo_apply v _ (ix2 p q) (ix2 p 0) (fun a => match a with | ⟨0, _⟩ => rfl | ⟨1, _⟩ => rfl)

/-- A row vector broadcast along the rows reads its lane's entry. -/
theorem brow_apply {α : Type} (v : S1x1024.Idx → α) (p q : Fin 1024) :
    broadcastTo S1024x1024 v broadcasts_S1x1024_S1024x1024 (ix2 p q) = v (ix2 0 q) :=
  broadcastTo_apply v _ (ix2 p q) (ix2 0 q) (fun a => match a with | ⟨0, _⟩ => rfl | ⟨1, _⟩ => rfl)

/-- The score of the pair (p, q) inside one 1024 × 1024 block: the rectified sum of the row's and the lane's
    features where the adjacency word is positive, the finite stand-in elsewhere. -/
def sc (f1b : Vec Ideal S1024x1 .f32) (f2b : Vec Ideal S1x1024 .f32) (adjb : Vec Ideal S1024x1024 .i32)
    (p q : Fin 1024) : EReal :=
  if IntOp.cmpi .sgt (adjb (ix2 p q)) 0#32 = 1#1 then Cert.Spec.leaky (f1b (ix2 p 0) + f2b (ix2 0 q))
  else Cert.Spec.masked

/-- The block of scores the kernel forms, read at (p, q): the comparison with zero picks the sum itself above zero
    and the slope times it otherwise, which is the rectifier; the adjacency test then keeps it or puts the stand-in. -/
theorem pay8_apply (f1b : Vec Ideal S1024x1 .f32) (f2b : Vec Ideal S1x1024 .f32) (adjb : Vec Ideal S1024x1024 .i32)
    (p q : Fin 1024) :
    k1_pay8 (F := Ideal) f1b f2b adjb (ix2 p q) = sc f1b f2b adjb p q := by
  unfold k1_pay8 sc
  simp only [shapeCast_self]
  have hc : cmpi CmpIPredicate.sgt adjb (broadcast S1024x1024 0#32) (ix2 p q)
      = IntOp.cmpi .sgt (adjb (ix2 p q)) 0#32 := rfl
  simp only [select_apply, cmpf_apply, addf_apply, mulf_apply, broadcast_apply, bcol_apply, brow_apply,
    Ideal.cmpf_def, Ideal.ofBits_def, hc, select_eq_ite, Ideal.ofBits_zero_f32]
  by_cases h : IntOp.cmpi .sgt (adjb (ix2 p q)) 0#32 = 1#1
  · rw [if_pos h, if_pos h]
    unfold Cert.Spec.leaky
    by_cases hs : 0 < f1b (ix2 p 0) + f2b (ix2 0 q)
    · rw [if_pos ((cmp_ogt_eq_one _ _).mpr hs), if_pos hs]
    · rw [if_neg (fun hh => hs ((cmp_ogt_eq_one _ _).mp hh)), if_neg hs]
  · rw [if_neg h, if_neg h]

/-- A rank-1 vector of 1024 entries viewed as a 1024 × 1 column reads entry p at (p, 0). -/
theorem col_of_vec_apply {α : Type} (v : S1024.Idx → α) (p : Fin 1024) :
    shapeCast S1024x1 v shapeCasts_S1024_S1024x1 (ix2 p 0) = v (ix1 p) :=
  shapeCast_apply v _ (ix2 p 0) (ix1 p) (by
    rw [Shape.rowMajor_val_one, Shape.rowMajor_val_two]
    show p.val = p.val * 1 + 0
    omega)

/-- The index of lane q in row p, as the lane reduction inserts it. -/
theorem lift_lane (p q : Fin 1024) : reduces_S1024x1024_S1024.lift (ix1 p) q = ix2 p q := by
  funext a
  match a with
  | ⟨0, _⟩ => rfl
  | ⟨1, _⟩ => rfl

/-- The lane maximum of a block, from −∞, at row p: the fold of `max` over the row's 1024 entries. -/
theorem rowmax_apply (src : FVec Ideal S1024x1024 .f32) (hφ : FKind.Formats .f32)
    (hacc : (0xFF800000#32 : BitVec 32) = 0xFF800000#32) (p : Fin 1024) :
    multiReduction .maximumf [1] S1024 src 0xFF800000#32 reduces_S1024x1024_S1024 hφ hacc (ix1 p)
      = (Finset.univ : Finset (Fin 1024)).fold max ⊥ (fun q => src (ix2 p q)) := by
  refine (Ideal.multiReduction_maximumf_single src _ reduces_S1024x1024_S1024 hφ hacc (ix1 p)).trans ?_
  have hb : FloatOps.ofBits (F := Ideal) .f32 0xFF800000#32 = ⊥ := by simp [Ideal.ofBits, Ideal.ieee]
  rw [hb]
  exact congrArg (fun f => (Finset.univ : Finset (Fin 1024)).fold max ⊥ f)
    (funext fun q => congrArg src (lift_lane p q))

/-- The lane sum of a block, from zero, at row p: the sum of the row's 1024 entries. -/
theorem rowsum_apply (src : FVec Ideal S1024x1024 .f32) (hφ : FKind.Formats .f32)
    (hacc : (0x00000000#32 : BitVec 32) = 0x00000000#32) (p : Fin 1024) :
    multiReduction .add [1] S1024 src 0x00000000#32 reduces_S1024x1024_S1024 hφ hacc (ix1 p)
      = ∑ q : Fin 1024, src (ix2 p q) := by
  refine (Ideal.multiReduction_add_single src _ reduces_S1024x1024_S1024 hφ hacc (ix1 p)).trans ?_
  exact Finset.sum_congr rfl fun q _ => congrArg src (lift_lane p q)

/-- The row's new running maximum: the old one against the maximum of this block's scores in the row. -/
def mx (f1b : Vec Ideal S1024x1 .f32) (f2b : Vec Ideal S1x1024 .f32) (adjb : Vec Ideal S1024x1024 .i32)
    (m : Vec Ideal S1024x1 .f32) (p : Fin 1024) : EReal :=
  max (m (ix2 p 0)) ((Finset.univ : Finset (Fin 1024)).fold max ⊥ (fun q => sc f1b f2b adjb p q))

theorem pay9_apply (f1b : Vec Ideal S1024x1 .f32) (f2b : Vec Ideal S1x1024 .f32) (adjb : Vec Ideal S1024x1024 .i32)
    (m : Vec Ideal S1024x1 .f32) (p : Fin 1024) :
    k1_pay9 (F := Ideal) f1b f2b adjb m (ix2 p 0) = mx f1b f2b adjb m p := by
  unfold k1_pay9 mx
  dsimp only
  refine (maximumf_apply _ _ _).trans ?_
  refine congrArg (max (m (ix2 p 0))) ?_
  refine (col_of_vec_apply _ p).trans ?_
  refine (rowmax_apply _ _ _ p).trans ?_
  exact congrArg (fun f => (Finset.univ : Finset (Fin 1024)).fold max ⊥ f)
    (funext fun q => pay8_apply f1b f2b adjb p q)

/-- The factor that rescales what was accumulated under the old maximum to the new one. -/
theorem pay10_apply (f1b : Vec Ideal S1024x1 .f32) (f2b : Vec Ideal S1x1024 .f32) (adjb : Vec Ideal S1024x1024 .i32)
    (m : Vec Ideal S1024x1 .f32) (p : Fin 1024) :
    k1_pay10 (F := Ideal) f1b f2b adjb m m (ix2 p 0) = Ideal.exp (m (ix2 p 0) - mx f1b f2b adjb m p) := by
  unfold k1_pay10
  show Ideal.exp (m (ix2 p 0) - k1_pay9 (F := Ideal) f1b f2b adjb m (ix2 p 0)) = _
  rw [pay9_apply]

/-- The block's unnormalised weights: each score shifted by its row's new maximum, exponentiated. -/
theorem pay11_apply (f1b : Vec Ideal S1024x1 .f32) (f2b : Vec Ideal S1x1024 .f32) (adjb : Vec Ideal S1024x1024 .i32)
    (m : Vec Ideal S1024x1 .f32) (p q : Fin 1024) :
    k1_pay11 (F := Ideal) f1b f2b adjb m (ix2 p q) = Ideal.exp (sc f1b f2b adjb p q - mx f1b f2b adjb m p) := by
  unfold k1_pay11
  show Ideal.exp (k1_pay8 (F := Ideal) f1b f2b adjb (ix2 p q)
    - broadcastTo S1024x1024 (k1_pay9 (F := Ideal) f1b f2b adjb m) broadcasts_S1024x1_S1024x1024 (ix2 p q)) = _
  rw [bcol_apply, pay8_apply, pay9_apply]

/-- The row's new normaliser: the old one rescaled, plus the block's weights. -/
theorem pay12_apply (f1b : Vec Ideal S1024x1 .f32) (f2b : Vec Ideal S1x1024 .f32) (adjb : Vec Ideal S1024x1024 .i32)
    (m l : Vec Ideal S1024x1 .f32) (p : Fin 1024) :
    k1_pay12 (F := Ideal) f1b f2b adjb m m l (ix2 p 0)
      = Ideal.exp (m (ix2 p 0) - mx f1b f2b adjb m p) * l (ix2 p 0)
        + ∑ q : Fin 1024, Ideal.exp (sc f1b f2b adjb p q - mx f1b f2b adjb m p) := by
  unfold k1_pay12
  dsimp only
  refine (addf_apply _ _ _).trans ?_
  refine congrArg₂ (· + ·) ?_ ?_
  · refine (mulf_apply _ _ _).trans ?_
    rw [pay10_apply]
  · refine (col_of_vec_apply _ p).trans ?_
    refine (rowsum_apply _ _ _ p).trans ?_
    exact Finset.sum_congr rfl fun q _ => pay11_apply f1b f2b adjb m p q

/-! ## The casts that change nothing, and the three resets -/

theorem pay1_apply (v : FVec Ideal S1024x1 .f32) : k1_pay1 (F := Ideal) v = v := by
  unfold k1_pay1
  exact shapeCast_self v _

theorem pay3_apply (v : FVec Ideal S1024x1 .f32) : k1_pay3 (F := Ideal) v = v := by
  unfold k1_pay3
  exact shapeCast_self v _

/-- The f32 word of −∞ is the bottom of the extended reals. -/
theorem ofBits_neg_inf_f32 : Ideal.ofBits .f32 0xFF800000#32 = ⊥ := by simp [Ideal.ofBits, Ideal.ieee]

/-- The f32 word of 1.0 is the extended real 1. -/
theorem ofBits_one_f32 : Ideal.ofBits .f32 0x3F800000#32 = 1 := by
  simp [Ideal.ofBits, Ideal.ieee, -EReal.coe_mul]; norm_num

/-- At the first column block the running maximum restarts from −∞ … -/
theorem pay5_eq : k1_pay5 (F := Ideal) = fun _ => (⊥ : EReal) := by
  unfold k1_pay5
  refine (shapeCast_self _ _).trans ?_
  funext i
  exact ofBits_neg_inf_f32

/-- … the running normaliser from zero … -/
theorem pay6_eq : k1_pay6 (F := Ideal) = fun _ => (0 : EReal) := by
  unfold k1_pay6
  refine (shapeCast_self _ _).trans ?_
  funext i
  exact Ideal.ofBits_zero_f32

/-- … and the accumulator from zero. -/
theorem pay7_eq : k1_pay7 (F := Ideal) = fun _ => (0 : EReal) := by
  unfold k1_pay7
  refine (shapeCast_self _ _).trans ?_
  funext i
  exact Ideal.ofBits_zero_f32

/-! ## The accumulator's update: rescale, then add the block's weights times the block of `h` -/

/-- A column vector broadcast along 128 lanes reads its row's entry. -/
theorem bcol128_apply {α : Type} (v : S1024x1.Idx → α) (p : Fin 1024) (o : Fin 128) :
    broadcastTo S1024x128 v broadcasts_S1024x1_S1024x128 (ix2 p o) = v (ix2 p 0) :=
  broadcastTo_apply v _ (ix2 p o) (ix2 p 0) (fun a => match a with | ⟨0, _⟩ => rfl | ⟨1, _⟩ => rfl)

/-- The product's dimension numbers: rows of the left operand against rows of the right, contracting the left's
    lanes with the right's rows. -/
abbrev DD : DotDims S1024x1024 S1024x128 S1024x128 := dot_S1024x1024_S1024x128_S1024x128_1_0_0_1_n_n

theorem DD_lhs0 (j : S1024x128.Idx) (k : DD.contr.Idx) : (DD.lhsIdx j k 0 : ℕ) = j 0 := by
  simp [DotDims.lhsIdx, DD, dot_S1024x1024_S1024x128_S1024x128_1_0_0_1_n_n]; rfl
theorem DD_lhs1 (j : S1024x128.Idx) (k : DD.contr.Idx) : (DD.lhsIdx j k 1 : ℕ) = k ⟨0, by decide⟩ := by
  simp [DotDims.lhsIdx, DD, dot_S1024x1024_S1024x128_S1024x128_1_0_0_1_n_n]; rfl
theorem DD_rhs0 (j : S1024x128.Idx) (k : DD.contr.Idx) : (DD.rhsIdx j k 0 : ℕ) = k ⟨0, by decide⟩ := by
  simp [DotDims.rhsIdx, DD, dot_S1024x1024_S1024x128_S1024x128_1_0_0_1_n_n]; rfl
theorem DD_rhs1 (j : S1024x128.Idx) (k : DD.contr.Idx) : (DD.rhsIdx j k 1 : ℕ) = j 1 := by
  simp [DotDims.rhsIdx, DD, dot_S1024x1024_S1024x128_S1024x128_1_0_0_1_n_n]; rfl

/-- The product into the zero splat, read at (p, o): the sum over the 1024 contracted positions. -/
theorem matmul_block_apply {φ₁ φ₂ : FTy} (A : FVec Ideal S1024x1024 φ₁) (B : FVec Ideal S1024x128 φ₂)
    (p : Fin 1024) (o : Fin 128) :
    FloatOps.matmul DD none A B (constant S1024x128 .f32 0x00000000#32) (ix2 p o)
      = ∑ q : Fin 1024, A (ix2 p q) * B (ix2 q o) := by
  rw [Ideal.matmul_constant_zero_apply, ← Equiv.sum_comp (contrEquiv1 DD 1024 rfl rfl).symm]
  refine Finset.sum_congr rfl fun q _ => ?_
  have cq := contrEquiv1_symm_val DD 1024 rfl rfl q
  have hl : DD.lhsIdx (ix2 p o) ((contrEquiv1 DD 1024 rfl rfl).symm q) = ix2 p q :=
    Shape.idx_ext₂ (DD_lhs0 _ _) ((DD_lhs1 _ _).trans cq)
  have hr : DD.rhsIdx (ix2 p o) ((contrEquiv1 DD 1024 rfl rfl).symm q) = ix2 q o :=
    Shape.idx_ext₂ ((DD_rhs0 _ _).trans cq) (DD_rhs1 _ _)
  rw [hl, hr]

theorem pay2_apply (a : FVec Ideal S1024x1 .f32) (pw : FVec Ideal S1024x1024 .f32) (hb : Vec Ideal S1024x128 .bf16)
    (acc : Vec Ideal S1024x128 .f32) (p : Fin 1024) (o : Fin 128) :
    k1_pay2 (F := Ideal) a pw hb acc (ix2 p o)
      = a (ix2 p 0) * acc (ix2 p o) + ∑ q : Fin 1024, pw (ix2 p q) * hb (ix2 q o) := by
  unfold k1_pay2
  simp only [shapeCast_self]
  refine (addf_apply _ _ _).trans ?_
  refine congrArg₂ (· + ·) ?_ ?_
  · refine (mulf_apply _ _ _).trans ?_
    rw [bcol128_apply]
  · exact matmul_block_apply _ hb p o

/-! ## The store at the last column block: the exponential linear unit of accumulator over normaliser -/

/-- The vector exponential at an index is the exponential of the entry. -/
theorem exp_apply {s : Shape} {φ : FTy} (v : FVec Ideal s φ) (i : s.Idx) : exp v i = Ideal.exp (v i) := rfl

theorem pay4_apply (acc : Vec Ideal S1024x128 .f32) (l : Vec Ideal S1024x1 .f32) (p : Fin 1024) (o : Fin 128) :
    k1_pay4 (F := Ideal) acc l (ix2 p o) = Cert.Spec.elu (Ideal.div (acc (ix2 p o)) (l (ix2 p 0))) := by
  unfold k1_pay4 Cert.Spec.elu
  simp only [select_apply, cmpf_apply, subf_apply, exp_apply, divf_apply, broadcast_apply, bcol128_apply,
    Ideal.cmpf_def, Ideal.ofBits_def, select_eq_ite, Ideal.ofBits_zero_f32, ofBits_one_f32]
  by_cases hs : 0 < Ideal.div (acc (ix2 p o)) (l (ix2 p 0))
  · rw [if_pos ((cmp_ogt_eq_one _ _).mpr hs), if_pos hs]
  · rw [if_neg (fun hh => hs ((cmp_ogt_eq_one _ _).mp hh)), if_neg hs]

end Cert.KernelIdeal.Hand

end
-- ==== Proof.KI.Step1.lean ====
/-
  One grid point of the attention region is one step of the specification's blockwise recursion.

  The region walks each row of the score matrix column block by column block, carrying the row's maximum so far,
  its normaliser and its accumulator. With the block's entries identified with the row's entries over column
  block `n`, and the carried values equal to the specification's running values after `n` blocks, the values
  the body stores are the running values after `n + 1` blocks: the new maximum is the old against the block's;
  the normaliser and the accumulator are rescaled by exp (old maximum − new maximum) and take the block's terms
  at the new maximum.
-/
import proofs.«430478_j33861522162300_3_alg».proof.Proof.KI.Pay1

set_option maxRecDepth 16384

noncomputable section

namespace Cert.KernelIdeal.Hand

open Cert.KernelIdeal Cert.KernelIdeal.Gen
open Idealize.ShloMosaic Idealize.ShloMosaic.ValueIdx

open Cert.Spec in
/-- The block's row maximum is the specification's block maximum. -/
theorem fold_eq_blockMax (x : Fin 8192 → EReal) (j : Fin 8) (s : Fin 1024 → EReal) (hs : ∀ q, s q = x (blk j q)) :
    (Finset.univ : Finset (Fin 1024)).fold max ⊥ s = blockMax x j := by
  unfold blockMax
  exact congrArg (fun f => (Finset.univ : Finset (Fin 1024)).fold max ⊥ f) (funext hs)

/-- A column-block number below 8 is its own remainder. -/
theorem blockIx_eq (n : ℕ) (hn : n < 8) : (⟨n % 8, Nat.mod_lt _ (by decide)⟩ : Fin 8) = ⟨n, hn⟩ :=
  Fin.ext (Nat.mod_eq_of_lt hn)

open Cert.Spec in
theorem step_max (x : Fin 8192 → EReal) (n : ℕ) (hn : n < 8)
    (f1b : Vec Ideal S1024x1 .f32) (f2b : Vec Ideal S1x1024 .f32) (adjb : Vec Ideal S1024x1024 .i32)
    (m : Vec Ideal S1024x1 .f32) (p : Fin 1024)
    (hs : ∀ q, sc f1b f2b adjb p q = x (blk ⟨n, hn⟩ q)) (hm : m (ix2 p 0) = runMax x n) :
    mx f1b f2b adjb m p = runMax x (n + 1) := by
  unfold mx
  rw [hm, fold_eq_blockMax x ⟨n, hn⟩ _ hs]
  show _ = max (runMax x n) (blockMax x ⟨n % 8, Nat.mod_lt _ (by decide)⟩)
  rw [blockIx_eq n hn]

open Cert.Spec in
theorem step_norm (x : Fin 8192 → EReal) (n : ℕ) (hn : n < 8)
    (f1b : Vec Ideal S1024x1 .f32) (f2b : Vec Ideal S1x1024 .f32) (adjb : Vec Ideal S1024x1024 .i32)
    (m l : Vec Ideal S1024x1 .f32) (p : Fin 1024)
    (hs : ∀ q, sc f1b f2b adjb p q = x (blk ⟨n, hn⟩ q)) (hm : m (ix2 p 0) = runMax x n)
    (hl : l (ix2 p 0) = runNorm x n) :
    Ideal.exp (m (ix2 p 0) - mx f1b f2b adjb m p) * l (ix2 p 0)
        + ∑ q : Fin 1024, Ideal.exp (sc f1b f2b adjb p q - mx f1b f2b adjb m p)
      = runNorm x (n + 1) := by
  rw [step_max x n hn f1b f2b adjb m p hs hm, hm, hl]
  show _ = Ideal.exp (runMax x n - runMax x (n + 1)) * runNorm x n
      + ∑ k : Fin 1024, Ideal.exp (x (blk ⟨n % 8, Nat.mod_lt _ (by decide)⟩ k) - runMax x (n + 1))
  rw [blockIx_eq n hn]
  exact congrArg (_ + ·) (Finset.sum_congr rfl fun q _ => by rw [hs q])

open Cert.Spec in
theorem step_acc (x : Fin 8192 → EReal) (hv : Fin 8192 → Fin 128 → EReal) (n : ℕ) (hn : n < 8)
    (f1b : Vec Ideal S1024x1 .f32) (f2b : Vec Ideal S1x1024 .f32) (adjb : Vec Ideal S1024x1024 .i32)
    (hb : Vec Ideal S1024x128 .bf16) (m : Vec Ideal S1024x1 .f32) (acc : Vec Ideal S1024x128 .f32)
    (p : Fin 1024) (o : Fin 128)
    (hs : ∀ q, sc f1b f2b adjb p q = x (blk ⟨n, hn⟩ q)) (hh : ∀ q, hb (ix2 q o) = hv (blk ⟨n, hn⟩ q) o)
    (hm : m (ix2 p 0) = runMax x n) (ha : acc (ix2 p o) = runAcc x hv o n) :
    Ideal.exp (m (ix2 p 0) - mx f1b f2b adjb m p) * acc (ix2 p o)
        + ∑ q : Fin 1024, Ideal.exp (sc f1b f2b adjb p q - mx f1b f2b adjb m p) * hb (ix2 q o)
      = runAcc x hv o (n + 1) := by
  rw [step_max x n hn f1b f2b adjb m p hs hm, hm, ha]
  show _ = Ideal.exp (runMax x n - runMax x (n + 1)) * runAcc x hv o n
      + ∑ k : Fin 1024, Ideal.exp (x (blk ⟨n % 8, Nat.mod_lt _ (by decide)⟩ k) - runMax x (n + 1))
          * hv (blk ⟨n % 8, Nat.mod_lt _ (by decide)⟩ k) o
  rw [blockIx_eq n hn]
  exact congrArg (_ + ·) (Finset.sum_congr rfl fun q _ => by rw [hs q, hh q])

/-! The same three steps, said of the values the body stores. -/

open Cert.Spec in
theorem upd_max (x : Fin 8192 → EReal) (n : ℕ) (hn : n < 8)
    (f1b : Vec Ideal S1024x1 .f32) (f2b : Vec Ideal S1x1024 .f32) (adjb : Vec Ideal S1024x1024 .i32)
    (m : Vec Ideal S1024x1 .f32) (p : Fin 1024)
    (hs : ∀ q, sc f1b f2b adjb p q = x (blk ⟨n, hn⟩ q)) (hm : m (ix2 p 0) = runMax x n) :
    k1_pay3 (F := Ideal) (k1_pay9 (F := Ideal) f1b f2b adjb m) (ix2 p 0) = runMax x (n + 1) := by
  rw [pay3_apply, pay9_apply]
  exact step_max x n hn f1b f2b adjb m p hs hm

open Cert.Spec in
theorem upd_norm (x : Fin 8192 → EReal) (n : ℕ) (hn : n < 8)
    (f1b : Vec Ideal S1024x1 .f32) (f2b : Vec Ideal S1x1024 .f32) (adjb : Vec Ideal S1024x1024 .i32)
    (m l : Vec Ideal S1024x1 .f32) (p : Fin 1024)
    (hs : ∀ q, sc f1b f2b adjb p q = x (blk ⟨n, hn⟩ q)) (hm : m (ix2 p 0) = runMax x n)
    (hl : l (ix2 p 0) = runNorm x n) :
    k1_pay1 (F := Ideal) (k1_pay12 (F := Ideal) f1b f2b adjb m m l) (ix2 p 0) = runNorm x (n + 1) := by
  rw [pay1_apply, pay12_apply]
  exact step_norm x n hn f1b f2b adjb m l p hs hm hl

open Cert.Spec in
theorem upd_acc (x : Fin 8192 → EReal) (hv : Fin 8192 → Fin 128 → EReal) (n : ℕ) (hn : n < 8)
    (f1b : Vec Ideal S1024x1 .f32) (f2b : Vec Ideal S1x1024 .f32) (adjb : Vec Ideal S1024x1024 .i32)
    (hb : Vec Ideal S1024x128 .bf16) (m : Vec Ideal S1024x1 .f32) (acc : Vec Ideal S1024x128 .f32)
    (p : Fin 1024) (o : Fin 128)
    (hs : ∀ q, sc f1b f2b adjb p q = x (blk ⟨n, hn⟩ q)) (hh : ∀ q, hb (ix2 q o) = hv (blk ⟨n, hn⟩ q) o)
    (hm : m (ix2 p 0) = runMax x n) (ha : acc (ix2 p o) = runAcc x hv o n) :
    k1_pay2 (F := Ideal) (k1_pay10 (F := Ideal) f1b f2b adjb m m) (k1_pay11 (F := Ideal) f1b f2b adjb m) hb acc (ix2 p o)
      = runAcc x hv o (n + 1) := by
  rw [pay2_apply, pay10_apply]
  refine Eq.trans ?_ (step_acc x hv n hn f1b f2b adjb hb m acc p o hs hh hm ha)
  exact congrArg (_ + ·) (Finset.sum_congr rfl fun q _ => by rw [pay11_apply])

/-- The block's score at (p, q) is the specification's score of the pair of nodes the block's row and column
    stand for, once the block's entries are known to be the arrays' entries there. -/
theorem sc_eq_score (f1 f2 : Fin 8192 → EReal) (adj : Fin 8192 → Fin 8192 → BitVec 32)
    (f1b : Vec Ideal S1024x1 .f32) (f2b : Vec Ideal S1x1024 .f32) (adjb : Vec Ideal S1024x1024 .i32)
    (p q : Fin 1024) (r k : Fin 8192)
    (h1 : f1b (ix2 p 0) = f1 r) (h2 : f2b (ix2 0 q) = f2 k) (ha : adjb (ix2 p q) = adj r k) :
    sc f1b f2b adjb p q = Cert.Spec.score f1 f2 adj r k := by
  unfold sc Cert.Spec.score
  rw [h1, h2, ha]

end Cert.KernelIdeal.Hand

end
-- ==== Proof.KI.Final1.lean ====
/-
  From what the finishing points store to the whole output array of region 1.

  The output (8192 × 128) is cut into eight row blocks of 1024 rows. The body stores into the
  output's staging buffer only at the last column block of a row block (points t with t % 8 = 7), and
  only those points write their block back, to row block t / 8. The eight blocks tile the array, so
  if what each finishing point stores is its block of one function G of the whole index set, the
  array ends holding G: row r is written by point 8 · (r / 1024) + 7 and by no later point with a
  different value.
-/
import proofs.«430478_j33861522162300_3_alg».proof.Proof.Gen.KernelIdeal.Launch
import proofs.«430478_j33861522162300_3_alg».proof.Proof.Gen.KernelIdeal.Skeleton
import proofs.«430478_j33861522162300_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«430478_j33861522162300_3_alg».proof.Proof.KI.Reg1Runs
import proofs.«430478_j33861522162300_3_alg».proof.Proof.KI.Reg1
import proofs.«430478_j33861522162300_3_alg».proof.Proof.KI.Blocks1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The output's index map and write-back points, evaluated over the grid: row block t / 8, written
    back exactly at the last column block. -/
theorem idx1_4 : ∀ t : Fin cfg1.N,
    win1_4.index t (0 : Fin 2) = t.val / 8 ∧ win1_4.index t (1 : Fin 2) = 0
    ∧ ((cfg1.win 4).flush t = true ↔ t.val % 8 = 7) :=
  (by decide +kernel : ∀ t : Fin grid1.N, _)

/-- An index of the output array is in point t's block iff each coordinate is in the block's range
    on its axis. -/
theorem mem_blk1_4 (t : Fin cfg1.N) (i : S8192x128.Idx) :
    i ∈ ((cfg1.win 4).blk t).view.set
      ↔ ∀ a : Fin 2, win1_4.index t a * S1024x128.size a ≤ (i a).val
          ∧ (i a).val < win1_4.index t a * S1024x128.size a + S1024x128.size a := by
  show i ∈ ((View.whole main_v4).slice (win1_4.rect t)).set ↔ _
  rw [View.set_slice_whole, Rect.mem_set_unit]
  exact Iff.rfl

/-- Every row of the output is in the block of its row block's finishing point. -/
theorem cover1_4 (i : S8192x128.Idx) :
    ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 64 := N_1
  obtain ⟨t, ht⟩ : ∃ t : Fin cfg1.N, t.val = 8 * ((i 0).val / 1024) + 7 := ⟨⟨8 * ((i 0).val / 1024) + 7, by omega⟩, rfl⟩
  obtain ⟨e0, e1, ef⟩ := idx1_4 t
  refine ⟨t, ef.mpr (by omega), ?_⟩
  rw [mem_blk1_4]
  intro a
  match a with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 128 ≤ (i 1).val ∧ (i 1).val < win1_4.index t (1 : Fin 2) * 128 + 128
    omega

/-- For any proof data of the region: if what the output's staging buffer holds after each finishing
    point is that point's row block of G, the output array ends holding G. -/
theorem arr_of_after {c : Dev nD} (dat : Dat τ (Elt F) Unit ℕ (UR sig nD τ) ℕ cfg1 c)
    (G : S8192x128.Idx → Elt F .f32)
    (hflush : ∀ t : Fin cfg1.N, t.val % 8 = 7 → ∀ (p : Fin 1024) (o : Fin 128),
      (dat.after 4 t : S1024x128.Idx → Elt F .f32) (ix2 p o)
        = G (ix2 ⟨1024 * (t.val / 8) + p.val, by have := pt_lt t; omega⟩ o)) :
    dat.arrAt 4 cfg1.N = G := by
  refine dat.arrAt_eq_of_cover 4 G (fun t hf => ?_) cover1_4
  obtain ⟨e0, e1, ef⟩ := idx1_4 t
  have h7 : t.val % 8 = 7 := ef.mp hf
  have key : ∀ j : S1024x128.Idx,
      (dat.after 4 t : S1024x128.Idx → Elt F .f32) j = G (((cfg1.win 4).blk t).view.emb j) := by
    intro j
    obtain ⟨p, o, rfl⟩ : ∃ (p : Fin 1024) (o : Fin 128), j = ix2 p o := ⟨j 0, j 1, eq_ix2 j⟩
    rw [hflush t h7 p o]
    refine congrArg G (funext fun a => Fin.ext ?_)
    match a with
    | ⟨0, _⟩ => show 1024 * (t.val / 8) + p.val = win1_4.index t (0 : Fin 2) * 1024 + 1 * p.val; omega
    | ⟨1, _⟩ => show o.val = win1_4.index t (1 : Fin 2) * 128 + 1 * o.val; omega
  exact funext key

variable (V : (c : Dev nD) → (b : Ref sig .tc) → Buf (Elt F) ((c : Thread nD τ).loc b))

/-- The region's own proof data: the output array ends holding G when each finishing point's stored
    block is its row block of G. -/
theorem arr1_of_flush (c : Dev nD) (G : S8192x128.Idx → Elt F .f32)
    (hflush : ∀ t : Fin cfg1.N, t.val % 8 = 7 → ∀ (p : Fin 1024) (o : Fin 128),
      (outsAt1 V c t.val t.isLt).1 (ix2 p o)
        = G (ix2 ⟨1024 * (t.val / 8) + p.val, by have := pt_lt t; omega⟩ o)) :
    (dat1 V c).arrAt 4 cfg1.N = G :=
  arr_of_after (dat1 V c) G fun t h7 p o => by
    rw [after1_4]
    exact hflush t h7 p o

end Cert.KernelIdeal.Hand

end
-- ==== Proof.KI.Val1.lean ====
/-
  What the attention region leaves in its output array, for any contents it is entered with.

  The region's 64 points walk the 8 × 8 blocks of the score matrix row block by row block; within a row block the
  column blocks come in order, the first resetting the three carried arrays and the last storing the output. The
  proof is an induction on the position: after the point at row block i and column block j, row p of the carried
  arrays holds the specification's running maximum, running normaliser and running accumulator of row 1024·i + p
  of the score matrix after j + 1 column blocks. Each case of the induction is one step of the blockwise recursion
  (the module of the steps), applied to the values the body stores at that kind of point (the module of the pieces)
  with the point's blocks identified with the arrays' entries (the module of the blocks). At a finishing point the
  stored output is then the exponential linear unit of accumulator over normaliser after all eight blocks, and the
  finishing points' blocks tile the output array (the module of the last step).
-/
import proofs.«430478_j33861522162300_3_alg».proof.Proof.KI.Reg1
import proofs.«430478_j33861522162300_3_alg».proof.Proof.KI.Pieces1
import proofs.«430478_j33861522162300_3_alg».proof.Proof.KI.Blocks1
import proofs.«430478_j33861522162300_3_alg».proof.Proof.KI.Step1
import proofs.«430478_j33861522162300_3_alg».proof.Proof.KI.Final1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The arrays the region is entered with, as functions of node numbers -/

/-- The first attention feature of node `r`. -/
def f1A (c : Dev nD) (r : Fin 8192) : EReal := (V c main_v2_1 : S8192x1.Idx → EReal) (ix2 r 0)
/-- The second attention feature of node `k` (held transposed, as a row). -/
def f2A (c : Dev nD) (k : Fin 8192) : EReal := (V c main_v3 : S1x8192.Idx → EReal) (ix2 0 k)
/-- The adjacency word of the pair (r, k). -/
def adjA (c : Dev nD) (r k : Fin 8192) : BitVec 32 := (V c main_arg1 : S8192x8192.Idx → BitVec 32) (ix2 r k)
/-- Feature `o` of node `k`'s projection. -/
def hvA (c : Dev nD) (k : Fin 8192) (o : Fin 128) : EReal := (V c main_v2_0 : S8192x128.Idx → EReal) (ix2 k o)

/-- Row `r` of the score matrix. -/
def X (c : Dev nD) (r : Fin 8192) : Fin 8192 → EReal := Cert.Spec.score (f1A V c) (f2A V c) (adjA V c) r

/-- The node that row `p` of the block at position `n` stands for: row block `n / 8`. (The row block is taken
    modulo 8 so that the bound needs no hypothesis; at a point of the 64-point grid `n / 8` is already below 8.) -/
def rowIx (n : ℕ) (p : Fin 1024) : Fin 8192 := ⟨1024 * (n / 8 % 8) + p.val, by have := p.isLt; omega⟩

/-- The column-block number of position `n`. -/
abbrev colBlk (n : ℕ) : Fin 8 := ⟨n % 8, Nat.mod_lt _ (by decide)⟩

/-- At point `t` the block of scores the body forms is, in row `p`, the row's scores over column block `t % 8`:
    the three input blocks are the arrays read at row 1024·(t / 8) + p and column 1024·(t % 8) + q. -/
theorem blk_scores (c : Dev nD) (t : Fin cfg1.N) (p q : Fin 1024) :
    sc (iblk1 V c 0 t) (iblk1 V c 1 t) (iblk1 V c 2 t) p q
      = X V c (rowIx t.val p) (Cert.Spec.blk (colBlk t.val) q) := by
  have ht := pt_lt t
  have hp := p.isLt
  have hq := q.isLt
  have er : (⟨1024 * (t.val / 8) + p.val, by omega⟩ : Fin 8192) = rowIx t.val p :=
    Fin.ext (by show 1024 * (t.val / 8) + p.val = 1024 * (t.val / 8 % 8) + p.val; omega)
  have ek : (⟨1024 * (t.val % 8) + q.val, by omega⟩ : Fin 8192) = Cert.Spec.blk (colBlk t.val) q :=
    Fin.ext (by show 1024 * (t.val % 8) + q.val = t.val % 8 * 1024 + q.val; omega)
  refine sc_eq_score (f1A V c) (f2A V c) (adjA V c) _ _ _ p q _ _ ?_ ?_ ?_
  · exact (iblk1_0_apply V c t p).trans (congrArg (f1A V c) er)
  · exact (iblk1_1_apply V c t q).trans (congrArg (f2A V c) ek)
  · exact (iblk1_2_apply V c t p q).trans (congrArg₂ (adjA V c) er ek)

/-- At point `t` the rows of the projected features the body loads are those of column block `t % 8`. -/
theorem blk_h (c : Dev nD) (t : Fin cfg1.N) (q : Fin 1024) (o : Fin 128) :
    View.ld (iblk1 V c 3 t) (Rect.unit (s := S8192x128) (k1_off1 (grid1.coords t)) S1024x128.size (k1_off1_inb (grid1.coords t))) (ix2 q o)
      = hvA V c (Cert.Spec.blk (colBlk t.val) q) o := by
  have hq := q.isLt
  have ek : (⟨1024 * (t.val % 8) + q.val, by omega⟩ : Fin 8192) = Cert.Spec.blk (colBlk t.val) q :=
    Fin.ext (by show 1024 * (t.val % 8) + q.val = t.val % 8 * 1024 + q.val; omega)
  refine (ld_off1_apply (iblk1 V c 3 t) t q o).trans ?_
  refine (iblk1_3_apply V c t _ o).trans ?_
  exact congrArg (fun k => hvA V c k o) ek

/-! ## The invariant: after each point the carried arrays hold the running values of their rows -/

/-- After position `n`, row `p` of the three carried arrays holds the running maximum, normaliser and accumulator
    of row `r` of the score matrix after `k` column blocks. -/
def InvAt (c : Dev nD) (n : ℕ) (hn : n < cfg1.N) (p : Fin 1024) (r : Fin 8192) (k : ℕ) : Prop :=
  (outsAt1 V c n hn).2.1 (ix2 p 0) = Cert.Spec.runMax (X V c r) k
    ∧ (outsAt1 V c n hn).2.2.1 (ix2 p 0) = Cert.Spec.runNorm (X V c r) k
    ∧ ∀ o : Fin 128, (outsAt1 V c n hn).2.2.2 (ix2 p o) = Cert.Spec.runAcc (X V c r) (hvA V c) o k

/-- A resetting point: the carried arrays restart from (−∞, 0, 0), the running values after no block, and take the
    first block's step. -/
theorem inv_A (c : Dev nD) (t : Fin cfg1.N) (h0 : t.val % 8 = 0) (p : Fin 1024) :
    InvAt V c t.val t.isLt p (rowIx t.val p) (t.val % 8 + 1) := by
  have h1 : ¬t.val % 8 = 7 := by omega
  have hj : t.val % 8 < 8 := Nat.mod_lt _ (by decide)
  have hs : ∀ q, sc (iblk1 V c 0 t) (iblk1 V c 1 t) (iblk1 V c 2 t) p q
      = X V c (rowIx t.val p) (Cert.Spec.blk ⟨t.val % 8, hj⟩ q) := fun q => blk_scores V c t p q
  have hm : k1_pay5 (F := Ideal) (ix2 p 0) = Cert.Spec.runMax (X V c (rowIx t.val p)) (t.val % 8) := by
    rw [h0, pay5_eq]; rfl
  have hl : k1_pay6 (F := Ideal) (ix2 p 0) = Cert.Spec.runNorm (X V c (rowIx t.val p)) (t.val % 8) := by
    rw [h0, pay6_eq]; rfl
  unfold InvAt
  rw [outsAt1_A V c t h0 h1]
  dsimp only
  refine ⟨?_, ?_, fun o => ?_⟩
  · refine (congrFun (piece1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) (ix2 p 0)).trans ?_
    exact upd_max (X V c (rowIx t.val p)) (t.val % 8) hj _ _ _ _ p hs hm
  · refine (congrFun (piece1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) (ix2 p 0)).trans ?_
    exact upd_norm (X V c (rowIx t.val p)) (t.val % 8) hj _ _ _ _ _ p hs hm hl
  · have ha : k1_pay7 (F := Ideal) (ix2 p o) = Cert.Spec.runAcc (X V c (rowIx t.val p)) (hvA V c) o (t.val % 8) := by
      rw [h0, pay7_eq]; rfl
    refine (congrFun (piece1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) (ix2 p o)).trans ?_
    exact upd_acc (X V c (rowIx t.val p)) (hvA V c) (t.val % 8) hj _ _ _ _ _ _ p o hs (fun q => blk_h V c t q o) hm ha

/-- What the point before left, said of this point's row and column block: within a row block the row is the same,
    and the point before has seen one block fewer. -/
theorem inv_prev (c : Dev nD) (t : Fin cfg1.N) (h0 : ¬t.val % 8 = 0) (p : Fin 1024)
    (ih : InvAt V c (t.val - 1) (Nat.lt_of_le_of_lt (Nat.sub_le _ _) t.isLt) p (rowIx (t.val - 1) p) ((t.val - 1) % 8 + 1)) :
    InvAt V c (t.val - 1) (Nat.lt_of_le_of_lt (Nat.sub_le _ _) t.isLt) p (rowIx t.val p) (t.val % 8) := by
  have e1 : rowIx (t.val - 1) p = rowIx t.val p :=
    Fin.ext (by show 1024 * ((t.val - 1) / 8 % 8) + p.val = 1024 * (t.val / 8 % 8) + p.val; omega)
  have e2 : (t.val - 1) % 8 + 1 = t.val % 8 := by omega
  rw [← e1, ← e2]
  exact ih

/-- A middle point: one more block's step over what the point before left. -/
theorem inv_B (c : Dev nD) (t : Fin cfg1.N) (h0 : ¬t.val % 8 = 0) (h1 : ¬t.val % 8 = 7) (p : Fin 1024)
    (ih : InvAt V c (t.val - 1) (Nat.lt_of_le_of_lt (Nat.sub_le _ _) t.isLt) p (rowIx (t.val - 1) p) ((t.val - 1) % 8 + 1)) :
    InvAt V c t.val t.isLt p (rowIx t.val p) (t.val % 8 + 1) := by
  have hj : t.val % 8 < 8 := Nat.mod_lt _ (by decide)
  have hs : ∀ q, sc (iblk1 V c 0 t) (iblk1 V c 1 t) (iblk1 V c 2 t) p q
      = X V c (rowIx t.val p) (Cert.Spec.blk ⟨t.val % 8, hj⟩ q) := fun q => blk_scores V c t p q
  obtain ⟨hm, hl, ha⟩ := inv_prev V c t h0 p ih
  unfold InvAt
  rw [outsAt1_B V c t h0 h1]
  dsimp only
  refine ⟨?_, ?_, fun o => ?_⟩
  · refine (congrFun (piece1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 p 0)).trans ?_
    exact upd_max (X V c (rowIx t.val p)) (t.val % 8) hj _ _ _ _ p hs hm
  · refine (congrFun (piece1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 p 0)).trans ?_
    exact upd_norm (X V c (rowIx t.val p)) (t.val % 8) hj _ _ _ _ _ p hs hm hl
  · refine (congrFun (piece1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 p o)).trans ?_
    exact upd_acc (X V c (rowIx t.val p)) (hvA V c) (t.val % 8) hj _ _ _ _ _ _ p o hs (fun q => blk_h V c t q o) hm (ha o)

/-- A finishing point: the same step for the carried arrays. -/
theorem inv_C (c : Dev nD) (t : Fin cfg1.N) (h0 : ¬t.val % 8 = 0) (h1 : t.val % 8 = 7) (p : Fin 1024)
    (ih : InvAt V c (t.val - 1) (Nat.lt_of_le_of_lt (Nat.sub_le _ _) t.isLt) p (rowIx (t.val - 1) p) ((t.val - 1) % 8 + 1)) :
    InvAt V c t.val t.isLt p (rowIx t.val p) (t.val % 8 + 1) := by
  have hj : t.val % 8 < 8 := Nat.mod_lt _ (by decide)
  have hs : ∀ q, sc (iblk1 V c 0 t) (iblk1 V c 1 t) (iblk1 V c 2 t) p q
      = X V c (rowIx t.val p) (Cert.Spec.blk ⟨t.val % 8, hj⟩ q) := fun q => blk_scores V c t p q
  obtain ⟨hm, hl, ha⟩ := inv_prev V c t h0 p ih
  unfold InvAt
  rw [outsAt1_C V c t h0 h1]
  dsimp only
  refine ⟨?_, ?_, fun o => ?_⟩
  · refine (congrFun (piece1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 p 0)).trans ?_
    exact upd_max (X V c (rowIx t.val p)) (t.val % 8) hj _ _ _ _ p hs hm
  · refine (congrFun (piece1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 p 0)).trans ?_
    exact upd_norm (X V c (rowIx t.val p)) (t.val % 8) hj _ _ _ _ _ p hs hm hl
  · refine (congrFun (piece1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 p o)).trans ?_
    exact upd_acc (X V c (rowIx t.val p)) (hvA V c) (t.val % 8) hj _ _ _ _ _ _ p o hs (fun q => blk_h V c t q o) hm (ha o)

/-- … and the stored output: the exponential linear unit of the accumulator over the normaliser, both after all
    eight column blocks. -/
theorem out_C (c : Dev nD) (t : Fin cfg1.N) (h0 : ¬t.val % 8 = 0) (h1 : t.val % 8 = 7) (p : Fin 1024) (o : Fin 128)
    (ih : InvAt V c (t.val - 1) (Nat.lt_of_le_of_lt (Nat.sub_le _ _) t.isLt) p (rowIx (t.val - 1) p) ((t.val - 1) % 8 + 1)) :
    (outsAt1 V c t.val t.isLt).1 (ix2 p o)
      = Cert.Spec.elu (Ideal.div (Cert.Spec.runAcc (X V c (rowIx t.val p)) (hvA V c) o 8)
          (Cert.Spec.runNorm (X V c (rowIx t.val p)) 8)) := by
  have hj : t.val % 8 < 8 := Nat.mod_lt _ (by decide)
  have hs : ∀ q, sc (iblk1 V c 0 t) (iblk1 V c 1 t) (iblk1 V c 2 t) p q
      = X V c (rowIx t.val p) (Cert.Spec.blk ⟨t.val % 8, hj⟩ q) := fun q => blk_scores V c t p q
  have e8 : t.val % 8 + 1 = 8 := by omega
  obtain ⟨hm, hl, ha⟩ := inv_prev V c t h0 p ih
  rw [outsAt1_C V c t h0 h1]
  dsimp only
  refine (congrFun (piece1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (ix2 p o)).trans ?_
  rw [pay4_apply, ← e8]
  refine congrArg₂ (fun a l => Cert.Spec.elu (Ideal.div a l)) ?_ ?_
  · exact upd_acc (X V c (rowIx t.val p)) (hvA V c) (t.val % 8) hj _ _ _ _ _ _ p o hs (fun q => blk_h V c t q o) hm (ha o)
  · exact upd_norm (X V c (rowIx t.val p)) (t.val % 8) hj _ _ _ _ _ p hs hm hl

/-- The invariant at every position, by induction on the position. -/
theorem inv1 (c : Dev nD) : ∀ (n : ℕ) (hn : n < cfg1.N) (p : Fin 1024), InvAt V c n hn p (rowIx n p) (n % 8 + 1)
  | 0, hn, p => inv_A V c ⟨0, hn⟩ (Nat.zero_mod _) p
  | n + 1, hn, p => by
    by_cases h0 : (n + 1) % 8 = 0
    · exact inv_A V c ⟨n + 1, hn⟩ h0 p
    · have ih := inv1 c n (Nat.lt_of_succ_lt hn) p
      by_cases h1 : (n + 1) % 8 = 7
      · exact inv_C V c ⟨n + 1, hn⟩ h0 h1 p ih
      · exact inv_B V c ⟨n + 1, hn⟩ h0 h1 p ih

/-! ## The output array -/

/-- The layer's output as the blockwise recursion computes it, on the whole index set. -/
def G1 (c : Dev nD) : S8192x128.Idx → EReal := fun i =>
  Cert.Spec.elu (Ideal.div
    (Cert.Spec.runAcc (X V c ⟨(i 0).val, idx2_lt0 i⟩) (hvA V c) ⟨(i 1).val, idx2_lt1 i⟩ 8)
    (Cert.Spec.runNorm (X V c ⟨(i 0).val, idx2_lt0 i⟩) 8))

/-- After the region the output array holds, at every node and feature, the exponential linear unit of the
    blockwise accumulator over the blockwise normaliser of the node's row of scores. -/
theorem arr1_G (c : Dev nD) : (dat1 (F := Ideal) V c).arrAt 4 cfg1.N = G1 V c := by
  refine arr1_of_flush V c (G1 V c) fun t h7 p o => ?_
  have ht := pt_lt t
  have h0 : ¬t.val % 8 = 0 := by omega
  have hN : cfg1.N = 64 := N_1
  have ih := inv1 V c (t.val - 1) (Nat.lt_of_le_of_lt (Nat.sub_le _ _) t.isLt) p
  refine (out_C V c t h0 h7 p o ih).trans ?_
  have er : rowIx t.val p = ⟨1024 * (t.val / 8) + p.val, by have := p.isLt; omega⟩ :=
    Fin.ext (by show 1024 * (t.val / 8 % 8) + p.val = 1024 * (t.val / 8) + p.val; omega)
  rw [er]
  rfl

theorem arr1_out (c : Dev nD) (r : Fin 8192) (o : Fin 128) :
    (dat1 (F := Ideal) V c).arrAt 4 cfg1.N (ix2 r o)
      = Cert.Spec.elu (Ideal.div
          (Cert.Spec.runAcc (Cert.Spec.score (fun r => (V c main_v2_1 : S8192x1.Idx → EReal) (ix2 r 0)) (fun k => (V c main_v3 : S1x8192.Idx → EReal) (ix2 0 k)) (fun r k => (V c main_arg1 : S8192x8192.Idx → BitVec 32) (ix2 r k)) r) (fun k o => (V c main_v2_0 : S8192x128.Idx → EReal) (ix2 k o)) o 8)
          (Cert.Spec.runNorm (Cert.Spec.score (fun r => (V c main_v2_1 : S8192x1.Idx → EReal) (ix2 r 0)) (fun k => (V c main_v3 : S1x8192.Idx → EReal) (ix2 0 k)) (fun r k => (V c main_arg1 : S8192x8192.Idx → BitVec 32) (ix2 r k)) r) 8)) :=
  congrFun (arr1_G V c) (ix2 r o)

end Cert.KernelIdeal.Hand

end
-- ==== Proof.Softmax.lean ====
/-
  The blockwise softmax law.

  A row of 8192 real scores is walked in 8 blocks of 1024 columns. Three quantities are carried: the
  largest score seen so far, the sum of exp (score − that maximum) over the columns seen so far, and the
  same sum weighted by a column of the feature matrix. When a new block raises the maximum from M to M',
  the two sums are multiplied by exp (M − M'), which turns every term exp (s − M) into exp (s − M'); the
  new block's terms are then added at the new maximum. After the eighth block the maximum is the row's
  maximum, the two sums are the softmax's normaliser and the unnormalised mixture, and their quotient
  is the mixture with each weight normalised first — because the normaliser is a positive real
  (the maximal column alone contributes exp 0 = 1).

  Everything is proved by first showing that on real data each running quantity is (the coercion of)
  a real number given in closed form, and then computing in the reals, where multiplication
  distributes over sums without side conditions.
-/
import proofs.«430478_j33861522162300_3_alg».proof.Proof.Spec
import Idealize.ShloMosaic.PureOps.Ideal
import Mathlib.Data.Finset.Fold
import Mathlib.Data.Fintype.BigOperators
import Mathlib.Algebra.Order.BigOperators.Group.Finset
import Mathlib.Analysis.SpecialFunctions.Exp

noncomputable section

namespace Cert.Spec

open Idealize.ShloMosaic
open scoped BigOperators

/-! ## Small facts about the extended reals -/

/-- The coercion of the reals into the extended reals commutes with finite sums. -/
theorem coe_sum {ι : Type} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The coercion commutes with the maximum of two numbers. -/
theorem coe_max (a b : ℝ) : max (a : EReal) (b : EReal) = ((max a b : ℝ) : EReal) :=
  (EReal.coe_strictMono.monotone.map_max).symm

/-- A fold of the maximum from −∞ over a family that is bounded by one of its own members is that member. -/
theorem fold_max_eq_of_attained {ι : Type} (s : Finset ι) (f : ι → EReal) (m : EReal)
    (hle : ∀ i ∈ s, f i ≤ m) (hat : ∃ i ∈ s, f i = m) : s.fold max ⊥ f = m := by
  apply le_antisymm
  · exact (Finset.fold_max_le _).mpr ⟨bot_le, hle⟩
  · obtain ⟨i, hi, rfl⟩ := hat
    exact (Finset.le_fold_max _).mpr (Or.inr ⟨i, hi, le_rfl⟩)

/-! ## Blocks and the whole row -/

/-- The block walked at step n (steps past the eighth wrap around). -/
def blkN (n : ℕ) : Fin 8 := ⟨n % 8, Nat.mod_lt _ (by decide)⟩

theorem blkN_fin (j : Fin 8) : blkN j.val = j := Fin.ext (Nat.mod_eq_of_lt j.isLt)

/-- A column is a block and a place in the block: division with remainder by 1024. -/
def blkEquiv : Fin 8 × Fin 1024 ≃ Fin 8192 where
  toFun p := blk p.1 p.2
  invFun i := (⟨i.val / 1024, by omega⟩, ⟨i.val % 1024, Nat.mod_lt _ (by decide)⟩)
  left_inv := by
    rintro ⟨⟨j, hj⟩, ⟨k, hk⟩⟩
    simp only [blk, Prod.mk.injEq, Fin.mk.injEq]
    omega
  right_inv := by
    rintro ⟨i, hi⟩
    simp only [blk, Fin.mk.injEq]
    omega

/-- A sum over the eight blocks, block by block, is the sum over the row. -/
theorem sum_blocks {α : Type} [AddCommMonoid α] (f : Fin 8192 → α) :
    ∑ j ∈ Finset.range 8, ∑ k : Fin 1024, f (blk (blkN j) k) = ∑ i, f i := by
  rw [Finset.sum_range (fun j => ∑ k : Fin 1024, f (blk (blkN j) k))]
  simp only [blkN_fin]
  rw [← Fintype.sum_prod_type' (fun j k => f (blk j k))]
  exact Fintype.sum_equiv blkEquiv _ _ (fun _ => rfl)

/-! ## The recursions, one step at a time -/

theorem runMax_succ (x : Fin 8192 → EReal) (n : ℕ) :
    runMax x (n + 1) = max (runMax x n) (blockMax x (blkN n)) := rfl

theorem runNorm_succ (x : Fin 8192 → EReal) (n : ℕ) :
    runNorm x (n + 1) = Ideal.exp (runMax x n - runMax x (n + 1)) * runNorm x n
      + ∑ k : Fin 1024, Ideal.exp (x (blk (blkN n) k) - runMax x (n + 1)) := rfl

theorem runAcc_succ (x : Fin 8192 → EReal) (h : Fin 8192 → Fin 128 → EReal) (o : Fin 128) (n : ℕ) :
    runAcc x h o (n + 1) = Ideal.exp (runMax x n - runMax x (n + 1)) * runAcc x h o n
      + ∑ k : Fin 1024, Ideal.exp (x (blk (blkN n) k) - runMax x (n + 1)) * h (blk (blkN n) k) o := rfl

/-! ## The real counterparts -/

section Real

variable (xr : Fin 8192 → ℝ) (hr : Fin 8192 → Fin 128 → ℝ)

/-- The largest score of block j. -/
def blockMaxR (j : Fin 8) : ℝ :=
  (Finset.univ : Finset (Fin 1024)).sup' Finset.univ_nonempty (fun k => xr (blk j k))

/-- The largest score of the first n + 1 blocks walked. -/
def runMaxR : ℕ → ℝ
  | 0 => blockMaxR xr (blkN 0)
  | n + 1 => max (runMaxR n) (blockMaxR xr (blkN (n + 1)))

theorem le_blockMaxR (j : Fin 8) (k : Fin 1024) : xr (blk j k) ≤ blockMaxR xr j :=
  Finset.le_sup' (fun k => xr (blk j k)) (Finset.mem_univ k)

theorem blockMaxR_attained (j : Fin 8) : ∃ k : Fin 1024, xr (blk j k) = blockMaxR xr j := by
  obtain ⟨k, -, hk⟩ := Finset.exists_mem_eq_sup' (Finset.univ_nonempty (α := Fin 1024)) (fun k => xr (blk j k))
  exact ⟨k, hk.symm⟩

theorem le_runMaxR (n j : ℕ) (hj : j ≤ n) (k : Fin 1024) : xr (blk (blkN j) k) ≤ runMaxR xr n := by
  induction n with
  | zero =>
    obtain rfl : j = 0 := Nat.le_zero.mp hj
    exact le_blockMaxR xr _ k
  | succ n ih =>
    rcases Nat.lt_or_ge j (n + 1) with h | h
    · exact (ih (Nat.lt_succ_iff.mp h)).trans (le_max_left _ _)
    · obtain rfl : j = n + 1 := le_antisymm hj h
      exact (le_blockMaxR xr _ k).trans (le_max_right _ _)

theorem runMaxR_attained (n : ℕ) : ∃ j ≤ n, ∃ k : Fin 1024, xr (blk (blkN j) k) = runMaxR xr n := by
  induction n with
  | zero =>
    obtain ⟨k, hk⟩ := blockMaxR_attained xr (blkN 0)
    exact ⟨0, le_rfl, k, hk⟩
  | succ n ih =>
    rcases le_total (runMaxR xr n) (blockMaxR xr (blkN (n + 1))) with h | h
    · obtain ⟨k, hk⟩ := blockMaxR_attained xr (blkN (n + 1))
      exact ⟨n + 1, le_rfl, k, hk.trans (max_eq_right h).symm⟩
    · obtain ⟨j, hj, k, hk⟩ := ih
      exact ⟨j, Nat.le_succ_of_le hj, k, hk.trans (max_eq_left h).symm⟩

variable {xr hr} {x : Fin 8192 → EReal} {h : Fin 8192 → Fin 128 → EReal}
  (hxr : ∀ k, x k = (xr k : EReal)) (hhr : ∀ k o, h k o = (hr k o : EReal))

include hxr in
/-- A block's maximum, folded from −∞, is the real maximum of the block. -/
theorem blockMax_coe (j : Fin 8) : blockMax x j = (blockMaxR xr j : EReal) := by
  unfold blockMax
  apply fold_max_eq_of_attained
  · intro k _
    rw [hxr]
    exact EReal.coe_le_coe_iff.mpr (le_blockMaxR xr j k)
  · obtain ⟨k, hk⟩ := blockMaxR_attained xr j
    exact ⟨k, Finset.mem_univ _, by rw [hxr, hk]⟩

include hxr in
/-- After at least one block the running maximum is real. -/
theorem runMax_coe (n : ℕ) : runMax x (n + 1) = (runMaxR xr n : EReal) := by
  induction n with
  | zero =>
    rw [runMax_succ, blockMax_coe hxr]
    exact max_eq_right bot_le
  | succ n ih =>
    rw [runMax_succ, ih, blockMax_coe hxr, coe_max]
    rfl

include hxr in
/-- A block's exponentials at a real shift, summed: a real sum. -/
theorem block_exp_sum (j : Fin 8) (m : ℝ) :
    ∑ k : Fin 1024, Ideal.exp (x (blk j k) - (m : EReal))
      = ((∑ k : Fin 1024, Real.exp (xr (blk j k) - m) : ℝ) : EReal) := by
  rw [coe_sum]
  refine Finset.sum_congr rfl fun k _ => ?_
  rw [hxr, ← EReal.coe_sub, Ideal.exp_coe]

include hxr hhr in
/-- The same, each exponential weighted by a real feature. -/
theorem block_exp_mul_sum (j : Fin 8) (m : ℝ) (o : Fin 128) :
    ∑ k : Fin 1024, Ideal.exp (x (blk j k) - (m : EReal)) * h (blk j k) o
      = ((∑ k : Fin 1024, Real.exp (xr (blk j k) - m) * hr (blk j k) o : ℝ) : EReal) := by
  rw [coe_sum]
  refine Finset.sum_congr rfl fun k _ => ?_
  rw [hxr, hhr, ← EReal.coe_sub, Ideal.exp_coe, ← EReal.coe_mul]

include hxr in
/-- The running normaliser after n + 1 blocks: every column seen so far, at the current maximum. -/
theorem runNorm_coe (n : ℕ) :
    runNorm x (n + 1)
      = ((∑ j ∈ Finset.range (n + 1), ∑ k : Fin 1024, Real.exp (xr (blk (blkN j) k) - runMaxR xr n) : ℝ) : EReal) := by
  induction n with
  | zero =>
    rw [runNorm_succ, runMax_coe hxr 0, block_exp_sum hxr, Finset.sum_range_one]
    show _ * (0 : EReal) + _ = _
    rw [mul_zero, zero_add]
  | succ n ih =>
    rw [runNorm_succ, ih, runMax_coe hxr n, runMax_coe hxr (n + 1), block_exp_sum hxr, ← EReal.coe_sub,
      Ideal.exp_coe, ← EReal.coe_mul, ← EReal.coe_add, Finset.sum_range_succ _ (n + 1)]
    congr 2
    rw [Finset.mul_sum]
    refine Finset.sum_congr rfl fun j _ => ?_
    rw [Finset.mul_sum]
    refine Finset.sum_congr rfl fun k _ => ?_
    rw [← Real.exp_add]
    congr 1
    ring

include hxr hhr in
/-- The running accumulator after n + 1 blocks, likewise. -/
theorem runAcc_coe (o : Fin 128) (n : ℕ) :
    runAcc x h o (n + 1)
      = ((∑ j ∈ Finset.range (n + 1), ∑ k : Fin 1024,
            Real.exp (xr (blk (blkN j) k) - runMaxR xr n) * hr (blk (blkN j) k) o : ℝ) : EReal) := by
  induction n with
  | zero =>
    rw [runAcc_succ, runMax_coe hxr 0, block_exp_mul_sum hxr hhr, Finset.sum_range_one]
    show _ * (0 : EReal) + _ = _
    rw [mul_zero, zero_add]
  | succ n ih =>
    rw [runAcc_succ, ih, runMax_coe hxr n, runMax_coe hxr (n + 1), block_exp_mul_sum hxr hhr, ← EReal.coe_sub,
      Ideal.exp_coe, ← EReal.coe_mul, ← EReal.coe_add, Finset.sum_range_succ _ (n + 1)]
    congr 2
    rw [Finset.mul_sum]
    refine Finset.sum_congr rfl fun j _ => ?_
    rw [Finset.mul_sum]
    refine Finset.sum_congr rfl fun k _ => ?_
    rw [← mul_assoc, ← Real.exp_add]
    congr 2
    ring

include hxr in
/-- After the eighth block the running maximum is the row's maximum. -/
theorem rowMax_coe : rowMax x = (runMaxR xr 7 : EReal) := by
  unfold rowMax
  apply fold_max_eq_of_attained
  · intro i _
    obtain ⟨⟨j, k⟩, rfl⟩ := blkEquiv.surjective i
    rw [hxr]
    have := le_runMaxR xr 7 j.val (by omega) k
    rw [blkN_fin] at this
    exact EReal.coe_le_coe_iff.mpr this
  · obtain ⟨j, _, k, hk⟩ := runMaxR_attained xr 7
    exact ⟨blk (blkN j) k, Finset.mem_univ _, by rw [hxr, hk]⟩

end Real

/-! ## The law -/

/-- On real data, the quotient of the blockwise accumulator by the blockwise normaliser after all
    eight blocks is the mixture under the row's softmax weights. -/
theorem blockwise_eq (x : Fin 8192 → EReal) (h : Fin 8192 → Fin 128 → EReal)
    (hx : ∀ k, ∃ a : ℝ, x k = (a : EReal)) (hh : ∀ k o, ∃ a : ℝ, h k o = (a : EReal)) (o : Fin 128) :
    Ideal.div (runAcc x h o 8) (runNorm x 8) = mix x h o := by
  choose xr hxr using hx
  choose hr hhr using hh
  set m : ℝ := runMaxR xr 7 with hm
  -- the normaliser and the numerator, as real sums over the whole row
  have hN : runNorm x 8 = ((∑ i, Real.exp (xr i - m) : ℝ) : EReal) := by
    rw [runNorm_coe hxr 7, sum_blocks (fun i => Real.exp (xr i - m))]
  have hA : runAcc x h o 8 = ((∑ i, Real.exp (xr i - m) * hr i o : ℝ) : EReal) := by
    rw [runAcc_coe hxr hhr o 7, sum_blocks (fun i => Real.exp (xr i - m) * hr i o)]
  have hw : ∀ k, weight x k = ((Real.exp (xr k - m) : ℝ) : EReal) := by
    intro k
    rw [weight, rowMax_coe hxr, hxr, ← EReal.coe_sub, Ideal.exp_coe]
  have hZ : norm x = ((∑ i, Real.exp (xr i - m) : ℝ) : EReal) := by
    rw [norm, coe_sum]
    exact Finset.sum_congr rfl fun k _ => hw k
  have hpos : (0 : ℝ) < ∑ i : Fin 8192, Real.exp (xr i - m) :=
    Finset.sum_pos (fun i _ => Real.exp_pos _) ⟨0, Finset.mem_univ _⟩
  rw [hA, hN, Ideal.div_coe hpos.ne', ← EReal.coe_mul, mix]
  have : ∀ k, Ideal.div (weight x k) (norm x) * h k o
      = ((Real.exp (xr k - m) * (1 / ∑ i, Real.exp (xr i - m)) * hr k o : ℝ) : EReal) := by
    intro k
    rw [hZ, hw, Ideal.div_coe hpos.ne', hhr, ← EReal.coe_mul, ← EReal.coe_mul]
  rw [Finset.sum_congr rfl fun k _ => this k, ← coe_sum]
  congr 1
  rw [Finset.sum_mul]
  refine Finset.sum_congr rfl fun k _ => ?_
  ring

end Cert.Spec

end
-- ==== Proof.Real.lean ====
/-
  Realness is preserved.

  The layer's arrays are built from its arguments by finite sums, products, one comparison and two
  fixed finite constants. The extended reals contain the reals as a subset closed under sums and
  products, so if the arguments hold real numbers, so do the projected features, the attention
  features and the scores. This is what lets the softmax law, which is about real rows, be applied
  to a row of scores.
-/
import proofs.«430478_j33861522162300_3_alg».proof.Proof.Spec
import Idealize.ShloMosaic.PureOps.Ideal

noncomputable section

namespace Cert.Spec

open Idealize.ShloMosaic
open scoped BigOperators

/-! ## The reals inside the extended reals are closed under the operations used -/

theorem add_real {x y : EReal} (hx : ∃ a : ℝ, x = (a : EReal)) (hy : ∃ b : ℝ, y = (b : EReal)) :
    ∃ c : ℝ, x + y = (c : EReal) := by
  obtain ⟨a, rfl⟩ := hx
  obtain ⟨b, rfl⟩ := hy
  exact ⟨a + b, (EReal.coe_add a b).symm⟩

theorem mul_real {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

theorem sum_real {ι : Type} (s : Finset ι) (f : ι → EReal) (hf : ∀ i ∈ s, ∃ a : ℝ, f i = (a : EReal)) :
    ∃ c : ℝ, ∑ i ∈ s, f i = (c : EReal) := by
  induction s using Finset.cons_induction with
  | empty => exact ⟨0, by simp⟩
  | cons a s ha ih =>
    rw [Finset.sum_cons]
    exact add_real (hf a (Finset.mem_cons_self a s))
      (ih fun i hi => hf i (Finset.mem_cons.mpr (Or.inr hi)))

/-! ## The two constants are finite -/

/-- A word whose exponent field is not all ones denotes a real number (a zero, a subnormal or a
    normal), whatever its sign and significand. -/
theorem ieee_real (e m : ℕ) {w : ℕ} (b : BitVec w) (hex : (b.extractLsb' m e).toNat ≠ 2 ^ e - 1) :
    ∃ a : ℝ, Ideal.ieee e m b = (a : EReal) := by
  simp only [Ideal.ieee]
  rw [if_neg hex]
  split_ifs <;> exact ⟨_, rfl⟩

/-- The slope's exponent field is 124. -/
theorem slope_real : ∃ a : ℝ, slope = (a : EReal) :=
  ieee_real 8 23 (0x3E4CCCCD#32) (by decide)

/-- The stand-in's exponent field is 179. -/
theorem masked_real : ∃ a : ℝ, masked = (a : EReal) :=
  ieee_real 8 23 (0xD9FFCB9E#32) (by decide)

/-! ## The layer's arrays -/

theorem proj_real (X : Fin 8192 → Fin 256 → EReal) (Wt : Fin 256 → Fin 128 → EReal)
    (hX : ∀ r k, ∃ a : ℝ, X r k = (a : EReal)) (hW : ∀ k o, ∃ a : ℝ, Wt k o = (a : EReal)) :
    ∀ r o, ∃ a : ℝ, proj X Wt r o = (a : EReal) :=
  fun r o => sum_real _ _ fun k _ => mul_real (hX r k) (hW k o)

theorem feat_real (h : Fin 8192 → Fin 128 → EReal) (a : Fin 128 → EReal)
    (hh : ∀ r o, ∃ b : ℝ, h r o = (b : EReal)) (ha : ∀ o, ∃ b : ℝ, a o = (b : EReal)) :
    ∀ r, ∃ b : ℝ, feat h a r = (b : EReal) :=
  fun r => sum_real _ _ fun o _ => mul_real (hh r o) (ha o)

theorem leaky_real {s : EReal} (hs : ∃ a : ℝ, s = (a : EReal)) : ∃ b : ℝ, leaky s = (b : EReal) := by
  unfold leaky
  split_ifs
  · exact hs
  · exact mul_real slope_real hs

theorem score_real (f1 f2 : Fin 8192 → EReal) (adj : Fin 8192 → Fin 8192 → BitVec 32)
    (hf1 : ∀ r, ∃ a : ℝ, f1 r = (a : EReal)) (hf2 : ∀ k, ∃ a : ℝ, f2 k = (a : EReal)) :
    ∀ r k, ∃ a : ℝ, score f1 f2 adj r k = (a : EReal) := by
  intro r k
  unfold score
  split_ifs
  · exact leaky_real (add_real (hf1 r) (hf2 k))
  · exact masked_real

end Cert.Spec

end
-- ==== Proof.Closing.lean ====
/-
  The layer's output, walked blockwise.

  On real arguments the projected features, the two attention features and hence every row of
  scores are real, so the blockwise softmax law applies to each row: the exponential linear unit of
  the quotient of the blockwise accumulator by the blockwise normaliser is the layer's output.
-/
import proofs.«430478_j33861522162300_3_alg».proof.Proof.Spec
import proofs.«430478_j33861522162300_3_alg».proof.Proof.Softmax
import proofs.«430478_j33861522162300_3_alg».proof.Proof.Real

noncomputable section

namespace Cert.Spec

open Idealize.ShloMosaic

theorem out_eq_blockwise (X : Fin 8192 → Fin 256 → EReal) (adj : Fin 8192 → Fin 8192 → BitVec 32)
    (Wt : Fin 256 → Fin 128 → EReal) (a1 a2 : Fin 128 → EReal)
    (hX : ∀ r k, ∃ a : ℝ, X r k = (a : EReal)) (hW : ∀ k o, ∃ a : ℝ, Wt k o = (a : EReal))
    (ha1 : ∀ o, ∃ a : ℝ, a1 o = (a : EReal)) (ha2 : ∀ o, ∃ a : ℝ, a2 o = (a : EReal))
    (r : Fin 8192) (o : Fin 128) :
    elu (Ideal.div
        (runAcc (score (feat (proj X Wt) a1) (feat (proj X Wt) a2) adj r) (proj X Wt) o 8)
        (runNorm (score (feat (proj X Wt) a1) (feat (proj X Wt) a2) adj r) 8))
      = out X adj Wt a1 a2 r o := by
  have hh := proj_real X Wt hX hW
  rw [blockwise_eq _ _ (score_real _ _ adj (feat_real _ _ hh ha1) (feat_real _ _ hh ha2) r) hh o]
  rfl

end Cert.Spec

end
-- ==== Proof.KI.Bridge.lean ====
import proofs.«430478_j33861522162300_3_alg».proof.Proof.KI.Run
import proofs.«430478_j33861522162300_3_alg».proof.Proof.KI.Val0
import proofs.«430478_j33861522162300_3_alg».proof.Proof.KI.Val1
import proofs.«430478_j33861522162300_3_alg».proof.Proof.Spec
import proofs.«430478_j33861522162300_3_alg».proof.Proof.Closing
import Idealize.ShloMosaic.Lib.Pipeline.Value
import Idealize.ShloMosaic.Lib.ValueIdx
import Idealize.ShloMosaic.Lib.ValueLayout

/-!
# The kernel program's result array is the layer's output

What the second pipeline's write-backs leave in the result array is, element by element, the blockwise walk of a
row of scores (running maximum, running normaliser, running accumulator over the eight column blocks) over the
contents the second region is entered from. Those contents are the first region's three outputs, one of them
reshaped from a column into a row, and the adjacency as launched; the first region's outputs are the projected
features and the two attention features of the contents IT is entered from; and those are the feature and weight
arguments as launched and the two attention vectors transposed from columns into rows. Reading each array at an
index through its reshape or transpose puts the whole result in terms of the five arguments, and on real arguments
the blockwise walk is the row-wise softmax mixture: the layer's output.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (m : (ℓ : Loc nD τ sig) → Buf (Elt Ideal) ℓ) (ρ : Dev nD → PrngReg) (c : Dev nD)

/-! ## The five arguments by coordinates -/

/-- The node features. -/
abbrev argX : Fin 8192 → Fin 256 → EReal := fun r k => (m ((c : Thread nD τ).loc main_arg0) : S8192x256.Idx → EReal) (ix2 r k)
/-- The adjacency words. -/
abbrev argAdj : Fin 8192 → Fin 8192 → BitVec 32 := fun r k => (m ((c : Thread nD τ).loc main_arg1) : S8192x8192.Idx → BitVec 32) (ix2 r k)
/-- The projection weights. -/
abbrev argW : Fin 256 → Fin 128 → EReal := fun k o => (m ((c : Thread nD τ).loc main_arg2) : S256x128.Idx → EReal) (ix2 k o)
/-- The first attention vector, a column read down its one column. -/
abbrev argA1 : Fin 128 → EReal := fun o => (m ((c : Thread nD τ).loc main_arg3) : S128x1.Idx → EReal) (ix2 o (0 : Fin 1))
/-- The second attention vector. -/
abbrev argA2 : Fin 128 → EReal := fun o => (m ((c : Thread nD τ).loc main_arg4) : S128x1.Idx → EReal) (ix2 o (0 : Fin 1))

/-! ## The first region's entry contents, by coordinates -/

/-- The features are as launched. -/
theorem entry0_X : (fun (r : Fin 8192) (k : Fin 256) => (V1 m ρ c main_arg0 : S8192x256.Idx → EReal) (ix2 r k)) = argX m c := by
  rw [V1_arg0]
/-- The weights are as launched. -/
theorem entry0_W : (fun (k : Fin 256) (o : Fin 128) => (V1 m ρ c main_arg2 : S256x128.Idx → EReal) (ix2 k o)) = argW m c := by
  rw [V1_arg2]
/-- The first attention row at column `o` is the attention column at row `o`: a transpose read at (0, o). -/
theorem entry0_a1 : (fun (o : Fin 128) => (V1 m ρ c main_v0 : S1x128.Idx → EReal) (ix2 0 o)) = argA1 m c :=
  funext fun o => by
    rw [V1_v0]
    exact transpose_ix2_apply (m ((c : Thread nD τ).loc main_arg3) : S128x1.Idx → EReal) transposes_S128x1_S1x128_1_0 0 o
/-- The same of the second attention row. -/
theorem entry0_a2 : (fun (o : Fin 128) => (V1 m ρ c main_v1 : S1x128.Idx → EReal) (ix2 0 o)) = argA2 m c :=
  funext fun o => by
    rw [V1_v1]
    exact transpose_ix2_apply (m ((c : Thread nD τ).loc main_arg4) : S128x1.Idx → EReal) transposes_S128x1_S1x128_1_0 0 o

/-! ## The second region's entry contents, by coordinates -/

/-- The projected features the second region reads are `X · W` of the arguments. -/
theorem entry1_h : (fun (k : Fin 8192) (o : Fin 128) => (V3 m ρ c main_v2_0 : S8192x128.Idx → EReal) (ix2 k o))
    = Cert.Spec.proj (argX m c) (argW m c) :=
  funext fun k => funext fun o => by
    rw [V3_v2_0, arr0_h (V1 m ρ) c k o, entry0_X, entry0_W]
/-- The first attention feature column is `h · a₁`. -/
theorem entry1_f1 : (fun (r : Fin 8192) => (V3 m ρ c main_v2_1 : S8192x1.Idx → EReal) (ix2 r 0))
    = Cert.Spec.feat (Cert.Spec.proj (argX m c) (argW m c)) (argA1 m c) :=
  funext fun r => by
    rw [V3_v2_1, arr0_f1 (V1 m ρ) c r, entry0_X, entry0_W, entry0_a1]
/-- The second attention feature ROW at column `k` is the feature column at row `k` — a column of 8192 reshaped
    into a row of 8192 keeps every element's position in row-major order, `k` in both — and that is `h · a₂`. -/
theorem entry1_f2 : (fun (k : Fin 8192) => (V3 m ρ c main_v3 : S1x8192.Idx → EReal) (ix2 0 k))
    = Cert.Spec.feat (Cert.Spec.proj (argX m c) (argW m c)) (argA2 m c) :=
  funext fun k => by
    rw [V3_v3]
    refine (shapeCast_apply (s := S8192x1) (t := S1x8192) _ shapeCasts_S8192x1_S1x8192 (ix2 0 k) (ix2 k 0) ?_).trans ?_
    · rw [Shape.rowMajor_val_two, Shape.rowMajor_val_two]
      show k.val * 1 + 0 = 0 * 8192 + k.val
      omega
    · rw [arr0_f2 (V1 m ρ) c k, entry0_X, entry0_W, entry0_a2]
/-- The adjacency is as launched. -/
theorem entry1_adj : (fun (r k : Fin 8192) => (V3 m ρ c main_arg1 : S8192x8192.Idx → BitVec 32) (ix2 r k)) = argAdj m c := by
  rw [V3_arg1]

/-! ## The result -/

/-- THE KERNEL PROGRAM'S VALUE: on real arguments, the result array at (r, o) is the layer's output there. -/
theorem kernel_value
    (hX : ∀ i, ∃ a : ℝ, (m ((c : Thread nD τ).loc main_arg0) : S8192x256.Idx → EReal) i = (a : EReal))
    (hW : ∀ i, ∃ a : ℝ, (m ((c : Thread nD τ).loc main_arg2) : S256x128.Idx → EReal) i = (a : EReal))
    (ha1 : ∀ i, ∃ a : ℝ, (m ((c : Thread nD τ).loc main_arg3) : S128x1.Idx → EReal) i = (a : EReal))
    (ha2 : ∀ i, ∃ a : ℝ, (m ((c : Thread nD τ).loc main_arg4) : S128x1.Idx → EReal) i = (a : EReal))
    (r : Fin 8192) (o : Fin 128) :
    (dat1 (F := Ideal) (V3 m ρ) c).arrAt 4 cfg1.N (ix2 r o)
      = Cert.Spec.out
          (fun r k => (m ((c : Thread nD τ).loc main_arg0) : S8192x256.Idx → EReal) (ix2 r k))
          (fun r k => (m ((c : Thread nD τ).loc main_arg1) : S8192x8192.Idx → BitVec 32) (ix2 r k))
          (fun k o => (m ((c : Thread nD τ).loc main_arg2) : S256x128.Idx → EReal) (ix2 k o))
          (fun o => (m ((c : Thread nD τ).loc main_arg3) : S128x1.Idx → EReal) (ix2 o (0 : Fin 1)))
          (fun o => (m ((c : Thread nD τ).loc main_arg4) : S128x1.Idx → EReal) (ix2 o (0 : Fin 1))) r o := by
  refine (arr1_out (V3 m ρ) c r o).trans ?_
  rw [entry1_f1, entry1_f2, entry1_adj, entry1_h]
  exact Cert.Spec.out_eq_blockwise (argX m c) (argAdj m c) (argW m c) (argA1 m c) (argA2 m c)
    (fun r k => hX (ix2 r k)) (fun k o => hW (ix2 k o)) (fun o => ha1 (ix2 o 0)) (fun o => ha2 (ix2 o 0)) r o

end Cert.KernelIdeal.Hand

end
-- ==== Proof.Ref.Run.lean ====
/-
  The reference of the graph-attention layer, run.

  The reference is a straight line of fifty-two tensor operations: the projection `h = X · W`, the two
  attention features `h · a₁` and `h · a₂`, the table of their pairwise sums, the leaky rectifier of that
  table, the replacement of every entry off the graph's edges by one fixed finite number, the row-wise
  softmax (maximum, shift, exponential, sum, quotient), the mixture of the rows of `h` under those weights
  and the exponential linear unit of the mixture. Three of its steps are calls of small functions (the
  rectifier, a masking select, the exponential linear unit), two of which call a select of their own; a
  call means the callee's operations carried out on the call's own buffers, so here they stand in the list
  at the place of the call, over that call's record of buffers.

  `ops` is the list, `main_eq` that the program is the list run in order, and `run` the statement that
  every execution from any memory terminates with the result buffer holding `res` of the five arguments
  and the arguments untouched. `res` is a composition of NAMED STAGES, one per mathematical step
  (`vH`, `vF`, `vSum`, `vLeaky`, `vScore`, `vMax`, `vExp`, `vNorm`, `vWeights`, `vMix`, `vElu`), each a
  function of the stage before it, so that what the result is at one index can be read one stage at a
  time. The 8192 × 8192 tables stay functions of an index throughout: nothing here evaluates one.
-/
import proofs.«430478_j33861522162300_3_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The stages -/

/-- `h = X · W`: the projected features, one row of 128 per node. -/
def vH (x : FVec Ideal S8192x256 .f32) (w : FVec Ideal S256x128 .f32) : FVec Ideal S8192x128 .f32 :=
  Host.dotGeneral (F := Ideal) dot_S8192x256_S256x128_S8192x128_1_0_0_1_n_n none x w

/-- `f = h · a`: one number per node, held as a column. -/
def vF (h : FVec Ideal S8192x128 .f32) (a : FVec Ideal S128x1 .f32) : FVec Ideal S8192x1 .f32 :=
  Host.dotGeneral (F := Ideal) dot_S8192x128_S128x1_S8192x1_1_0_0_1_n_n none h a

/-- The table of sums `f₁ r + f₂ k`: the first column repeated along each row, the second laid on its side
    and repeated down each column. -/
def vSum (f1 f2 : FVec Ideal S8192x1 .f32) : FVec Ideal S8192x8192 .f32 :=
  addf (broadcastInDim S8192x8192 ![0, 1] bcast_S8192x1_S8192x8192_0_1 f1)
    (broadcastInDim S8192x8192 ![0, 1] bcast_S1x8192_S8192x8192_0_1
      (transpose S1x8192 [1, 0] f2 transposes_S8192x1_S1x8192_1_0))

/-- The leaky rectifier, entry by entry: the entry itself where it is at least zero, the slope times it elsewhere. -/
def vLeaky (s : FVec Ideal S8192x8192 .f32) : FVec Ideal S8192x8192 .f32 :=
  select (cmpf .oge s (broadcastInDim S8192x8192 ![] bcast_S_S8192x8192 (constant (F := Ideal) S_ .f32 0x00000000#32))) s
    (mulf (broadcastInDim S8192x8192 ![] bcast_S_S8192x8192 (constant (F := Ideal) S_ .f32 0x3E4CCCCD#32)) s)

/-- The scores: the rectified sum where the adjacency word is positive, the fixed finite stand-in elsewhere. -/
def vScore (adj : IVec S8192x8192 32) (s : FVec Ideal S8192x8192 .f32) : FVec Ideal S8192x8192 .f32 :=
  select (cmpi .sgt adj (broadcastInDim S8192x8192 ![] bcast_S_S8192x8192 (constantI S_ 32 0#32))) (vLeaky s)
    (broadcastInDim S8192x8192 ![] bcast_S_S8192x8192 (constant (F := Ideal) S_ .f32 0xD9FFCB9E#32))

/-- Each row's maximum: the fold of `max` along the row from −∞, and once more the maximum of that with −∞. -/
def vMax (e : FVec Ideal S8192x8192 .f32) : FVec Ideal S8192 .f32 :=
  maximumf (broadcastInDim S8192 ![] bcast_S_S8192 (constant (F := Ideal) S_ .f32 0xFF800000#32))
    (Host.reduce (FloatOps.maximumf (F := Ideal) (φ := .f32)) e (constant (F := Ideal) S_ .f32 0xFF800000#32)
      reducesTo_S8192x8192_S8192_d1 h_S_)

/-- One number per row, repeated along its row. -/
def vRow (v : FVec Ideal S8192 .f32) : FVec Ideal S8192x8192 .f32 :=
  broadcastInDim S8192x8192 ![0, 1] bcast_S8192x1_S8192x8192_0_1 (broadcastInDim S8192x1 ![0] bcast_S8192_S8192x1_0 v)

/-- The unnormalised softmax weights: the exponential of each score less its row's maximum. -/
def vExp (e : FVec Ideal S8192x8192 .f32) : FVec Ideal S8192x8192 .f32 :=
  Host.exp (subf e (vRow (vMax e)))

/-- Each row's sum, from zero. -/
def vNorm (p : FVec Ideal S8192x8192 .f32) : FVec Ideal S8192 .f32 :=
  Host.reduceAdd p (constant (F := Ideal) S_ .f32 0x00000000#32) reducesTo_S8192x8192_S8192_d1 h_S_

/-- The softmax weights: each unnormalised weight over its row's sum. -/
def vWeights (e : FVec Ideal S8192x8192 .f32) : FVec Ideal S8192x8192 .f32 :=
  Host.divf (vExp e) (vRow (vNorm (vExp e)))

/-- The mixture of the rows of `h` under the weights. -/
def vMix (e : FVec Ideal S8192x8192 .f32) (h : FVec Ideal S8192x128 .f32) : FVec Ideal S8192x128 .f32 :=
  Host.dotGeneral (F := Ideal) dot_S8192x8192_S8192x128_S8192x128_1_0_0_1_n_n none (vWeights e) h

/-- The exponential linear unit as the reference spells it: the entry where it is positive, and elsewhere one
    times `exp − 1` of the entry — that inner argument itself guarded, zero in place of a positive entry. -/
def vElu (y : FVec Ideal S8192x128 .f32) : FVec Ideal S8192x128 .f32 :=
  select (cmpf .ogt y (broadcastInDim S8192x128 ![] bcast_S_S8192x128 (constant (F := Ideal) S_ .f32 0x00000000#32))) y
    (mulf (broadcastInDim S8192x128 ![] bcast_S_S8192x128 (constant (F := Ideal) S_ .f32 0x3F800000#32))
      (Host.expm1 (select (cmpf .ogt y (broadcastInDim S8192x128 ![] bcast_S_S8192x128 (constant (F := Ideal) S_ .f32 0x00000000#32)))
        (broadcastInDim S8192x128 ![] bcast_S_S8192x128 (constant (F := Ideal) S_ .f32 0x00000000#32)) y)))

/-- What the reference computes from its five arguments. -/
def res (x : FVec Ideal S8192x256 .f32) (adj : IVec S8192x8192 32) (w : FVec Ideal S256x128 .f32)
    (a1 a2 : FVec Ideal S128x1 .f32) : FVec Ideal S8192x128 .f32 :=
  vElu (vMix (vScore adj (vSum (vF (vH x w) a1) (vF (vH x w) a2))) (vH x w))

/-! ## The operations -/

variable {F : FTy → Type} [FloatOps F]

/-- The fifty-two operations in order, each callee's at its call: the rectifier's seven (its zero, the zero
    spread, the test, the slope converted and spread, the product, the select) over `main_call0`; the masking
    select's three over `main_call1`; the exponential linear unit's fifteen over `main_call2`. -/
abbrev ops : List (HloOp τ sig (Elt F)) :=
  [ binary main_arg0 main_arg2 main_v0 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    binary main_v0 main_arg3 main_v1 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    binary main_v0 main_arg4 main_v2 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v6 : TRef sig ⟨S8192x8192, .f32⟩) main_call0.v0 main_call0.v1 (cmpf .oge),
    TRef.unary (.of main_cst : TRef sig ⟨S_, .f32⟩) main_call0.v2 id,
    TRef.unary main_call0.v2 main_call0.v3 (broadcastInDim S8192x8192 ![] bcast_S_S8192x8192),
    TRef.binary main_call0.v3 (.of main_v6 : TRef sig ⟨S8192x8192, .f32⟩) main_call0.v4 mulf,
    TRef.ternary main_call0.v1 (.of main_v6 : TRef sig ⟨S8192x8192, .f32⟩) main_call0.v4 main_call0.call0.v0 select,
    nullary main_c (constantI S_ 32 0#32),
    unary main_c main_v8 (broadcastInDim S8192x8192 ![] bcast_S_S8192x8192 : (⟨S_, .i32⟩ : BufTy).Contents (Elt F) → (⟨S8192x8192, .i32⟩ : BufTy).Contents (Elt F)),
    binary main_arg1 main_v8 main_v9 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0 : TRef sig ⟨S_, .f32⟩) main_call1.v0 id,
    TRef.unary main_call1.v0 main_call1.v1 (broadcastInDim S8192x8192 ![] bcast_S_S8192x8192),
    TRef.ternary (.of main_v9 : TRef sig ⟨S8192x8192, .i1⟩) (.of main_v7 : TRef sig ⟨S8192x8192, .f32⟩) main_call1.v1 main_call1.v2 select,
    nullary main_cst_1 (constant S_ .f32 0xFF800000#32),
    binary main_v10 main_cst_1 main_v11 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v12 (broadcastInDim S8192 ![] bcast_S_S8192 : (⟨S_, .f32⟩ : BufTy).Contents (Elt F) → (⟨S8192, .f32⟩ : BufTy).Contents (Elt F)),
    binary main_v12 main_v11 main_v13 (maximumf : (⟨S8192, .f32⟩ : BufTy).Contents (Elt F) → (⟨S8192, .f32⟩ : BufTy).Contents (Elt F) → (⟨S8192, .f32⟩ : BufTy).Contents (Elt F)),
    unary main_v13 main_v14 (broadcastInDim S8192x1 ![0] bcast_S8192_S8192x1_0 : (⟨S8192, .f32⟩ : BufTy).Contents (Elt F) → (⟨S8192x1, .f32⟩ : BufTy).Contents (Elt F)),
    unary main_v14 main_v15 (broadcastInDim S8192x8192 ![0, 1] bcast_S8192x1_S8192x8192_0_1 : (⟨S8192x1, .f32⟩ : BufTy).Contents (Elt F) → (⟨S8192x8192, .f32⟩ : BufTy).Contents (Elt F)),
    binary main_v10 main_v15 main_v16 (subf : (⟨S8192x8192, .f32⟩ : BufTy).Contents (Elt F) → (⟨S8192x8192, .f32⟩ : BufTy).Contents (Elt F) → (⟨S8192x8192, .f32⟩ : BufTy).Contents (Elt F)),
    unary main_v16 main_v17 (Host.exp : (⟨S8192x8192, .f32⟩ : BufTy).Contents (Elt F) → (⟨S8192x8192, .f32⟩ : BufTy).Contents (Elt F)),
    nullary main_cst_3 (constant S_ .f32 0x00000000#32),
    binary main_v17 main_cst_3 main_v18 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v18 main_v19 (broadcastInDim S8192x1 ![0] bcast_S8192_S8192x1_0 : (⟨S8192, .f32⟩ : BufTy).Contents (Elt F) → (⟨S8192x1, .f32⟩ : BufTy).Contents (Elt F)),
    unary main_v19 main_v20 (broadcastInDim S8192x8192 ![0, 1] bcast_S8192x1_S8192x8192_0_1 : (⟨S8192x1, .f32⟩ : BufTy).Contents (Elt F) → (⟨S8192x8192, .f32⟩ : BufTy).Contents (Elt F)),
    binary main_v17 main_v20 main_v21 (Host.divf : (⟨S8192x8192, .f32⟩ : BufTy).Contents (Elt F) → (⟨S8192x8192, .f32⟩ : BufTy).Contents (Elt F) → (⟨S8192x8192, .f32⟩ : BufTy).Contents (Elt F)),
    binary main_v21 main_v0 main_v22 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    TRef.nullary main_call2.cst (constant S_ .f32 0x00000000#32),
    TRef.unary main_call2.cst main_call2.v0 (broadcastInDim S8192x128 ![] bcast_S_S8192x128),
    TRef.binary (.of main_v22 : TRef sig ⟨S8192x128, .f32⟩) main_call2.v0 main_call2.v1 (cmpf .ogt),
    TRef.nullary main_call2.cst_0 (constant S_ .f32 0x00000000#32),
    TRef.unary main_call2.cst_0 main_call2.v2 (broadcastInDim S8192x128 ![] bcast_S_S8192x128),
    TRef.binary (.of main_v22 : TRef sig ⟨S8192x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x128 ![] bcast_S_S8192x128),
    TRef.ternary main_call2.v3 main_call2.call0.v1 (.of main_v22 : TRef sig ⟨S8192x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S8192x128 ![] bcast_S_S8192x128),
    TRef.binary main_call2.v6 main_call2.v5 main_call2.v7 mulf,
    TRef.ternary main_call2.v1 (.of main_v22 : TRef sig ⟨S8192x128, .f32⟩) main_call2.v7 main_call2.call1.v0 select ]

-- fifty-two binds re-associated, one recursion per statement
set_option maxRecDepth 2048 in
/-- The program is that line: the callees' definitions opened at their calls and the records at their fields,
    both sides are one chain of steps once the sequencing is re-associated. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-! ## What the line leaves in the buffers -/

set_option maxRecDepth 8192 in
/-- The result buffer after the line holds `res` of the argument buffers' contents: each operation's value at
    its own buffer, what was there at every other, and the stages are that composition by name. -/
theorem res_eq (V : Valuation τ sig (Elt Ideal)) :
    after (ops (F := Ideal)) V (main_v23 : DevRef τ sig)
      = res (V (main_arg0 : DevRef τ sig)) (V (main_arg1 : DevRef τ sig)) (V (main_arg2 : DevRef τ sig))
          (V (main_arg3 : DevRef τ sig)) (V (main_arg4 : DevRef τ sig)) := by
  after_results_simp
  simp only [TRef.ofBuf, TRef.toBuf, cast_eq, id_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-! ## The run -/

/-- From any memory with zero counters, every weakly fair execution of the reference terminates, the result
    buffer holding `res` of the five arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23)
        = res (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v23).trans (res_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.Hand

end
-- ==== Proof.Ref.Value.lean ====
/-
  The reference's result, read at one index, is the shared specification.

  `res` is a composition of whole-array stages. Read at an index each stage is a formula in the stage before it:
  a product of two arrays is, at (i, j), the sum over the shared coordinate of the products of the entries; the
  table of sums at (r, k) is `f₁ r + f₂ k` (a column repeated along its rows, a second one laid on its side and
  repeated down the columns); the rectifier, the mask and the exponential linear unit act entry by entry; a row's
  maximum is the fold of `max` from −∞ over the row's 8192 entries; a row's sum is zero plus the sum over them; a
  per-row number repeated along the row reads that number at every column.

  Four places where the reference's text and the specification's differ, and why they agree:
  the rectifier tests `0 ≤ s` where the specification tests `0 < s` — at `s = 0` one gives `0` and the other
  `slope · 0 = 0`; the maximum is taken once more against −∞, which changes nothing; the normaliser is `0 + ∑`;
  and the exponential linear unit is `x` where `0 < x`, else `1 · (exp y − 1)` with `y` itself guarded
  (`0` in place of a positive `x`), which on the branch where it is read is `exp x − 1`.
-/
import proofs.«430478_j33861522162300_3_alg».proof.Proof.Ref.Run
import proofs.«430478_j33861522162300_3_alg».proof.Proof.Spec
import Idealize.ShloMosaic.Lib.ValueIdx
import Idealize.ShloMosaic.Lib.IdealHost
import Idealize.ShloMosaic.Lib.Pipeline.Value
import Idealize.ShloMosaic.PureOps.Reduce
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-- A product of an M×K by a K×N array, neither batched, read at (i, j): the sum over the K shared
    coordinates of the products. -/
theorem dot2_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ .f32) (r : FVec Ideal ⟨2, ![K, N]⟩ .f32) (i : Fin M) (j : Fin N) :
    Host.dotGeneral (F := Ideal) d none l r (ix2 i j) = ∑ k : Fin K, l (ix2 i k) * r (ix2 k j) := by
  obtain ⟨lc, rc, ln, rn, lb, rb, wf⟩ := d
  simp only at h1 h2 h3 h4 h5 h6
  subst h1 h2 h3 h4 h5 h6
  refine (Ideal.dotGeneral_apply _ none .single l r (ix2 i j)).trans ?_
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  congr 2
  · funext a
    match a with
    | ⟨0, _⟩ => exact Fin.ext rfl
    | ⟨1, _⟩ => exact Fin.ext (contrEquiv1_symm_val _ K hr hs k)
  · funext a
    match a with
    | ⟨0, _⟩ => exact Fin.ext (contrEquiv1_symm_val _ K hr hs k)
    | ⟨1, _⟩ => exact Fin.ext rfl

/-! ## The three products -/

/-- The projection at (r, o): the sum over the 256 input features. -/
theorem vH_apply (x : FVec Ideal S8192x256 .f32) (w : FVec Ideal S256x128 .f32) (r : Fin 8192) (o : Fin 128) :
    vH x w (ix2 r o) = ∑ k : Fin 256, x (ix2 r k) * w (ix2 k o) :=
  dot2_apply dot_S8192x256_S256x128_S8192x128_1_0_0_1_n_n rfl rfl rfl rfl rfl rfl x w r o

/-- An attention feature at node r: the sum over the 128 projected features. -/
theorem vF_apply (h : FVec Ideal S8192x128 .f32) (a : FVec Ideal S128x1 .f32) (r : Fin 8192) :
    vF h a (ix2 r (0 : Fin 1)) = ∑ o : Fin 128, h (ix2 r o) * a (ix2 o (0 : Fin 1)) :=
  dot2_apply dot_S8192x128_S128x1_S8192x1_1_0_0_1_n_n rfl rfl rfl rfl rfl rfl h a r 0

/-- The mixture at (r, o): the sum over the 8192 nodes of weight times projected feature. -/
theorem vMix_apply (e : FVec Ideal S8192x8192 .f32) (h : FVec Ideal S8192x128 .f32) (r : Fin 8192) (o : Fin 128) :
    vMix e h (ix2 r o) = ∑ k : Fin 8192, vWeights e (ix2 r k) * h (ix2 k o) :=
  dot2_apply dot_S8192x8192_S8192x128_S8192x128_1_0_0_1_n_n rfl rfl rfl rfl rfl rfl (vWeights e) h r o

/-! ## The table of sums -/

/-- The table of sums at (r, k): the first feature of the row's node plus the second of the column's. -/
theorem vSum_apply (f1 f2 : FVec Ideal S8192x1 .f32) (r k : Fin 8192) :
    vSum f1 f2 (ix2 r k) = f1 (ix2 r (0 : Fin 1)) + f2 (ix2 k (0 : Fin 1)) := by
  unfold vSum
  rw [addf_apply]
  congr 1
  · exact broadcastInDim_apply _ _ f1 (ix2 r k) (ix2 r (0 : Fin 1)) (fun a => by
      match a with
      | ⟨0, _⟩ => rfl
      | ⟨1, _⟩ => rfl)
  · refine (broadcastInDim_apply _ _ _ (ix2 r k) (ix2 (0 : Fin 1) k) (fun a => by
      match a with
      | ⟨0, _⟩ => rfl
      | ⟨1, _⟩ => rfl)).trans ?_
    exact transpose_apply _ f2 _ (ix2 (0 : Fin 1) k) (ix2 k (0 : Fin 1)) (fun b => by
      match b with
      | ⟨0, _⟩ => rfl
      | ⟨1, _⟩ => rfl)

/-! ## The literals -/

/-- The pattern with sign set, exponent all ones and no fraction is −∞. -/
theorem ofBits_neg_inf_f32 : Ideal.ofBits .f32 0xFF800000#32 = ⊥ := by
  simp [Ideal.ofBits, Ideal.ieee]

/-! ## The rectifier and the mask -/

/-- A select on "at least zero" is the `if`. -/
theorem select_oge_zero {α : Type} (s : EReal) (a b : α) :
    Scalar.select (Ideal.cmp .oge s 0) a b = if 0 ≤ s then a else b := by
  unfold Scalar.select Ideal.cmp
  by_cases h : (0 : EReal) ≤ s <;> simp [h]

/-- A select on "above zero" is the `if`. -/
theorem select_ogt_zero {α : Type} (s : EReal) (a b : α) :
    Scalar.select (Ideal.cmp .ogt s 0) a b = if 0 < s then a else b := by
  unfold Scalar.select Ideal.cmp
  by_cases h : (0 : EReal) < s <;> simp [h]

/-- The reference's rectifier is the specification's at every entry: they differ only in which branch takes
    `s = 0`, where both give zero. -/
theorem vLeaky_apply (s : FVec Ideal S8192x8192 .f32) (j : S8192x8192.Idx) :
    vLeaky s j = Cert.Spec.leaky (s j) := by
  unfold vLeaky Cert.Spec.leaky
  rw [select_apply, cmpf_apply, mulf_apply, broadcastInDim_scalar_apply, broadcastInDim_scalar_apply, constant_apply,
    constant_apply, Ideal.ofBits_zero_f32, Ideal.cmpf_def, select_oge_zero]
  by_cases h : (0 : EReal) < s j
  · rw [if_pos h.le, if_pos h]
  · by_cases h0 : (0 : EReal) ≤ s j
    · have e : s j = 0 := le_antisymm (not_lt.1 h) h0
      rw [if_pos h0, if_neg h, e, mul_zero]
    · rw [if_neg h0, if_neg h]

/-- A score: the rectified sum where the adjacency word is positive, the stand-in elsewhere. -/
theorem vScore_apply (adj : IVec S8192x8192 32) (s : FVec Ideal S8192x8192 .f32) (j : S8192x8192.Idx) :
    vScore adj s j = if IntOp.cmpi .sgt (adj j) 0#32 = 1#1 then Cert.Spec.leaky (s j) else Cert.Spec.masked := by
  unfold vScore
  rw [select_apply, vLeaky_apply, broadcastInDim_scalar_apply, constant_apply]
  rfl

/-! ## The softmax -/

/-- Dropping the column axis of the square table leaves the row axis. -/
theorem reduces_rows : S8192x8192.Reduces [1] S8192 := by decide

/-- The table index over row r with column coordinate k is (r, k). -/
theorem lift_rows (r k : Fin 8192) : reduces_rows.lift (ix1 r) k = ix2 r k := by
  funext a
  match a with
  | ⟨0, _⟩ => exact Fin.ext rfl
  | ⟨1, _⟩ => exact Fin.ext rfl

/-- A row's maximum is the fold of `max` from −∞ over the row; the second maximum against −∞ is absorbed. -/
theorem vMax_apply (e : FVec Ideal S8192x8192 .f32) (r : Fin 8192) :
    vMax e (ix1 r) = Cert.Spec.rowMax (fun k => e (ix2 r k)) := by
  unfold vMax
  rw [maximumf_apply, broadcastInDim_scalar_apply,
    Host.reduce_eq_fold_single _ e _ reducesTo_S8192x8192_S8192_d1 reduces_rows h_S_ (ix1 r), constant_apply,
    constant_apply, ofBits_neg_inf_f32, max_eq_right bot_le]
  unfold Cert.Spec.rowMax
  have hrow : (e ∘ reduces_rows.lift (ix1 r)) = fun k : Fin 8192 => e (ix2 r k) :=
    funext fun k => congrArg e (lift_rows r k)
  rw [hrow]
  rfl

/-- A per-row number repeated along its row reads that number at every column. -/
theorem vRow_apply (v : FVec Ideal S8192 .f32) (r k : Fin 8192) : vRow v (ix2 r k) = v (ix1 r) := by
  unfold vRow
  refine (broadcastInDim_apply _ _ _ (ix2 r k) (ix2 r (0 : Fin 1)) (fun a => by
      match a with
      | ⟨0, _⟩ => rfl
      | ⟨1, _⟩ => rfl)).trans ?_
  exact broadcastInDim_apply _ _ v (ix2 r (0 : Fin 1)) (ix1 r) (fun a => by
      match a with
      | ⟨0, _⟩ => rfl)

/-- The unnormalised weight at (r, k): the exponential of the score less the row's maximum. -/
theorem vExp_apply (e : FVec Ideal S8192x8192 .f32) (r k : Fin 8192) :
    vExp e (ix2 r k) = Cert.Spec.weight (fun k => e (ix2 r k)) k := by
  unfold vExp Cert.Spec.weight
  show FloatOps.hostUnary .exp (subf e (vRow (vMax e)) (ix2 r k)) = _
  rw [Ideal.hostUnary_exp_def, subf_apply, vRow_apply, vMax_apply]

/-- A row's sum from zero is the sum over the row. -/
theorem vNorm_apply (p : FVec Ideal S8192x8192 .f32) (r : Fin 8192) :
    vNorm p (ix1 r) = ∑ k : Fin 8192, p (ix2 r k) := by
  unfold vNorm
  rw [hostReduceAdd_apply, Ideal.hostReduceAdd_single _ reduces_rows, constant_apply, Ideal.ofBits_zero_f32, zero_add]
  exact Finset.sum_congr rfl fun k _ => congrArg p (lift_rows r k)

/-- The softmax weight at (r, k): the unnormalised weight over the row's normaliser. -/
theorem vWeights_apply (e : FVec Ideal S8192x8192 .f32) (r k : Fin 8192) :
    vWeights e (ix2 r k)
      = Ideal.div (Cert.Spec.weight (fun k => e (ix2 r k)) k) (Cert.Spec.norm (fun k => e (ix2 r k))) := by
  unfold vWeights Cert.Spec.norm
  rw [hostDivf_apply, vRow_apply, vNorm_apply, vExp_apply]
  exact congrArg _ (Finset.sum_congr rfl fun k _ => vExp_apply e r k)

/-! ## The exponential linear unit -/

/-- The reference's exponential linear unit is the specification's at every entry: where the entry is not
    positive the guarded inner argument is the entry itself, and the factor one drops. -/
theorem vElu_apply (y : FVec Ideal S8192x128 .f32) (j : S8192x128.Idx) : vElu y j = Cert.Spec.elu (y j) := by
  unfold vElu Cert.Spec.elu
  rw [select_apply, cmpf_apply, mulf_apply, broadcastInDim_scalar_apply, broadcastInDim_scalar_apply, constant_apply,
    constant_apply, Ideal.ofBits_zero_f32, Ideal.ofBits_one_f32, Ideal.cmpf_def, one_mul]
  show Scalar.select _ _ (FloatOps.hostUnary .expm1 _) = _
  rw [Ideal.hostUnary_expm1_def, select_apply, cmpf_apply, broadcastInDim_scalar_apply, constant_apply,
    Ideal.ofBits_zero_f32, Ideal.cmpf_def, select_ogt_zero, select_ogt_zero]
  by_cases h : (0 : EReal) < y j
  · rw [if_pos h, if_pos h]
  · rw [if_neg h, if_neg h, if_neg h]

/-! ## The result at an index -/

/-- Row `r` of the reference's score table is the specification's score row: the rectified sum of the two attention
    features on an edge, the stand-in off it. -/
theorem score_row (x : FVec Ideal S8192x256 .f32) (adj : IVec S8192x8192 32) (w : FVec Ideal S256x128 .f32)
    (a1 a2 : FVec Ideal S128x1 .f32) (r : Fin 8192) :
    (fun k : Fin 8192 => vScore adj (vSum (vF (vH x w) a1) (vF (vH x w) a2)) (ix2 r k))
      = Cert.Spec.score
          (Cert.Spec.feat (Cert.Spec.proj (fun r k => x (ix2 r k)) (fun k o => w (ix2 k o))) (fun o => a1 (ix2 o 0)))
          (Cert.Spec.feat (Cert.Spec.proj (fun r k => x (ix2 r k)) (fun k o => w (ix2 k o))) (fun o => a2 (ix2 o 0)))
          (fun r k => adj (ix2 r k)) r := by
  funext k
  rw [vScore_apply, vSum_apply, vF_apply, vF_apply]
  unfold Cert.Spec.score Cert.Spec.feat Cert.Spec.proj
  simp only [vH_apply]

/-- The reference's result at (r, o) is the specification's output there. -/
theorem res_apply (x : FVec Ideal S8192x256 .f32) (adj : IVec S8192x8192 32) (w : FVec Ideal S256x128 .f32)
    (a1 a2 : FVec Ideal S128x1 .f32) (r : Fin 8192) (o : Fin 128) :
    res x adj w a1 a2 (ValueIdx.ix2 r o)
      = Cert.Spec.out (fun r k => x (ValueIdx.ix2 r k)) (fun r k => adj (ValueIdx.ix2 r k))
          (fun k o => w (ValueIdx.ix2 k o)) (fun o => a1 (ValueIdx.ix2 o 0)) (fun o => a2 (ValueIdx.ix2 o 0)) r o := by
  unfold res Cert.Spec.out
  rw [vElu_apply, vMix_apply]
  refine congrArg Cert.Spec.elu ?_
  unfold Cert.Spec.mix
  refine Finset.sum_congr rfl fun k _ => ?_
  rw [vWeights_apply, score_row, vH_apply]
  rfl

end Cert.ReferenceIdeal.Hand

end
-- ==== Proof.Finite.lean ====
/-
  From the precondition to real numbers. The printed predicate is the conjunction, over the four float
  arguments, of "every entry's absolute value is below +∞"; read at the extended reals that says every
  entry is a real number (neither infinity), which is what the softmax laws need: sums of products of
  reals are reals, and a quotient by a positive real distributes over a finite sum.
-/
import proofs.«430478_j33861522162300_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

variable [Cert.Pre_finite_inputs.Facts]
open Cert.Pre_finite_inputs.Facts

/-- The scalar shape has one index. -/
instance : Subsingleton S_.Idx := ⟨fun a b => funext fun d => d.elim0⟩

/-- The word `0x7F800000` denotes +∞. -/
theorem ofBits_inf : Ideal.ofBits .f32 0x7F800000#32 = ⊤ := by
  simp [Ideal.ofBits, Ideal.ieee]

/-- An extended real whose absolute value is strictly below +∞ is a real number. -/
theorem real_of_abs_lt_top (x : EReal) (h : max x (-x) < ⊤) : ∃ a : ℝ, x = (a : EReal) := by
  induction x using EReal.rec with
  | bot => simp at h
  | coe a => exact ⟨a, rfl⟩
  | top => simp at h

/-- One entry's test bit, read back. -/
theorem real_of_bit (x : EReal)
    (h : FloatOps.cmpf (F := Ideal) (φ := .f32) .olt (FloatOps.hostAbsf x) (FloatOps.ofBits .f32 0x7F800000#32) = 1#1) :
    ∃ a : ℝ, x = (a : EReal) := by
  apply real_of_abs_lt_top
  rw [Ideal.cmpf_def, Ideal.hostAbsf_def, Ideal.absf_def, Ideal.ofBits_def, ofBits_inf] at h
  unfold Ideal.cmp at h
  by_contra hn
  simp [hn] at h

/-- The precondition at the extended reals: every entry of every float argument is a real number. -/
theorem reals_of_pre (x : FVec Ideal S8192x256 .f32) (adj : IVec S8192x8192 32) (w : FVec Ideal S256x128 .f32)
    (a1 a2 : FVec Ideal S128x1 .f32) (h : fn (F := Ideal) x adj w a1 a2 = fun _ => 1#1) :
    (∀ i, ∃ a : ℝ, x i = (a : EReal)) ∧ (∀ i, ∃ a : ℝ, w i = (a : EReal))
      ∧ (∀ i, ∃ a : ℝ, a1 i = (a : EReal)) ∧ (∀ i, ∃ a : ℝ, a2 i = (a : EReal)) := by
  have h0 := congrFun h ValueIdx.ix0
  dsimp only [fn, fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_bit _ (Host.reduce_andi_all _ _ _ _ _ h1 i)
  · exact real_of_bit _ (Host.reduce_andi_all _ _ _ _ _ h2 i)
  · exact real_of_bit _ (Host.reduce_andi_all _ _ _ _ _ h3 i)
  · exact real_of_bit _ (Host.reduce_andi_all _ _ _ _ _ h4 i)

end Cert.Finite

end
-- ==== Proof.lean ====
/-
  The certificate of a graph-attention layer: a two-stage TPU kernel against its plain reference, over the
  extended reals.

  The layer: `h = X · W`; per node the two features `f₁ = h · a₁`, `f₂ = h · a₂`; the score of a pair
  (r, k) is the leaky rectifier of `f₁ r + f₂ k` where the adjacency word is positive and a finite stand-in
  elsewhere; each row of scores goes through a softmax; the rows of `h` are mixed under those weights; the
  exponential linear unit closes. The kernel computes `h`, `f₁`, `f₂` in a first grid of 8 row blocks, then
  walks each row block over 8 column blocks keeping a running maximum, a running normaliser and a running
  numerator, rescaling the last two whenever the maximum grows, and divides once at the end; the reference
  normalises every weight first and then mixes.

  Over the extended reals both are one function of the five arguments (`Cert.Spec.out`): a change of float format
  is the identity, the block products are plain sums, `exp (a − b) · exp (x − a) = exp (x − b)` makes the rescaled
  running sums the sums at the final maximum, and a quotient by the normaliser — a real number that is at
  least one, the maximal column contributing `exp 0` — distributes over the finite sum. The last two steps are
  where the precondition is used: every float argument is finite, so every score and every entry of `h` is a
  real number.

  The three frames: the word-level kernel and its reading over the extended reals run through the same four
  segments (two transposes, the projection grid, a reshape, the attention grid), each grid point's body
  executed symbolically with the three running buffers named from point to point; the reference is a
  straight line of host operations. Nothing was rewritten between the word-level kernel and its idealisation, so
  that conjunct is trivial.
-/
import proofs.«430478_j33861522162300_3_alg».proof.Defs
import proofs.«430478_j33861522162300_3_alg».proof.Proof.Gen.Kernel
import proofs.«430478_j33861522162300_3_alg».proof.Proof.Gen.KernelIdeal
import proofs.«430478_j33861522162300_3_alg».proof.Proof.Gen.ReferenceIdeal
import proofs.«430478_j33861522162300_3_alg».proof.Proof.Gen.Pre_finite_inputs
import proofs.«430478_j33861522162300_3_alg».proof.Proof.K.Run
import proofs.«430478_j33861522162300_3_alg».proof.Proof.KI.Run
import proofs.«430478_j33861522162300_3_alg».proof.Proof.KI.Bridge
import proofs.«430478_j33861522162300_3_alg».proof.Proof.Ref.Run
import proofs.«430478_j33861522162300_3_alg».proof.Proof.Ref.Value
import proofs.«430478_j33861522162300_3_alg».proof.Proof.Finite
import Idealize.ShloMosaic.Adequacy
import Idealize.ShloMosaic.Init

noncomputable section

namespace Cert.Proof

open Idealize.ShloMosaic Idealize.SL.Sem

/-- The word-level kernel runs to the end, faults nowhere and leaves its five arguments as launched. -/
theorem frame_k : Cert.frame_Kernel := fun m ρ _ => Cert.Kernel.Hand.frame m ρ

/-- So does its reading over the extended reals: the same segments, the same bodies. -/
theorem frame_ki : Cert.frame_KernelIdeal := fun m ρ _ => Cert.KernelIdeal.Hand.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Hand.run m ρ)

/-- From memories that agree on the arguments both programs end with the layer's output: the kernel's array
    after its second grid, the reference's last buffer — each is `Cert.Spec.out` of the arguments, entry by entry. -/
theorem algebraic : Cert.algebraic_KernelIdeal_ReferenceIdeal := by
  intro m ρ m' ρ' hpre hagree
  refine ⟨fun c => (Cert.KernelIdeal.Hand.dat1 (F := Ideal) (Cert.KernelIdeal.Hand.V3 m ρ) c).arrAt 4 Cert.KernelIdeal.cfg1.N,
    Cert.KernelIdeal.Hand.run_all m ρ, ?_⟩
  refine (θ_run Cert.ReferenceIdeal.defs _ _).mono (fun _ h c => ⟨(h c).1.trans ?_, (h c).2⟩)
    (Cert.ReferenceIdeal.Hand.run m' ρ')
  obtain ⟨hX, hW, ha1, ha2⟩ := Cert.Finite.reals_of_pre _ _ _ _ _ (hpre c)
  rw [(hagree c).1, (hagree c).2.1, (hagree c).2.2.1, (hagree c).2.2.2.1, (hagree c).2.2.2.2]
  funext i
  obtain ⟨r, o, rfl⟩ : ∃ (r : Fin 8192) (o : Fin 128), i = ValueIdx.ix2 r o := ⟨i 0, i 1, ValueIdx.eq_ix2 i⟩
  rw [Cert.ReferenceIdeal.Hand.res_apply]
  exact (Cert.KernelIdeal.Hand.kernel_value m ρ c hX hW ha1 ha2 r o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
